-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x16 : Shape := ⟨2, ![1024, 16]⟩
abbrev S16x256 : Shape := ⟨2, ![16, 256]⟩
abbrev S272x1 : Shape := ⟨2, ![272, 1]⟩
abbrev S1 : Shape := ⟨1, ![1]⟩
abbrev S_ : Shape := ⟨0, ![]⟩

class Facts : Prop where
  bcast_S_S1024x16 : S_.BroadcastsInDim S1024x16 (![] : Fin 0 → Fin S1024x16.rank)
  reducesTo_S1024x16_S_d0_1 : S1024x16.ReducesTo [0, 1] S_
  h_S_ : 0 < S_.numel
  bcast_S_S16x256 : S_.BroadcastsInDim S16x256 (![] : Fin 0 → Fin S16x256.rank)
  reducesTo_S16x256_S_d0_1 : S16x256.ReducesTo [0, 1] S_
  bcast_S_S272x1 : S_.BroadcastsInDim S272x1 (![] : Fin 0 → Fin S272x1.rank)
  reducesTo_S272x1_S_d0_1 : S272x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_v13 : IVec S_ 1) (main_v16 : IVec S1 1) : IVec S_ 1 :=
  let main_c_5 : IVec S_ 1 := constantI S_ 1 1#1
  let main_v17 : IVec S_ 1 := (fun x v => Host.reduce IntOp.andi x v reducesTo_S1_S_d0 h_S_) main_v16 main_c_5
  let main_v18 : IVec S_ 1 := andi main_v13 main_v17
  main_v18

def fn {F : FTy → Type} [FloatOps F] (main_arg0 : FVec F S1024x16 .f32) (main_arg1 : FVec F S16x256 .f32) (main_arg2 : FVec F S272x1 .f32) (main_arg3 : FVec F S1 .f32) : IVec S_ 1 :=
  let main_v0 : FVec F S1024x16 .f32 := Host.absf main_arg0
  let main_cst : FVec F S_ .f32 := constant S_ .f32 0x7F800000#32
  let main_v1 : FVec F S1024x16 .f32 := broadcastInDim S1024x16 ![] bcast_S_S1024x16 main_cst
  let main_v2 : IVec S1024x16 1 := cmpf .olt main_v0 main_v1
  let main_c : IVec S_ 1 := constantI S_ 1 1#1
  let main_v3 : IVec S_ 1 := (fun x v => Host.reduce IntOp.andi x v reducesTo_S1024x16_S_d0_1 h_S_) main_v2 main_c
  let main_v4 : FVec F S16x256 .f32 := Host.absf main_arg1
  let main_cst_0 : FVec F S_ .f32 := constant S_ .f32 0x7F800000#32
  let main_v5 : FVec F S16x256 .f32 := broadcastInDim S16x256 ![] bcast_S_S16x256 main_cst_0
  let main_v6 : IVec S16x256 1 := cmpf .olt main_v4 main_v5
  let main_c_1 : IVec S_ 1 := constantI S_ 1 1#1
  let main_v7 : IVec S_ 1 := (fun x v => Host.reduce IntOp.andi x v reducesTo_S16x256_S_d0_1 h_S_) main_v6 main_c_1
  let main_v8 : IVec S_ 1 := andi main_v3 main_v7
  let main_v9 : FVec F S272x1 .f32 := Host.absf main_arg2
  let main_cst_2 : FVec F S_ .f32 := constant S_ .f32 0x7F800000#32
  let main_v10 : FVec F S272x1 .f32 := broadcastInDim S272x1 ![] bcast_S_S272x1 main_cst_2
  let main_v11 : IVec S272x1 1 := cmpf .olt main_v9 main_v10
  let main_c_3 : IVec S_ 1 := constantI S_ 1 1#1
  let main_v12 : IVec S_ 1 := (fun x v => Host.reduce IntOp.andi x v reducesTo_S272x1_S_d0_1 h_S_) main_v11 main_c_3
  let main_v13 : IVec S_ 1 := andi main_v8 main_v12
  let main_v14 : FVec F S1 .f32 := Host.absf main_arg3
  let main_cst_4 : FVec F S_ .f32 := constant S_ .f32 0x7F800000#32
  let main_v15 : FVec F S1 .f32 := broadcastInDim S1 ![] bcast_S_S1 main_cst_4
  let main_v16 : IVec S1 1 := cmpf .olt main_v14 main_v15
  fn_part1 (F := F) main_v13 main_v16
-- ==== Kernel.lean ====
abbrev S1024x16 : Shape := ⟨2, ![1024, 16]⟩
abbrev S16x256 : Shape := ⟨2, ![16, 256]⟩
abbrev S272x1 : Shape := ⟨2, ![272, 1]⟩
abbrev S1 : Shape := ⟨1, ![1]⟩
abbrev S1024x256 : Shape := ⟨2, ![1024, 256]⟩
abbrev S16x1 : Shape := ⟨2, ![16, 1]⟩
abbrev S1x16 : Shape := ⟨2, ![1, 16]⟩
abbrev S256x1 : Shape := ⟨2, ![256, 1]⟩
abbrev S1x256 : Shape := ⟨2, ![1, 256]⟩
abbrev S1x1 : Shape := ⟨2, ![1, 1]⟩
abbrev S1024x1 : Shape := ⟨2, ![1024, 1]⟩
abbrev S64x256 : Shape := ⟨2, ![64, 256]⟩
abbrev S128x256 : Shape := ⟨2, ![128, 256]⟩
abbrev S64x16 : Shape := ⟨2, ![64, 16]⟩
abbrev S64x1 : Shape := ⟨2, ![64, 1]⟩
abbrev S64x1x256 : Shape := ⟨3, ![64, 1, 256]⟩
abbrev S1x128x256 : Shape := ⟨3, ![1, 128, 256]⟩
abbrev S64x128x256 : Shape := ⟨3, ![64, 128, 256]⟩
abbrev S64 : Shape := ⟨1, ![64]⟩

abbrev nBuf : Space → Nat
  | .hbm => 11
  | .vmem => 15
  | .smem => 0
  | _ => 0

abbrev bufTy : (tb : Table) → Fin (tcTables nBuf tb) → BufTy
  | .hbm, ⟨0, _⟩ => ⟨S1024x16, .f32⟩
  | .hbm, ⟨1, _⟩ => ⟨S16x256, .f32⟩
  | .hbm, ⟨2, _⟩ => ⟨S272x1, .f32⟩
  | .hbm, ⟨3, _⟩ => ⟨S1, .f32⟩
  | .hbm, ⟨4, _⟩ => ⟨S1024x256, .f32⟩
  | .hbm, ⟨5, _⟩ => ⟨S16x1, .f32⟩
  | .hbm, ⟨6, _⟩ => ⟨S1x16, .f32⟩
  | .hbm, ⟨7, _⟩ => ⟨S256x1, .f32⟩
  | .hbm, ⟨8, _⟩ => ⟨S1x256, .f32⟩
  | .hbm, ⟨9, _⟩ => ⟨S1x1, .f32⟩
  | .hbm, ⟨10, _⟩ => ⟨S1024x1, .f32⟩
  | .local _ .vmem, ⟨0, _⟩ => ⟨S1024x16, .f32⟩
  | .local _ .vmem, ⟨1, _⟩ => ⟨S16x256, .f32⟩
  | .local _ .vmem, ⟨2, _⟩ => ⟨S1024x256, .f32⟩
  | .local _ .vmem, ⟨3, _⟩ => ⟨S64x256, .f32⟩
  | .local _ .vmem, ⟨4, _⟩ => ⟨S64x256, .f32⟩
  | .local _ .vmem, ⟨5, _⟩ => ⟨S128x256, .f32⟩
  | .local _ .vmem, ⟨6, _⟩ => ⟨S128x256, .f32⟩
  | .local _ .vmem, ⟨7, _⟩ => ⟨S64x16, .f32⟩
  | .local _ .vmem, ⟨8, _⟩ => ⟨S64x16, .f32⟩
  | .local _ .vmem, ⟨9, _⟩ => ⟨S1x16, .f32⟩
  | .local _ .vmem, ⟨10, _⟩ => ⟨S1x256, .f32⟩
  | .local _ .vmem, ⟨11, _⟩ => ⟨S1x1, .f32⟩
  | .local _ .vmem, ⟨12, _⟩ => ⟨S64x1, .f32⟩
  | .local _ .vmem, ⟨13, _⟩ => ⟨S64x1, .f32⟩
  | .local _ .vmem, ⟨14, _⟩ => ⟨S64x256, .f32⟩
  | _, _ => ⟨S1024x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg0_0 : Ref sig .tc := ⟨.vmem, 3, rfl⟩
abbrev cc1_stg0_1 : Ref sig .tc := ⟨.vmem, 4, rfl⟩
abbrev cc1_stg1_0 : Ref sig .tc := ⟨.vmem, 5, rfl⟩
abbrev cc1_stg1_1 : Ref sig .tc := ⟨.vmem, 6, rfl⟩
abbrev cc1_stg2_0 : Ref sig .tc := ⟨.vmem, 7, rfl⟩
abbrev cc1_stg2_1 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg5_0 : Ref sig .tc := ⟨.vmem, 11, rfl⟩
abbrev cc1_stg6_0 : Ref sig .tc := ⟨.vmem, 12, rfl⟩
abbrev cc1_stg6_1 : Ref sig .tc := ⟨.vmem, 13, rfl⟩
abbrev cc1_scratch0 : Ref sig .tc := ⟨.vmem, 14, rfl⟩
abbrev cc0_sem0_0 : DmaSem sig := 0
abbrev cc0_sem1_0 : DmaSem sig := 1
abbrev cc0_sem2_0 : DmaSem sig := 2
abbrev cc1_sem0_0 : DmaSem sig := 3
abbrev cc1_sem0_1 : DmaSem sig := 4
abbrev cc1_sem1_0 : DmaSem sig := 5
abbrev cc1_sem1_1 : DmaSem sig := 6
abbrev cc1_sem2_0 : DmaSem sig := 7
abbrev cc1_sem2_1 : DmaSem sig := 8
abbrev cc1_sem3_0 : DmaSem sig := 9
abbrev cc1_sem4_0 : DmaSem sig := 10
abbrev cc1_sem5_0 : DmaSem sig := 11
abbrev cc1_sem6_0 : DmaSem sig := 12
abbrev cc1_sem6_1 : DmaSem sig := 13

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1024x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S16x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨2, ![16, 8], ![false, false]⟩

def k1_cond2 (i : grid1.Coords) : BitVec 1 :=
  let arg1 : BitVec 32 := BitVec.ofNat 32 (i 1).val
  let c7_i32 : BitVec 32 := 7#32
  let v22 : BitVec 1 := Scalar.cmpi .eq arg1 c7_i32
  let v23 : BitVec 32 := Scalar.extui v22
  let c0_i32_9 : BitVec 32 := 0#32
  let v24 : BitVec 1 := Scalar.cmpi .ne v23 c0_i32_9
  v24

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S64x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S128x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S64x16 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 1 → Memref sig .tc .vmem S1x16 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S1x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 2 → Memref sig .tc .vmem S64x1 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

class Facts₀ : Prop where
  inb_S1024x16_S1024x16_0_0 : ∀ a, (![0, 0] : Fin 2 → Nat) a + S1024x16.size a ≤ S1024x16.size a
  h_S1024x16 : 0 < S1024x16.numel
  bitsLt_bf16_f32 : FTy.bits .bf16 < FTy.bits .f32
  inb_S16x256_S16x256_0_0 : ∀ a, (![0, 0] : Fin 2 → Nat) a + S16x256.size a ≤ S16x256.size a
  h_S16x256 : 0 < S16x256.numel
  inb_S1024x256_S1024x256_0_0 : ∀ a, (![0, 0] : Fin 2 → Nat) a + S1024x256.size a ≤ S1024x256.size a
  h_S1024x256 : 0 < S1024x256.numel
  slices_S272x1_S16x1_0_0 : S272x1.Slices ![0, 0] S16x1
  shapeCasts_S16x1_S1x16 : S16x1.ShapeCasts S1x16
  slices_S272x1_S256x1_16_0 : S272x1.Slices ![16, 0] S256x1
  shapeCasts_S256x1_S1x256 : S256x1.ShapeCasts S1x256
  shapeCasts_S1_S1x1 : S1.ShapeCasts S1x1
  inb_S64x256_S64x256_0_0 : ∀ a, (![0, 0] : Fin 2 → Nat) a + S64x256.size a ≤ S64x256.size a
  h_S64x256 : 0 < S64x256.numel
  shapeCasts_S64x256_S64x256 : S64x256.ShapeCasts S64x256
  inb_S128x256_S128x256_0_0 : ∀ a, (![0, 0] : Fin 2 → Nat) a + S128x256.size a ≤ S128x256.size a
  h_S128x256 : 0 < S128x256.numel
  shapeCasts_S128x256_S128x256 : S128x256.ShapeCasts S128x256
  shapeCasts_S64x256_S64x1x256 : S64x256.ShapeCasts S64x1x256
  shapeCasts_S128x256_S1x128x256 : S128x256.ShapeCasts S1x128x256
  broadcasts_S64x1x256_S64x128x256 : S64x1x256.Broadcasts S64x128x256
  broadcasts_S1x128x256_S64x128x256 : S1x128x256.Broadcasts S64x128x256
  reduces_S64x128x256_S64x256 : S64x128x256.Reduces [1] S64x256
  inb_S64x16_S64x16_0_0 : ∀ a, (![0, 0] : Fin 2 → Nat) a + S64x16.size a ≤ S64x16.size a
  h_S64x16 : 0 < S64x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S64x16 : S1x16.Broadcasts S64x16
  reduces_S64x16_S64 : S64x16.Reduces [1] S64
  shapeCasts_S64_S64x1 : S64.ShapeCasts S64x1
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S64x256 : S1x256.Broadcasts S64x256
  reduces_S64x256_S64 : S64x256.Reduces [1] S64
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S64x1 : S1x1.Broadcasts S64x1
  inb_S64x1_S64x1_0_0 : ∀ a, (![0, 0] : Fin 2 → Nat) a + S64x1.size a ≤ S64x1.size a
  h_S64x1 : 0 < S64x1.numel
  dot_S1024x16_S16x256_S1024x256_1_0_0_1_n_n_wf : DotDims.WF S1024x16 S16x256 S1024x256 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1024x16.size a ≤ S1024x16.size a
  hwx0_0 : ∀ i : grid0.Coords, EltTy.bits .f32 = 32 ∨ (Rect.block (s := S1024x16) S1024x16.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x256.size a ≤ S16x256.size a
  hwx0_1 : ∀ i : grid0.Coords, EltTy.bits .f32 = 32 ∨ (Rect.block (s := S16x256) S16x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x256.size a ≤ S1024x256.size a
  hwx0_2 : ∀ i : grid0.Coords, EltTy.bits .f32 = 32 ∨ (Rect.block (s := S1024x256) S1024x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S64x256.size a ≤ S1024x256.size a
  hwx1_0 : ∀ i : grid1.Coords, EltTy.bits .f32 = 32 ∨ (Rect.block (s := S1024x256) S64x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S128x256.size a ≤ S1024x256.size a
  hwx1_1 : ∀ i : grid1.Coords, EltTy.bits .f32 = 32 ∨ (Rect.block (s := S1024x256) S128x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S64x16.size a ≤ S1024x16.size a
  hwx1_2 : ∀ i : grid1.Coords, EltTy.bits .f32 = 32 ∨ (Rect.block (s := S1024x16) S64x16.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x16.size a ≤ S1x16.size a
  hwx1_3 : ∀ i : grid1.Coords, EltTy.bits .f32 = 32 ∨ (Rect.block (s := S1x16) S1x16.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x1.size a ≤ S1x1.size a
  hwx1_5 : ∀ i : grid1.Coords, EltTy.bits .f32 = 32 ∨ (Rect.block (s := S1x1) S1x1.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S64x1.size a ≤ S1024x1.size a
  hwx1_6 : ∀ i : grid1.Coords, EltTy.bits .f32 = 32 ∨ (Rect.block (s := S1024x1) S64x1.size (cc1_transform_6 i) (hinb1_6 i)).WholeWords (EltTy.packing .f32)

variable [Facts₀]

def dot_S1024x16_S16x256_S1024x256_1_0_0_1_n_n : DotDims S1024x16 S16x256 S1024x256 where
  lhsContracting := [1]
  rhsContracting := [0]
  lhsNonContracting := [0]
  rhsNonContracting := [1]
  lhsBatch := []
  rhsBatch := []
  wf := dot_S1024x16_S16x256_S1024x256_1_0_0_1_n_n_wf

abbrev win0_0 : Pipeline.Window sig grid0 :=
  Pipeline.Window.ofSpec (Memref.whole main_arg0) S1024x16.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S16x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x256.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v0) S64x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S128x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg0) S64x16.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v2) S1x16.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v4) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v5) S1x1.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v6) S64x1.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev idle1 : Fin 7 → grid1.Coords → Bool := fun | 0 => fun _ => false | 1 => fun _ => false | 2 => fun _ => false | 3 => fun _ => false | 4 => fun _ => false | 5 => fun _ => false | 6 => fun i => !(k1_cond2 i == 1#1) | ⟨_ + 7, h⟩ => absurd h (Nat.not_lt.2 (Nat.le_add_left _ _))

class Facts : Prop extends Facts₀ where

variable [Facts]
-- ==== ReferenceIdeal.lean ====
abbrev S1024x16 : Shape := ⟨2, ![1024, 16]⟩
abbrev S16x256 : Shape := ⟨2, ![16, 256]⟩
abbrev S272x1 : Shape := ⟨2, ![272, 1]⟩
abbrev S1 : Shape := ⟨1, ![1]⟩
abbrev S1024x256 : Shape := ⟨2, ![1024, 256]⟩
abbrev S1024x1x256 : Shape := ⟨3, ![1024, 1, 256]⟩
abbrev S1x1024x256 : Shape := ⟨3, ![1, 1024, 256]⟩
abbrev S1024x1024x256 : Shape := ⟨3, ![1024, 1024, 256]⟩
abbrev S_ : Shape := ⟨0, ![]⟩
abbrev S1024x272 : Shape := ⟨2, ![1024, 272]⟩
abbrev S1024x1 : Shape := ⟨2, ![1024, 1]⟩
abbrev S1x1 : Shape := ⟨2, ![1, 1]⟩

abbrev nBuf : Space → Nat
  | .hbm => 28
  | .vmem => 0
  | .smem => 0
  | _ => 0

abbrev bufTy : (tb : Table) → Fin (tcTables nBuf tb) → BufTy
  | .hbm, ⟨0, _⟩ => ⟨S1024x16, .f32⟩
  | .hbm, ⟨1, _⟩ => ⟨S16x256, .f32⟩
  | .hbm, ⟨2, _⟩ => ⟨S272x1, .f32⟩
  | .hbm, ⟨3, _⟩ => ⟨S1, .f32⟩
  | .hbm, ⟨4, _⟩ => ⟨S1024x256, .f32⟩
  | .hbm, ⟨5, _⟩ => ⟨S1024x1x256, .f32⟩
  | .hbm, ⟨6, _⟩ => ⟨S1x1024x256, .f32⟩
  | .hbm, ⟨7, _⟩ => ⟨S1024x1024x256, .f32⟩
  | .hbm, ⟨8, _⟩ => ⟨S1024x1024x256, .f32⟩
  | .hbm, ⟨9, _⟩ => ⟨S1024x1024x256, .f32⟩
  | .hbm, ⟨10, _⟩ => ⟨S1024x1024x256, .f32⟩
  | .hbm, ⟨11, _⟩ => ⟨S1024x1024x256, .f32⟩
  | .hbm, ⟨12, _⟩ => ⟨S1024x1024x256, .f32⟩
  | .hbm, ⟨13, _⟩ => ⟨S_, .f32⟩
  | .hbm, ⟨14, _⟩ => ⟨S1024x256, .f32⟩
  | .hbm, ⟨15, _⟩ => ⟨S1024x272, .f32⟩
  | .hbm, ⟨16, _⟩ => ⟨S1024x1, .f32⟩
  | .hbm, ⟨17, _⟩ => ⟨S1x1, .f32⟩
  | .hbm, ⟨18, _⟩ => ⟨S1024x1, .f32⟩
  | .hbm, ⟨19, _⟩ => ⟨S1024x1, .f32⟩
  | .hbm, ⟨20, _⟩ => ⟨S1024x1, .f32⟩
  | .hbm, ⟨21, _⟩ => ⟨S1024x1, .f32⟩
  | .hbm, ⟨22, _⟩ => ⟨S_, .f32⟩
  | .hbm, ⟨23, _⟩ => ⟨S1024x1, .f32⟩
  | .hbm, ⟨24, _⟩ => ⟨S1024x1, .f32⟩
  | .hbm, ⟨25, _⟩ => ⟨S_, .f32⟩
  | .hbm, ⟨26, _⟩ => ⟨S1024x1, .f32⟩
  | .hbm, ⟨27, _⟩ => ⟨S1024x1, .f32⟩
  | _, _ => ⟨S1024x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_0 : Ref sig .tc := ⟨.hbm, 22, rfl⟩
abbrev main_v17 : Ref sig .tc := ⟨.hbm, 23, rfl⟩
abbrev main_v18 : Ref sig .tc := ⟨.hbm, 24, rfl⟩
abbrev main_cst_1 : Ref sig .tc := ⟨.hbm, 25, rfl⟩
abbrev main_v19 : Ref sig .tc := ⟨.hbm, 26, rfl⟩
abbrev main_v20 : Ref sig .tc := ⟨.hbm, 27, rfl⟩

abbrev nD : Nat := 1
abbrev τ : Topo := Topo.v7x

variable {F : FTy → Type} [FloatOps F]

class Facts₀ : Prop where
  bcast_S1024x256_S1024x1x256_0_2 : S1024x256.BroadcastsInDim S1024x1x256 (![0, 2] : Fin 2 → Fin S1024x1x256.rank)
  bcast_S1024x256_S1x1024x256_1_2 : S1024x256.BroadcastsInDim S1x1024x256 (![1, 2] : Fin 2 → Fin S1x1024x256.rank)
  bcast_S1024x1x256_S1024x1024x256_0_1_2 : S1024x1x256.BroadcastsInDim S1024x1024x256 (![0, 1, 2] : Fin 3 → Fin S1024x1024x256.rank)
  bcast_S1x1024x256_S1024x1024x256_0_1_2 : S1x1024x256.BroadcastsInDim S1024x1024x256 (![0, 1, 2] : Fin 3 → Fin S1024x1024x256.rank)
  reducesTo_S1024x1024x256_S1024x256_d1 : S1024x1024x256.ReducesTo [1] S1024x256
  h_S_ : 0 < S_.numel
  concatenates_S1024x16_S1024x256_S1024x272_d1 : Shape.Concatenates [S1024x16, S1024x256] S1024x272 1
  bcast_S1_S1x1_1 : S1.BroadcastsInDim S1x1 (![1] : Fin 1 → Fin S1x1.rank)
  bcast_S1x1_S1024x1_0_1 : S1x1.BroadcastsInDim S1024x1 (![0, 1] : Fin 2 → Fin S1024x1.rank)
  bcast_S_S1024x1 : S_.BroadcastsInDim S1024x1 (![] : Fin 0 → Fin S1024x1.rank)
  dot_S1024x16_S16x256_S1024x256_1_0_0_1_n_n_wf : DotDims.WF S1024x16 S16x256 S1024x256 [1] [0] [0] [1] [] []
  dot_S1024x272_S272x1_S1024x1_1_0_0_1_n_n_wf : DotDims.WF S1024x272 S272x1 S1024x1 [1] [0] [0] [1] [] []

variable [Facts₀]

def dot_S1024x16_S16x256_S1024x256_1_0_0_1_n_n : DotDims S1024x16 S16x256 S1024x256 where
  lhsContracting := [1]
  rhsContracting := [0]
  lhsNonContracting := [0]
  rhsNonContracting := [1]
  lhsBatch := []
  rhsBatch := []
  wf := dot_S1024x16_S16x256_S1024x256_1_0_0_1_n_n_wf
def dot_S1024x272_S272x1_S1024x1_1_0_0_1_n_n : DotDims S1024x272 S272x1 S1024x1 where
  lhsContracting := [1]
  rhsContracting := [0]
  lhsNonContracting := [0]
  rhsNonContracting := [1]
  lhsBatch := []
  rhsBatch := []
  wf := dot_S1024x272_S272x1_S1024x1_1_0_0_1_n_n_wf

class Facts : Prop extends Facts₀ where

variable [Facts]
-- ==== Proof.Bits.Region0.lean ====
/-
  The first kernel region: the product `x @ T` in one grid point.

  The region has one point. Its two input windows are the whole arrays `x` (1024 × 16) and `T` (16 × 256); its
  output window is the whole 1024 × 256 result. The body loads both inputs, multiplies them into a zero
  accumulator and stores the product over the whole output block, so after the body the output's staging buffer
  holds the product of the two input blocks, whatever it held before. Stated at an entry valuation `V` of the
  core's buffers and at any float instance.
-/
import proofs.«139806_j56934086476615_1_alg».proof.Proof.Gen.Kernel.Launch
import proofs.«139806_j56934086476615_1_alg».proof.Proof.Gen.Kernel.Skeleton
import proofs.«139806_j56934086476615_1_alg».proof.Proof.Gen.Kernel.Points
import Idealize.ShloMosaic.Lib.Pipeline.FrameBody
import Idealize.ShloMosaic.Lib.Pipeline.Value
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, for any proof data whose array is
    `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each through the whole block -/

abbrev rx0 : Rect S1024x16 := Rect.unit (s := S1024x16) ![0, 0] S1024x16.size inb_S1024x16_S1024x16_0_0
abbrev rT0 : Rect S16x256 := Rect.unit (s := S16x256) ![0, 0] S16x256.size inb_S16x256_S16x256_0_0
abbrev ro0 : Rect S1024x256 := Rect.unit (s := S1024x256) ![0, 0] S1024x256.size inb_S1024x256_S1024x256_0_0

theorem hz2 : (![0, 0] : Fin 2 → Nat) = fun _ => 0 := by
  funext a; match a with | ⟨0, _⟩ => rfl | ⟨1, _⟩ => rfl

/-- The one store covers the output block. -/
theorem cover0_2 (p0 : Vec F S1024x256 .f32) (y : S1024x256.Idx) :
    ∃ pc ∈ ([⟨ro0, p0⟩] : List (View.Piece (Elt F) S1024x256 .f32)), y ∈ pc.1.set :=
  View.cover_of_tiled [⟨ro0, p0⟩] S1024x256.size (by rfl) y

/-! ## The body's triple -/

set_option maxHeartbeats 1000000 in
/-- The body on whole staging memrefs, the inputs' at contents `x0`, `x1` and the output's at anything, runs to
    the continuation holding the inputs' as they were and the output's at the product `k0_pay1 x0 x1`. -/
theorem sound_kernel0 (c : Dev nD) (E : Set ℕ) (i : grid0.Coords)
    (arg1 : Memref sig .tc .vmem S1024x16 .f32) (harg1 : arg1.IsWhole) (arg2 : Memref sig .tc .vmem S16x256 .f32) (harg2 : arg2.IsWhole)
    (arg3 : Memref sig .tc .vmem S1024x256 .f32) (harg3 : arg3.IsWhole)
    (x0 : Vec F S1024x16 .f32) (x1 : Vec F S16x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (k0_pay1 x0 x1)) -∗ K ⟨⟩))
      ⊢ wp frame (wpE (defs₀ (F := F)) Variants.none c none) E (cc0__ms_kernel i arg1 harg1 arg2 harg2 arg3 harg3) K := by
  simp only [cc0__ms_kernel_eq_skeleton]; unfold cc0__ms_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  rw [View.read_writes_eq_canon _ _ _ (cover0_2 _), View.canon_unit_zero hz2]
  simp only [View.readAt_eq_ld, View.ld_unit_zero (S := S1024x16) hz2, View.ld_unit_zero (S := S16x256) hz2]

/-! ## The region's proof data -/

/-- The arrays as the region finds them; after the body each input's buffer at its block and the output's at the
    product of the two input blocks; the invariant the scoped buffers no window stages and the generator register,
    untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => k0_pay1 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = k0_pay1 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The region's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.Bits.Region1.lean ====
/-
  The second kernel region: the pairwise sums, accumulated over eight steps, and the projection.

  The grid is 16 × 8: point `t` is row block `t / 8` (64 rows) at step `t % 8` (128 rows of the second
  index). A scratch buffer of 64 × 256 is carried from point to point. At step 0 it is reset to zero; at every
  step the body adds to it, entry by entry, the sum over the step's 128 rows `j` of `exp (0 - |Ms[i,d] - Ms[j,d]|)`;
  at step 7 the body also projects: each row's sixteen features against the first weights, the row's 256
  accumulated sums against the other weights, plus the bias, through the logistic function, stored over the
  whole 64 × 1 output block. The output window is idle at the other steps and written back at step 7 only.
  Stated at an entry valuation `V` of the core's buffers and at any float instance.
-/
import proofs.«139806_j56934086476615_1_alg».proof.Proof.Gen.Kernel.Launch
import proofs.«139806_j56934086476615_1_alg».proof.Proof.Gen.Kernel.Skeleton
import proofs.«139806_j56934086476615_1_alg».proof.Proof.Gen.Kernel.Points
import Idealize.ShloMosaic.Lib.Pipeline.FrameBody
import Idealize.ShloMosaic.Lib.Pipeline.Value
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The carried scratch -/

/-- The scratch after point `n`: the step's sums added to zero at a step 0, to what the point before left otherwise. -/
def acc1 (c : Dev nD) : (n : ℕ) → n < cfg1.N → Vec F S64x256 .f32
  | 0, h => k1_pay2 (iblk1 V c 0 ⟨0, h⟩) (iblk1 V c 1 ⟨0, h⟩) k1_pay1
  | n + 1, h => k1_pay2 (iblk1 V c 0 ⟨n + 1, h⟩) (iblk1 V c 1 ⟨n + 1, h⟩)
      (if (n + 1) % 8 = 0 then k1_pay1 else acc1 c n (Nat.lt_of_succ_lt h))

theorem acc1_zero (c : Dev nD) (h : 0 < cfg1.N) :
    acc1 V c 0 h = k1_pay2 (iblk1 V c 0 ⟨0, h⟩) (iblk1 V c 1 ⟨0, h⟩) k1_pay1 := rfl
theorem acc1_succ (c : Dev nD) (n : ℕ) (h : n + 1 < cfg1.N) :
    acc1 V c (n + 1) h = k1_pay2 (iblk1 V c 0 ⟨n + 1, h⟩) (iblk1 V c 1 ⟨n + 1, h⟩)
      (if (n + 1) % 8 = 0 then k1_pay1 else acc1 V c n (Nat.lt_of_succ_lt h)) := rfl

/-- The carried scratch as a whole memref. -/
abbrev scM1 : Memref sig .tc .vmem S64x256 .f32 := Memref.whole cc1_scratch0

/-- The region's invariant before position `n`: before the first point the scoped buffers no window stages, each at
    anything, and the generator register; afterwards the same with the carried scratch at what the point before left. -/
def Phi1 (c : Dev nD) : (n : ℕ) → n ≤ cfg1.N → sProp 𝕄
  | 0, _ => Pipeline.ΦA spec1 c
  | n + 1, hn => iprop((∃ f : Buf (Elt F) ((c : Thread nD τ).loc cc0_stg0_0), ((c : Thread nD τ).loc cc0_stg0_0) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg2_0), ((c : Thread nD τ).loc cc0_stg2_0) ↦{fullShare} f)
      ∗ owns (c : Thread nD τ) scM1 fullShare (acc1 V c n hn)
      ∗ (∃ r, prngReg c r))

/-! ## The region's proof data -/

/-- The arrays as the region finds them; after the body each input's buffer at its block and the output's at the
    projection of the step's blocks and the scratch; the invariant `Phi1`; nothing owed; the two windows on the
    product array hold it at complementary halves of the full share, every other input at the full share. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => k1_pay3 (iblk1 V c 2 t) (iblk1 V c 3 t) (acc1 V c t.val t.isLt) (iblk1 V c 4 t) (iblk1 V c 5 t)
  Φ t := Phi1 V c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t
    = k1_pay3 (iblk1 V c 2 t) (iblk1 V c 3 t) (acc1 V c t.val t.isLt) (iblk1 V c 4 t) (iblk1 V c 5 t) := by dsimp only [dat1]

/-- The shares of the two windows on the product array are the two halves of the full share. -/
theorem share1_0 (c : Dev nD) : (dat1 V c).share 0 = fullShare.left := by
  unfold Dat.share
  rw [if_neg (by decide)]
  dsimp only [dat1]
theorem share1_1 (c : Dev nD) : (dat1 V c).share 1 = fullShare.right := by
  unfold Dat.share
  rw [if_neg (by decide)]
  dsimp only [dat1]
/-- Every other window holds its array at the full share. -/
theorem share1_rest (c : Dev nD) (w : Fin cfg1.W) (h0 : w ≠ 0) (h1 : w ≠ 1) : (dat1 V c).share w = fullShare := by
  match w, h0, h1 with
  | ⟨0, _⟩, h0, _ => exact absurd rfl h0
  | ⟨1, _⟩, _, h1 => exact absurd rfl h1
  | ⟨2, _⟩, _, _ => unfold Dat.share; rw [if_neg Bool.false_ne_true]; dsimp only [dat1]
  | ⟨3, _⟩, _, _ => unfold Dat.share; rw [if_neg Bool.false_ne_true]; dsimp only [dat1]
  | ⟨4, _⟩, _, _ => unfold Dat.share; rw [if_neg Bool.false_ne_true]; dsimp only [dat1]
  | ⟨5, _⟩, _, _ => unfold Dat.share; rw [if_neg Bool.false_ne_true]; dsimp only [dat1]
  | ⟨6, _⟩, _, _ => unfold Dat.share; rw [if_pos rfl]
  | ⟨n + 7, h⟩, _, _ => exact absurd h (Nat.not_lt.2 (Nat.le_add_left _ _))

/-- Nothing is owed at any position. -/
theorem owed1 (c : Dev nD) (t : Fin (cfg1.N + 1)) : (dat1 V c).owed t = 0 := rfl

/-! ## The invariant at the region's two ends -/

theorem Phi1_zero (c : Dev nD) (n : ℕ) (h : n ≤ cfg1.N) (hz : n = 0) : Phi1 V c n h = Pipeline.ΦA spec1 c := by
  subst hz; rfl

/-- After point n (before point n + 1): the carried scratch at that point's contents. -/
theorem Phi1_succ (c : Dev nD) (n : ℕ) (hn : n < cfg1.N) :
    Phi1 V c (n + 1) hn = iprop((∃ f : Buf (Elt F) ((c : Thread nD τ).loc cc0_stg0_0), ((c : Thread nD τ).loc cc0_stg0_0) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg2_0), ((c : Thread nD τ).loc cc0_stg2_0) ↦{fullShare} f)
      ∗ owns (c : Thread nD τ) scM1 fullShare (acc1 V c n hn)
      ∗ (∃ r, prngReg c r)) := rfl

/-- Before a point that is not the first: the carried scratch at what the point before left. -/
theorem Phi1_pos (c : Dev nD) (n : ℕ) (h : n ≤ cfg1.N) (hz : n ≠ 0) :
    Phi1 V c n h = iprop((∃ f : Buf (Elt F) ((c : Thread nD τ).loc cc0_stg0_0), ((c : Thread nD τ).loc cc0_stg0_0) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg2_0), ((c : Thread nD τ).loc cc0_stg2_0) ↦{fullShare} f)
      ∗ owns (c : Thread nD τ) scM1 fullShare (acc1 V c (n - 1) (by omega))
      ∗ (∃ r, prngReg c r)) := by
  cases n with
  | zero => exact absurd rfl hz
  | succ n => rfl

/-- What the region is handed, with the scratch as a memref owned at some contents. -/
theorem PhiA1_eq (c : Dev nD) :
    (Pipeline.ΦA spec1 c : sProp 𝕄)
      = iprop(((∃ f : Buf (Elt F) ((c : Thread nD τ).loc cc0_stg0_0), ((c : Thread nD τ).loc cc0_stg0_0) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg2_0), ((c : Thread nD τ).loc cc0_stg2_0) ↦{fullShare} f)
      ∗ (∃ d, owns (c : Thread nD τ) scM1 fullShare d)) ∗ (∃ r, prngReg c r)) := by
  unfold Pipeline.ΦA; rw [scopedRest1_eq]; simp only [scM1, owns_whole]; try rfl

/-- What the region is handed is the invariant before the first point. -/
theorem hin1 (c : Dev nD) : Pipeline.ΦA spec1 c ⊢ (dat1 V c).Φ 0 := by
  rw [show (dat1 V c).Φ 0 = Phi1 V c 0 (Nat.zero_le _) from rfl, Phi1_zero V c 0 _ rfl]
  try exact Idealize.SL.BI.Entails.refl _

/-- After any point but the first the invariant gives back what the region was handed: the scratch's named contents are forgotten. -/
theorem Phi1_out (c : Dev nD) (t : Fin (cfg1.N + 1)) (ht : t.val ≠ 0) : (dat1 V c).Φ t ⊢ Pipeline.ΦA spec1 c := by
  rw [show (dat1 V c).Φ t = Phi1 V c t.val (Nat.le_of_lt_succ t.isLt) from rfl, Phi1_pos V c _ _ ht, PhiA1_eq]
  iintro ⟨H0, H1, H2, HS, Hg⟩
  isplitr [Hg]
  · isplitl [H0]; · iexact H0
    isplitl [H1]; · iexact H1
    isplitl [H2]; · iexact H2
    iexists _; iexact HS
  iexact Hg

/-- After the last point the invariant gives it back: the scratch's named contents are forgotten. -/
theorem hout1 (c : Dev nD) : (dat1 V c).Φ (Fin.last cfg1.N) ⊢ Pipeline.ΦA spec1 c :=
  Phi1_out V c _ (by rw [Fin.val_last]; have : cfg1.N = 128 := N_1; omega)

/-! ## What the body finds in each input window's buffer: its block, fetched there or not -/

theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl) (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl) (fun t => by rw [after1_4]; unfold Dat.blockOf iblk1; rw [A_eq1]; try rfl) t d).trans
    (by unfold Dat.fetched Dat.blockOf iblk1; rw [A_eq1]; try rfl)
theorem before1_5 (c : Dev nD) (t : Fin cfg1.N) (d) : (dat1 V c).before 5 t d = iblk1 V c 5 t :=
  ((dat1 V c).before_in_eq_fetched 5 rfl (fun _ => rfl) (fun _ _ _ => rfl) (fun t => by rw [after1_5]; unfold Dat.blockOf iblk1; rw [A_eq1]; try rfl) t d).trans
    (by unfold Dat.fetched Dat.blockOf iblk1; rw [A_eq1]; try rfl)

/-! ## The grid: which step a point is at -/

/-- The condition of the body's first branch (the reset), from the grid coordinates. -/
abbrev cond1_0 (i : grid1.Coords) : Prop := (Scalar.cmpi .ne (Scalar.extui (Scalar.cmpi .eq (BitVec.ofNat 32 (i 1).val) 0#32)) 0#32) = 1#1
/-- It holds at step 0. -/
theorem hcond1_0 : ∀ t : Fin cfg1.N, cond1_0 (grid1.coords t) ↔ t.val % 8 = 0 :=
  (by decide +kernel : ∀ t : Fin grid1.N, cond1_0 (grid1.coords t) ↔ t.val % 8 = 0)
/-- The condition of the body's second branch (the projection). -/
abbrev cond1_1 (i : grid1.Coords) : Prop := k1_cond2 i = 1#1
/-- It holds at step 7. -/
theorem hcond1_1 : ∀ t : Fin cfg1.N, cond1_1 (grid1.coords t) ↔ t.val % 8 = 7 :=
  (by decide +kernel : ∀ t : Fin grid1.N, cond1_1 (grid1.coords t) ↔ t.val % 8 = 7)

/-- The inputs are never idle. -/
theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
theorem liveAt1_3 : ∀ t : Fin cfg1.N, cfg1.idle 3 (grid1.coords t) = false := fun _ => rfl
theorem liveAt1_4 : ∀ t : Fin cfg1.N, cfg1.idle 4 (grid1.coords t) = false := fun _ => rfl
theorem liveAt1_5 : ∀ t : Fin cfg1.N, cfg1.idle 5 (grid1.coords t) = false := fun _ => rfl
/-- The output window is idle away from step 7 and live at it. -/
theorem idleAt1_6 : ∀ t : Fin cfg1.N, ¬cond1_1 (grid1.coords t) → cfg1.idle 6 (grid1.coords t) = true := by decide +kernel
theorem liveAt1_6 : ∀ t : Fin cfg1.N, cond1_1 (grid1.coords t) → cfg1.idle 6 (grid1.coords t) = false := by decide +kernel
/-- Away from step 7 its block is not written back. -/
theorem noFlush1_6 : ∀ t : Fin cfg1.N, ¬cond1_1 (grid1.coords t) → (cfg1.win 6).flush t = false := by decide +kernel

/-! ## The body's triple, step by step

The body is run once per kind of step. At every step it loads the row block and the step's rows, loads the scratch,
and stores the scratch back with the step's sums added; at step 0 it first stores zero over the scratch, so that
the load reads zero back; at step 7 it then loads the scratch again, which reads what was just stored, and stores
the projection over the output block. Every access is through the whole buffer. -/

theorem hzero1 : (![0, 0] : Fin 2 → Nat) = fun _ => 0 := by
  funext a; match a with | ⟨0, _⟩ => rfl | ⟨1, _⟩ => rfl

set_option maxHeartbeats 1000000 in
/-- At a step 0: the scratch, whatever it held, ends at the step's sums added to zero. -/
theorem sound_kernel1_A (c : Dev nD) (E : Set ℕ) (i : grid1.Coords)
    (arg2 : Memref sig .tc .vmem S64x256 .f32) (harg2 : arg2.IsWhole) (arg3 : Memref sig .tc .vmem S128x256 .f32) (harg3 : arg3.IsWhole)
    (arg4 : Memref sig .tc .vmem S64x16 .f32) (harg4 : arg4.IsWhole) (arg5 : Memref sig .tc .vmem S1x16 .f32) (harg5 : arg5.IsWhole)
    (arg6 : Memref sig .tc .vmem S1x256 .f32) (harg6 : arg6.IsWhole) (arg7 : Memref sig .tc .vmem S1x1 .f32) (harg7 : arg7.IsWhole)
    (arg8 : Memref sig .tc .vmem S64x1 .f32) (harg8 : arg8.IsWhole) (arg9 : Memref sig .tc .vmem S64x256 .f32) (harg9 : arg9.IsWhole)
    (hc0 : cond1_0 i) (hc1 : ¬cond1_1 i)
    (x0 : Vec F S64x256 .f32) (x1 : Vec F S128x256 .f32) (K : PUnit → sProp 𝕄) :
    iprop(owns (c : Thread nD τ) arg2 fullShare x0 ∗ owns (c : Thread nD τ) arg3 fullShare x1 ∗ (∃ d, owns (c : Thread nD τ) arg9 fullShare d)
        ∗ (iprop(owns (c : Thread nD τ) arg2 fullShare x0 ∗ owns (c : Thread nD τ) arg3 fullShare x1
            ∗ owns (c : Thread nD τ) arg9 fullShare (k1_pay2 x0 x1 k1_pay1)) -∗ K ⟨⟩))
      ⊢ wp frame (wpE (defs₀ (F := F)) Variants.none c none) E (cc1__pairwise_kernel i arg2 harg2 arg3 harg3 arg4 harg4 arg5 harg5 arg6 harg6 arg7 harg7 arg8 harg8 arg9 harg9) K := by
  simp only [cc1__pairwise_kernel_eq_skeleton]; unfold cc1__pairwise_kernel_skel
  unfold owns
  iintro ⟨⟨%f0, %hf0, H0⟩, ⟨%f1, %hf1, H1⟩, ⟨%d9, %f9, -, H9⟩, Hk⟩
  subst hf0; subst hf1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  iexists _; isplitr
  swap; · iexact H9
  ipureintro
  sl_unfold_words
  rw [View.read_writes_eq_canon _ _ _ (fun y => ⟨_, List.mem_cons_self, View.mem_set_unit_zero hzero1 inb_S64x256_S64x256_0_0 y⟩), View.canon_cons_unit_zero hzero1]
  simp only [View.readAt_eq_ld, View.ld_unit_zero (S := S64x256) hzero1, View.ld_unit_zero (S := S128x256) hzero1, View.ld_unit_zero (S := S64x16) hzero1, View.ld_unit_zero (S := S1x16) hzero1, View.ld_unit_zero (S := S1x256) hzero1, View.ld_unit_zero (S := S1x1) hzero1, View.readCov_unit_zero (S := S64x256) _ hzero1]

set_option maxHeartbeats 1000000 in
/-- At a step that is neither 0 nor 7: the scratch ends at the step's sums added to what it held. -/
theorem sound_kernel1_B (c : Dev nD) (E : Set ℕ) (i : grid1.Coords)
    (arg2 : Memref sig .tc .vmem S64x256 .f32) (harg2 : arg2.IsWhole) (arg3 : Memref sig .tc .vmem S128x256 .f32) (harg3 : arg3.IsWhole)
    (arg4 : Memref sig .tc .vmem S64x16 .f32) (harg4 : arg4.IsWhole) (arg5 : Memref sig .tc .vmem S1x16 .f32) (harg5 : arg5.IsWhole)
    (arg6 : Memref sig .tc .vmem S1x256 .f32) (harg6 : arg6.IsWhole) (arg7 : Memref sig .tc .vmem S1x1 .f32) (harg7 : arg7.IsWhole)
    (arg8 : Memref sig .tc .vmem S64x1 .f32) (harg8 : arg8.IsWhole) (arg9 : Memref sig .tc .vmem S64x256 .f32) (harg9 : arg9.IsWhole)
    (hc0 : ¬cond1_0 i) (hc1 : ¬cond1_1 i)
    (x0 : Vec F S64x256 .f32) (x1 : Vec F S128x256 .f32) (sIn : Vec F S64x256 .f32) (K : PUnit → sProp 𝕄) :
    iprop(owns (c : Thread nD τ) arg2 fullShare x0 ∗ owns (c : Thread nD τ) arg3 fullShare x1 ∗ owns (c : Thread nD τ) arg9 fullShare sIn
        ∗ (iprop(owns (c : Thread nD τ) arg2 fullShare x0 ∗ owns (c : Thread nD τ) arg3 fullShare x1
            ∗ owns (c : Thread nD τ) arg9 fullShare (k1_pay2 x0 x1 sIn)) -∗ K ⟨⟩))
      ⊢ wp frame (wpE (defs₀ (F := F)) Variants.none c none) E (cc1__pairwise_kernel i arg2 harg2 arg3 harg3 arg4 harg4 arg5 harg5 arg6 harg6 arg7 harg7 arg8 harg8 arg9 harg9) K := by
  simp only [cc1__pairwise_kernel_eq_skeleton]; unfold cc1__pairwise_kernel_skel
  unfold owns
  iintro ⟨⟨%f0, %hf0, H0⟩, ⟨%f1, %hf1, H1⟩, ⟨%f9, %hf9, H9⟩, Hk⟩
  subst hf0; subst hf1; subst hf9
  sl_exec (disch := first | exact hc0 | exact hc1)
  sl_step
  iapply Hk
  isplitl [H0]
  · iexists f0; isplitr; · ipureintro; rfl
    iexact H0
  isplitl [H1]
  · iexists f1; isplitr; · ipureintro; rfl
    iexact H1
  iexists _; isplitr
  swap; · iexact H9
  ipureintro
  sl_unfold_words
  rw [View.read_writes_eq_canon _ _ _ (fun y => ⟨_, List.mem_cons_self, View.mem_set_unit_zero hzero1 inb_S64x256_S64x256_0_0 y⟩), View.canon_cons_unit_zero hzero1]
  simp only [View.readAt_eq_ld, View.ld_unit_zero (S := S64x256) hzero1, View.ld_unit_zero (S := S128x256) hzero1, View.ld_unit_zero (S := S64x16) hzero1, View.ld_unit_zero (S := S1x16) hzero1, View.ld_unit_zero (S := S1x256) hzero1, View.ld_unit_zero (S := S1x1) hzero1, View.readCov_unit_zero (S := S64x256) _ hzero1]

set_option maxHeartbeats 2000000 in
/-- At a step 7: the scratch ends at the step's sums added to what it held, and the output block, whatever it held,
    at the projection of the feature block, the weights, that new scratch and the bias. -/
theorem sound_kernel1_C (c : Dev nD) (E : Set ℕ) (i : grid1.Coords)
    (arg2 : Memref sig .tc .vmem S64x256 .f32) (harg2 : arg2.IsWhole) (arg3 : Memref sig .tc .vmem S128x256 .f32) (harg3 : arg3.IsWhole)
    (arg4 : Memref sig .tc .vmem S64x16 .f32) (harg4 : arg4.IsWhole) (arg5 : Memref sig .tc .vmem S1x16 .f32) (harg5 : arg5.IsWhole)
    (arg6 : Memref sig .tc .vmem S1x256 .f32) (harg6 : arg6.IsWhole) (arg7 : Memref sig .tc .vmem S1x1 .f32) (harg7 : arg7.IsWhole)
    (arg8 : Memref sig .tc .vmem S64x1 .f32) (harg8 : arg8.IsWhole) (arg9 : Memref sig .tc .vmem S64x256 .f32) (harg9 : arg9.IsWhole)
    (hc0 : ¬cond1_0 i) (hc1 : cond1_1 i)
    (x0 : Vec F S64x256 .f32) (x1 : Vec F S128x256 .f32) (x2 : Vec F S64x16 .f32) (x3 : Vec F S1x16 .f32)
    (x4 : Vec F S1x256 .f32) (x5 : Vec F S1x1 .f32) (sIn : Vec F S64x256 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ (∃ d, owns (c : Thread nD τ) arg8 fullShare d) ∗ owns (c : Thread nD τ) arg9 fullShare sIn
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ owns (c : Thread nD τ) arg8 fullShare (k1_pay3 x2 x3 (k1_pay2 x0 x1 sIn) x4 x5)
            ∗ owns (c : Thread nD τ) arg9 fullShare (k1_pay2 x0 x1 sIn)) -∗ K ⟨⟩))
      ⊢ wp frame (wpE (defs₀ (F := F)) Variants.none c none) E (cc1__pairwise_kernel i arg2 harg2 arg3 harg3 arg4 harg4 arg5 harg5 arg6 harg6 arg7 harg7 arg8 harg8 arg9 harg9) K := by
  simp only [cc1__pairwise_kernel_eq_skeleton]; unfold cc1__pairwise_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d8, %f8, -, H8⟩, ⟨%f9, %hf9, H9⟩, Hk⟩
  subst hf0; subst hf1; subst hf2; subst hf3; subst hf4; subst hf5; subst hf9
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H8]
  · iexists _; isplitr
    swap; · iexact H8
    ipureintro
    sl_unfold_words
    rw [View.read_writes_eq_canon _ _ _ (fun y => ⟨_, List.mem_cons_self, View.mem_set_unit_zero hzero1 inb_S64x1_S64x1_0_0 y⟩), View.canon_cons_unit_zero hzero1]
    simp only [View.readAt_eq_ld, View.ld_unit_zero (S := S64x256) hzero1, View.ld_unit_zero (S := S128x256) hzero1, View.ld_unit_zero (S := S64x16) hzero1, View.ld_unit_zero (S := S1x16) hzero1, View.ld_unit_zero (S := S1x256) hzero1, View.ld_unit_zero (S := S1x1) hzero1, View.readCov_unit_zero (S := S64x256) _ hzero1]
  iexists _; isplitr
  swap; · iexact H9
  ipureintro
  sl_unfold_words
  rw [View.read_writes_eq_canon _ _ _ (fun y => ⟨_, List.mem_cons_self, View.mem_set_unit_zero hzero1 inb_S64x256_S64x256_0_0 y⟩), View.canon_cons_unit_zero hzero1]
  simp only [View.readAt_eq_ld, View.ld_unit_zero (S := S64x256) hzero1, View.ld_unit_zero (S := S128x256) hzero1, View.ld_unit_zero (S := S64x16) hzero1, View.ld_unit_zero (S := S1x16) hzero1, View.ld_unit_zero (S := S1x256) hzero1, View.ld_unit_zero (S := S1x1) hzero1, View.readCov_unit_zero (S := S64x256) _ hzero1]

/-! ## The carried scratch at a point, by the kind of step -/

/-- At a step 0 the scratch ends at the step's sums added to zero. -/
theorem acc1_reset (c : Dev nD) (t : Fin cfg1.N) (h0 : t.val % 8 = 0) :
    acc1 V c t.val t.isLt = k1_pay2 (iblk1 V c 0 t) (iblk1 V c 1 t) k1_pay1 := by
  obtain ⟨n, hn⟩ := t
  cases n with
  | zero => rfl
  | succ n =>
    have h0' : (n + 1) % 8 = 0 := h0
    show acc1 V c (n + 1) hn = _
    rw [acc1_succ, if_pos h0']

/-- At any other step it ends at the step's sums added to what the point before left. -/
theorem acc1_step (c : Dev nD) (t : Fin cfg1.N) (h0 : ¬t.val % 8 = 0) :
    acc1 V c t.val t.isLt
      = k1_pay2 (iblk1 V c 0 t) (iblk1 V c 1 t) (acc1 V c (t.val - 1) (Nat.lt_of_le_of_lt (Nat.sub_le _ _) t.isLt)) := by
  obtain ⟨n, hn⟩ := t
  cases n with
  | zero => exact absurd (Nat.zero_mod _) h0
  | succ n =>
    have h0' : ¬(n + 1) % 8 = 0 := h0
    show acc1 V c (n + 1) hn = _
    rw [acc1_succ, if_neg h0']
    rfl

/-! ## The body obligation -/

/-- The invariant at a point's start, restated at the point's number. -/
theorem Phi1_castSucc (c : Dev nD) (t : Fin cfg1.N) :
    (dat1 V c).Φ t.castSucc = Phi1 V c t.val (Nat.le_of_lt t.isLt) := rfl

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t)

set_option maxHeartbeats 4000000 in
/-- The body at any point. Each input's buffer holds its block; the step's kind is read off the point's number; the
    invariant hands the body the scratch (at anything before the first point, else at what the point before left)
    and takes it back at this point's contents; away from step 7 the output's buffer goes back as it came. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).owesAt () t.succ = (dat1 V c).owesAt () t.castSucc from rfl]
  rw [show (dat1 V c).Φ t.succ = Phi1 V c (t.val + 1) t.isLt from rfl, Phi1_succ]
  rw [show (dat1 V c).leavesExact 0 t = owns (c : Thread nD τ) (st1_0 t) fullShare ((dat1 V c).after 0 t) from by
    unfold Dat.leavesExact; rw [liveAt1_0 t], after1_0]
  rw [show (dat1 V c).leavesExact 1 t = owns (c : Thread nD τ) (st1_1 t) fullShare ((dat1 V c).after 1 t) from by
    unfold Dat.leavesExact; rw [liveAt1_1 t], after1_1]
  rw [show (dat1 V c).leavesExact 2 t = owns (c : Thread nD τ) (st1_2 t) fullShare ((dat1 V c).after 2 t) from by
    unfold Dat.leavesExact; rw [liveAt1_2 t], after1_2]
  rw [show (dat1 V c).leavesExact 3 t = owns (c : Thread nD τ) (st1_3 t) fullShare ((dat1 V c).after 3 t) from by
    unfold Dat.leavesExact; rw [liveAt1_3 t], after1_3]
  rw [show (dat1 V c).leavesExact 4 t = owns (c : Thread nD τ) (st1_4 t) fullShare ((dat1 V c).after 4 t) from by
    unfold Dat.leavesExact; rw [liveAt1_4 t], after1_4]
  rw [show (dat1 V c).leavesExact 5 t = owns (c : Thread nD τ) (st1_5 t) fullShare ((dat1 V c).after 5 t) from by
    unfold Dat.leavesExact; rw [liveAt1_5 t], after1_5]
  have hN : t.val < 128 := lt_of_lt_of_eq t.isLt (show cfg1.N = 128 from N_1)
  by_cases h0 : t.val % 8 = 0
  · have h1 : ¬t.val % 8 = 7 := by omega
    rw [Dat.leavesExact_idle (dat1 V c) 6 t (idleAt1_6 t (fun h => h1 ((hcond1_1 t).mp h))) (noFlush1_6 t (fun h => h1 ((hcond1_1 t).mp h)))]
    rw [acc1_reset V c t h0]
    by_cases hz : t.val = 0
    · rw [Phi1_castSucc V c t, Phi1_zero V c _ _ hz, PhiA1_eq]
      iintro ⟨⟨⟨Hs0, Hs1, Hs2, HS⟩, Hg⟩, Ho, ⟨%d0, H0⟩, ⟨%d1, H1⟩, ⟨%d2, H2⟩, ⟨%d3, H3⟩, ⟨%d4, H4⟩, ⟨%d5, H5⟩, ⟨%d6, H6⟩⟩
      iapply (sound_kernel1_A c Set.univ (grid1.coords t) _ _ _ _ _ _ _ _ _ _ _ _ _ _ _ _ ((hcond1_0 t).mpr h0) (fun h => h1 ((hcond1_1 t).mp h)) (iblk1 V c 0 t) (iblk1 V c 1 t) _)
      isplitl [H0]; · iexact H0
      isplitl [H1]; · iexact H1
      isplitl [HS]; · iexact HS
      iintro ⟨H0, H1, HS⟩
      isplitl [Hs0 Hs1 Hs2 HS Hg]
      · isplitl [Hs0]; · iexact Hs0
        isplitl [Hs1]; · iexact Hs1
        isplitl [Hs2]; · iexact Hs2
        isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists d6; iexact H6
    · rw [Phi1_castSucc V c t, Phi1_pos V c _ _ hz]
      iintro ⟨⟨Hs0, Hs1, Hs2, HS, Hg⟩, Ho, ⟨%d0, H0⟩, ⟨%d1, H1⟩, ⟨%d2, H2⟩, ⟨%d3, H3⟩, ⟨%d4, H4⟩, ⟨%d5, H5⟩, ⟨%d6, H6⟩⟩
      iapply (sound_kernel1_A c Set.univ (grid1.coords t) _ _ _ _ _ _ _ _ _ _ _ _ _ _ _ _ ((hcond1_0 t).mpr h0) (fun h => h1 ((hcond1_1 t).mp h)) (iblk1 V c 0 t) (iblk1 V c 1 t) _)
      isplitl [H0]; · iexact H0
      isplitl [H1]; · iexact H1
      isplitl [HS]; · iexists _; iexact HS
      iintro ⟨H0, H1, HS⟩
      isplitl [Hs0 Hs1 Hs2 HS Hg]
      · isplitl [Hs0]; · iexact Hs0
        isplitl [Hs1]; · iexact Hs1
        isplitl [Hs2]; · iexact Hs2
        isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists d6; iexact H6
  · have hz : t.val ≠ 0 := fun e => h0 (by rw [e])
    rw [acc1_step V c t h0]
    rw [Phi1_castSucc V c t, Phi1_pos V c _ _ hz]
    by_cases h1 : t.val % 8 = 7
    · rw [show (dat1 V c).leavesExact 6 t = owns (c : Thread nD τ) (st1_6 t) fullShare ((dat1 V c).after 6 t) from by
        unfold Dat.leavesExact; rw [liveAt1_6 t ((hcond1_1 t).mpr h1)], after1_6, acc1_step V c t h0]
      iintro ⟨⟨Hs0, Hs1, Hs2, HS, Hg⟩, Ho, ⟨%d0, H0⟩, ⟨%d1, H1⟩, ⟨%d2, H2⟩, ⟨%d3, H3⟩, ⟨%d4, H4⟩, ⟨%d5, H5⟩, ⟨%d6, H6⟩⟩
      iapply (sound_kernel1_C c Set.univ (grid1.coords t) _ _ _ _ _ _ _ _ _ _ _ _ _ _ _ _ (fun h => h0 ((hcond1_0 t).mp h)) ((hcond1_1 t).mpr h1)
        (iblk1 V c 0 t) (iblk1 V c 1 t) (iblk1 V c 2 t) (iblk1 V c 3 t) (iblk1 V c 4 t) (iblk1 V c 5 t)
        (acc1 V c (t.val - 1) (Nat.lt_of_le_of_lt (Nat.sub_le _ _) t.isLt)) _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS]; · iexact HS
      iintro ⟨H0, H1, H2, H3, H4, H5, H6, HS⟩
      isplitl [Hs0 Hs1 Hs2 HS Hg]
      · isplitl [Hs0]; · iexact Hs0
        isplitl [Hs1]; · iexact Hs1
        isplitl [Hs2]; · iexact Hs2
        isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · rw [Dat.leavesExact_idle (dat1 V c) 6 t (idleAt1_6 t (fun h => h1 ((hcond1_1 t).mp h))) (noFlush1_6 t (fun h => h1 ((hcond1_1 t).mp h)))]
      iintro ⟨⟨Hs0, Hs1, Hs2, HS, Hg⟩, Ho, ⟨%d0, H0⟩, ⟨%d1, H1⟩, ⟨%d2, H2⟩, ⟨%d3, H3⟩, ⟨%d4, H4⟩, ⟨%d5, H5⟩, ⟨%d6, H6⟩⟩
      iapply (sound_kernel1_B c Set.univ (grid1.coords t) _ _ _ _ _ _ _ _ _ _ _ _ _ _ _ _ (fun h => h0 ((hcond1_0 t).mp h)) (fun h => h1 ((hcond1_1 t).mp h))
        (iblk1 V c 0 t) (iblk1 V c 1 t) (acc1 V c (t.val - 1) (Nat.lt_of_le_of_lt (Nat.sub_le _ _) t.isLt)) _)
      isplitl [H0]; · iexact H0
      isplitl [H1]; · iexact H1
      isplitl [HS]; · iexact HS
      iintro ⟨H0, H1, HS⟩
      isplitl [Hs0 Hs1 Hs2 HS Hg]
      · isplitl [Hs0]; · iexact Hs0
        isplitl [Hs1]; · iexact Hs1
        isplitl [Hs2]; · iexact Hs2
        isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists d6; iexact H6

/-- The region's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.Bits.RunDefs.lean ====
/-
  The core's buffer contents at each boundary of the program, from the launch memory `m`:
  at launch (`W0`); after the first region, which writes the product array (`W1`); after the host operations that
  slice and reshape the weights and the bias (`W2`); after the second region, which writes the result (`W3`).
  A region changes only its output array; the host operations write only their own results. So every argument
  array is at its launch contents throughout, and the result array ends at what the second region's write-backs
  leave in it.
-/
import proofs.«139806_j56934086476615_1_alg».proof.Proof.Bits.Region0
import proofs.«139806_j56934086476615_1_alg».proof.Proof.Bits.Region1
import proofs.«139806_j56934086476615_1_alg».proof.Proof.Gen.Kernel.Regions
import Idealize.ShloMosaic.Lib.StableHlo.Run

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Core `c`'s buffers at launch. -/
abbrev W0 (c : Dev nD) : Valuation τ sig (Elt F) := fun b => m (c, b)
/-- The same read at the core's references. -/
abbrev V0 : (c : Dev nD) → (b : Ref sig .tc) → Buf (Elt F) ((c : Thread nD τ).loc b) := fun c b => W0 m c b

/-- After the first region: the product array at what the region's write-back leaves, every other buffer as launched. -/
def W1 (c : Dev nD) : Valuation τ sig (Elt F) :=
  Function.update (W0 m c) main_v0 ((dat0 (V0 m) c).arrAt 2 cfg0.N)
abbrev V1 : (c : Dev nD) → (b : Ref sig .tc) → Buf (Elt F) ((c : Thread nD τ).loc b) := fun c b => W1 m c b

/-- After the host operations. -/
abbrev W2 (c : Dev nD) : Valuation τ sig (Elt F) := StableHlo.after hostOps1 (W1 m c)
abbrev V2 : (c : Dev nD) → (b : Ref sig .tc) → Buf (Elt F) ((c : Thread nD τ).loc b) := fun c b => W2 m c b

/-- After the second region: the result array at what the region's write-backs leave, every other buffer as entered. -/
def W3 (c : Dev nD) : Valuation τ sig (Elt F) :=
  Function.update (W2 m c) main_v6 ((dat1 (V2 m) c).arrAt 6 cfg1.N)
abbrev V3 : (c : Dev nD) → (b : Ref sig .tc) → Buf (Elt F) ((c : Thread nD τ).loc b) := fun c b => W3 m c b

/-! ## What each item leaves unchanged -/

theorem W1_main_v0 (c : Dev nD) : W1 m c main_v0 = (dat0 (V0 m) c).arrAt 2 cfg0.N := by
  unfold W1; exact Function.update_self ..

theorem W1_of_ne (c : Dev nD) (r : Ref sig .tc) (h : r ≠ main_v0) : W1 m c r = W0 m c r := by
  unfold W1
  exact Function.update_of_ne (StableHlo.devRef_ne_of_ne h : (Proc.devRef .tc r : DevRef τ sig) ≠ Proc.devRef .tc main_v0) ..

theorem W2_of (c : Dev nD) (r : Ref sig .tc) (h : r ∉ hostOps1_W) : W2 m c r = W1 m c r :=
  StableHlo.after_of_writes_sub hostOps1 _ hostOps1_writes h

theorem W3_main_v6 (c : Dev nD) : W3 m c main_v6 = (dat1 (V2 m) c).arrAt 6 cfg1.N := by
  unfold W3; exact Function.update_self ..

theorem W3_of_ne (c : Dev nD) (r : Ref sig .tc) (h : r ≠ main_v6) : W3 m c r = W2 m c r := by
  unfold W3
  exact Function.update_of_ne (StableHlo.devRef_ne_of_ne h : (Proc.devRef .tc r : DevRef τ sig) ≠ Proc.devRef .tc main_v6) ..

/-! ## The arguments are never written -/

theorem W2_main_arg0 (c : Dev nD) : W2 m c main_arg0 = m ((c : Thread nD τ).loc main_arg0) :=
  (W2_of m c main_arg0 (by decide)).trans ((W1_of_ne m c main_arg0 (by decide)).trans rfl)
theorem W2_main_arg1 (c : Dev nD) : W2 m c main_arg1 = m ((c : Thread nD τ).loc main_arg1) :=
  (W2_of m c main_arg1 (by decide)).trans ((W1_of_ne m c main_arg1 (by decide)).trans rfl)
theorem W2_main_arg2 (c : Dev nD) : W2 m c main_arg2 = m ((c : Thread nD τ).loc main_arg2) :=
  (W2_of m c main_arg2 (by decide)).trans ((W1_of_ne m c main_arg2 (by decide)).trans rfl)
theorem W2_main_arg3 (c : Dev nD) : W2 m c main_arg3 = m ((c : Thread nD τ).loc main_arg3) :=
  (W2_of m c main_arg3 (by decide)).trans ((W1_of_ne m c main_arg3 (by decide)).trans rfl)

theorem W3_main_arg0 (c : Dev nD) : W3 m c main_arg0 = m ((c : Thread nD τ).loc main_arg0) :=
  (W3_of_ne m c main_arg0 (by decide)).trans (W2_main_arg0 m c)
theorem W3_main_arg1 (c : Dev nD) : W3 m c main_arg1 = m ((c : Thread nD τ).loc main_arg1) :=
  (W3_of_ne m c main_arg1 (by decide)).trans (W2_main_arg1 m c)
theorem W3_main_arg2 (c : Dev nD) : W3 m c main_arg2 = m ((c : Thread nD τ).loc main_arg2) :=
  (W3_of_ne m c main_arg2 (by decide)).trans (W2_main_arg2 m c)
theorem W3_main_arg3 (c : Dev nD) : W3 m c main_arg3 = m ((c : Thread nD τ).loc main_arg3) :=
  (W3_of_ne m c main_arg3 (by decide)).trans (W2_main_arg3 m c)

/-- The product array reaches the second region as the first left it: no host operation writes it. -/
theorem W2_main_v0 (c : Dev nD) : W2 m c main_v0 = (dat0 (V0 m) c).arrAt 2 cfg0.N :=
  (W2_of m c main_v0 (by decide)).trans (W1_main_v0 m c)

/-- An unscoped reference of the core is among those the run tracks. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

end Cert.Kernel.Hand

end
-- ==== Proof.Bits.Shared1.lean ====
/-
  The second region's arrays, taken out of the core's buffers and put back.

  The region's seven windows stand on six buffers: the two windows that read the product array share it. Held whole
  at the full share, the six buffers are the seven windows' arrays at the region's entry contents once the product
  array's share is split in its two halves, one per window on it. At the exit the two halves hold the same contents —
  neither window writes, so each still holds what the region found — and join again to the full share; the output
  array holds what the write-backs left, every other buffer what the region found.
-/
import proofs.«139806_j56934086476615_1_alg».proof.Proof.Bits.Region1
import Idealize.ShloMosaic.Lib.Pipeline.Launch
import Idealize.ShloMosaic.Lib.Pipeline.Kit

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The six buffers, and the seven windows' arrays one by one -/

/-- The buffers behind the seven windows' arrays are six: the two windows on the product array share theirs. -/
theorem arrImage1 : Finset.univ.image (Pipeline.arrRef spec1)
    = [main_v0, main_arg0, main_v2, main_v4, main_v5, main_v6].toFinset := by decide

/-- The six buffers whole at the full share at a valuation `G`, one by one. -/
theorem arrBufs1_chain (c : Dev nD) (G : (b : Ref sig .tc) → Buf (Elt F) ((c : Thread nD τ).loc b)) :
    (Pipeline.arrBufs (Ix := Unit) (Name := ℕ) (U := UR sig nD τ) (Lvl := ℕ) spec1 c G : sProp 𝕄)
      = iprop((((c : Thread nD τ).loc main_v0) ↦{fullShare} G main_v0)
          ∗ (((c : Thread nD τ).loc main_arg0) ↦{fullShare} G main_arg0)
          ∗ (((c : Thread nD τ).loc main_v2) ↦{fullShare} G main_v2)
          ∗ (((c : Thread nD τ).loc main_v4) ↦{fullShare} G main_v4)
          ∗ (((c : Thread nD τ).loc main_v5) ↦{fullShare} G main_v5)
          ∗ (((c : Thread nD τ).loc main_v6) ↦{fullShare} G main_v6)) := by
  unfold Pipeline.arrBufs
  exact bigSep_eq_bigSepL_of_eq [main_v0, main_arg0, main_v2, main_v4, main_v5, main_v6] arrImage1 (by decide) _

/-- The seven windows' arrays, at contents read off a valuation `G` of the buffers, one by one: each array is a whole
    buffer; the two windows on the product array hold it at the two halves of the full share, the others hold theirs
    at the full share. -/
theorem arrays1_chain (c : Dev nD) (G : (b : Ref sig .tc) → Buf (Elt F) ((c : Thread nD τ).loc b))
    (Fw : (w : Fin cfg1.W) → Buf (Elt F) ((cfg1.win w).arr.view.loc (c : Thread nD τ)))
    (hF : ∀ w, Fw w = G (Pipeline.arrRef spec1 w)) :
    ((dat1 V c).arrays Fw : sProp 𝕄)
      = iprop((((c : Thread nD τ).loc main_v0) ↦{fullShare.left} G main_v0)
          ∗ (((c : Thread nD τ).loc main_v0) ↦{fullShare.right} G main_v0)
          ∗ (((c : Thread nD τ).loc main_arg0) ↦{fullShare} G main_arg0)
          ∗ (((c : Thread nD τ).loc main_v2) ↦{fullShare} G main_v2)
          ∗ (((c : Thread nD τ).loc main_v4) ↦{fullShare} G main_v4)
          ∗ (((c : Thread nD τ).loc main_v5) ↦{fullShare} G main_v5)
          ∗ (((c : Thread nD τ).loc main_v6) ↦{fullShare} G main_v6)) := by
  unfold Dat.arrays
  rw [bigSep_W1, hF 0, hF 1, hF 2, hF 3, hF 4, hF 5, hF 6, share1_0, share1_1,
    share1_rest V c 2 (by decide) (by decide), share1_rest V c 3 (by decide) (by decide),
    share1_rest V c 4 (by decide) (by decide), share1_rest V c 5 (by decide) (by decide),
    share1_rest V c 6 (by decide) (by decide),
    (arr_whole1 0).set_eq_univ, (arr_whole1 2).set_eq_univ, (arr_whole1 3).set_eq_univ,
    (arr_whole1 4).set_eq_univ, (arr_whole1 5).set_eq_univ, (arr_whole1 6).set_eq_univ]

/-- The seven windows' arrays at contents read off `G` are the six buffers whole at the full share at `G`: the product
    array's two halves are its full share. -/
theorem arrays1_iff (c : Dev nD) (G : (b : Ref sig .tc) → Buf (Elt F) ((c : Thread nD τ).loc b))
    (Fw : (w : Fin cfg1.W) → Buf (Elt F) ((cfg1.win w).arr.view.loc (c : Thread nD τ)))
    (hF : ∀ w, Fw w = G (Pipeline.arrRef spec1 w)) :
    ((dat1 V c).arrays Fw : sProp 𝕄)
      ⊣⊢ (Pipeline.arrBufs (Ix := Unit) (Name := ℕ) (U := UR sig nD τ) (Lvl := ℕ) spec1 c G : sProp 𝕄) := by
  rw [arrays1_chain V c G Fw hF, arrBufs1_chain c G]
  exact ⟨sep_assoc.2.trans (sep_mono_left (pointsTo_share (PosShare.mem_left_op_right fullShare)).2),
    (sep_mono_left (pointsTo_share (PosShare.mem_left_op_right fullShare)).1).trans sep_assoc.1⟩

/-- ENTRY: the six buffers behind the windows' arrays, each whole at the full share at `V`, are the seven windows'
    arrays at the region's entry contents, the product array's share split between its two windows. -/
theorem arrays1_of_arrBufs (c : Dev nD) :
    (Pipeline.arrBufs (Ix := Unit) (Name := ℕ) (U := UR sig nD τ) (Lvl := ℕ) spec1 c (V c) : sProp 𝕄)
      ⊢ (dat1 V c).arrays ((dat1 V c).arrAt · 0) := by
  -- before any write-back a window's array is as the region finds it
  exact (arrays1_iff V c (V c) ((dat1 V c).arrAt · 0) (fun w => A_eq1 V c w)).2

/-- EXIT: the seven windows' arrays at their final contents are the six buffers whole at the full share at any
    valuation `V'` that has the result array at what the write-backs left and agrees with `V` elsewhere. -/
theorem arrBufs_of_arrays1 (c : Dev nD) (V' : (b : Ref sig .tc) → Buf (Elt F) ((c : Thread nD τ).loc b))
    (h6 : V' main_v6 = (dat1 V c).arrAt 6 cfg1.N) (hrest : ∀ b : Ref sig .tc, b ≠ main_v6 → V' b = V c b) :
    (dat1 V c).arrays ((dat1 V c).arrAt · cfg1.N)
      ⊢ (Pipeline.arrBufs (Ix := Unit) (Name := ℕ) (U := UR sig nD τ) (Lvl := ℕ) spec1 c V' : sProp 𝕄) := by
  -- an input's array is never written, and its buffer is not the result's: `V'` has there what the region found
  have hin : ∀ w : Fin cfg1.W, (cfg1.win w).isOut = false → Pipeline.arrRef spec1 w ≠ main_v6 →
      (dat1 V c).arrAt w cfg1.N = V' (Pipeline.arrRef spec1 w) := fun w hw hne => by
    rw [Pipeline.Dat.arrAt_in (dat1 V c) w hw, A_eq1, hrest _ hne]
  refine (arrays1_iff V c V' ((dat1 V c).arrAt · cfg1.N) fun w => ?_).1
  match w with
  | ⟨0, _⟩ => exact hin 0 rfl (by decide)
  | ⟨1, _⟩ => exact hin 1 rfl (by decide)
  | ⟨2, _⟩ => exact hin 2 rfl (by decide)
  | ⟨3, _⟩ => exact hin 3 rfl (by decide)
  | ⟨4, _⟩ => exact hin 4 rfl (by decide)
  | ⟨5, _⟩ => exact hin 5 rfl (by decide)
  | ⟨6, _⟩ => exact h6.symm

end Cert.Kernel.Hand

end
-- ==== Proof.Bits.Run.lean ====
/-
  The program's run: the first region, the host operations, the second region, launched from memory `m`.

  Between two items the core holds every unscoped buffer at the boundary's contents (`W0` … `W3`), the generator
  register at some state, and owes nothing. A region takes its windows' arrays out of the unscoped buffers at
  entry and puts them back at exit with its output array at what its write-backs left. The second region reads
  the product array through two windows: the array's full share is split in two halves at entry, one per window,
  and joined again at exit, both halves holding the same contents since neither window writes.
  Every weakly fair execution terminates, and the final memory holds every unscoped buffer at `W3`.
-/
import proofs.«139806_j56934086476615_1_alg».proof.Proof.Bits.RunDefs
import proofs.«139806_j56934086476615_1_alg».proof.Proof.Bits.Shared1
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The first region's exit contents -/

/-- After the first region each of its arrays holds what the valuation after it says: the two inputs are as entered,
    the product array is what the write-back left. -/
theorem hF0 (c : Dev nD) : ∀ w : Fin cfg0.W, (dat0 (V0 m) c).arrAt w cfg0.N = V1 m c (Pipeline.arrRef spec0 w)
  | ⟨0, _⟩ => (((dat0 (V0 m) c).arrAt_in 0 rfl _).trans (A_eq0 (V0 m) c 0)).trans (W1_of_ne m c _ (by decide)).symm
  | ⟨1, _⟩ => (((dat0 (V0 m) c).arrAt_in 1 rfl _).trans (A_eq0 (V0 m) c 1)).trans (W1_of_ne m c _ (by decide)).symm
  | ⟨2, _⟩ => (W1_main_v0 m c).symm

/-- Every buffer that is none of the first region's arrays is as entered. -/
theorem hrest0 (c : Dev nD) : ∀ b, b ∉ Finset.univ.image (Pipeline.arrRef spec0) → V1 m c b = V0 m c b :=
  fun b hb => W1_of_ne m c b fun e => hb (Finset.mem_image.mpr ⟨2, Finset.mem_univ _, e.symm⟩)

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V0 m) c
  | ⟨1, _⟩ => fun c => dat1 (V2 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and that it owes
    nothing. -/
abbrev R (c : Dev nD) : sProp 𝕄 := iprop((∃ r, prngReg c r) ∗ ∃ W, owes (c : Thread nD τ) (0 : CellTallies nD τ sig Unit) W)
/-- A stretch of host operations as an item of the run, over the unscoped references from the contents W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- The last thread state without what is owed: every unscoped buffer at the last boundary's contents, the generator
    register at some state. -/
abbrev Tₙ (c : Dev nD) : sProp 𝕄 := iprop(StableHlo.held (c : Thread nD τ) (Pipeline.ucRefs τ sig) (W3 m c) ∗ ∃ r, prngReg c r)

/-! ## The second region's arrays among the core's unscoped buffers -/

/-- Every buffer that is none of the second region's arrays is as entered: the region's unscoped rest at the contents
    it found is the same at the contents after it. -/
theorem unscopedRest1_exit (c : Dev nD) :
    (Pipeline.unscopedRest (Ix := Unit) (Name := ℕ) (U := UR sig nD τ) (Lvl := ℕ) spec1 c (V2 m c) : sProp 𝕄)
      = Pipeline.unscopedRest spec1 c (V3 m c) := by
  unfold Pipeline.unscopedRest
  exact bigSep_congr fun b hb => by
    rw [show V3 m c b = V2 m c b from W3_of_ne m c b fun e =>
      (Finset.mem_sdiff.mp hb).2 (Finset.mem_image.mpr ⟨6, Finset.mem_univ _, e.symm⟩)]

/-- A core's unscoped buffers at a valuation are the buffers behind the second region's windows and the rest. -/
theorem unscopedBufs_split1 (c : Dev nD) (W : Valuation τ sig (Elt F)) :
    (StableHlo.held (c : Thread nD τ) (Pipeline.ucRefs τ sig) W : sProp 𝕄)
      = iprop(Pipeline.arrBufs spec1 c (fun b => W b) ∗ Pipeline.unscopedRest spec1 c (fun b => W b)) := by
  rw [← Pipeline.unscopedBufs_held (Ix := Unit) (Name := ℕ) (U := UR sig nD τ) (Lvl := ℕ) c W]
  exact Pipeline.unscopedBufs_split₀ cfgs 1 winFacts₀1.arr_unscoped c (fun b => W b)

/-- ENTRY of the second region, the arrays' part: a core's unscoped buffers at the contents the host operations left
    are the region's arrays at its entry contents and the unscoped rest. -/
theorem entry1 (c : Dev nD) :
    (StableHlo.held (c : Thread nD τ) (Pipeline.ucRefs τ sig) (W2 m c) : sProp 𝕄)
      ⊢ iprop((dat1 (V2 m) c).arrays ((dat1 (V2 m) c).arrAt · 0) ∗ Pipeline.unscopedRest spec1 c (V2 m c)) := by
  rw [unscopedBufs_split1 c (W2 m c)]
  exact sep_mono (arrays1_of_arrBufs (V2 m) c) .rfl

/-- EXIT of the second region, the arrays' part: the region's arrays at their final contents and the unscoped rest as
    entered are the core's unscoped buffers at the contents after the region. -/
theorem exit1 (c : Dev nD) :
    iprop((dat1 (V2 m) c).arrays ((dat1 (V2 m) c).arrAt · cfg1.N) ∗ Pipeline.unscopedRest spec1 c (V2 m c))
      ⊢ (StableHlo.held (c : Thread nD τ) (Pipeline.ucRefs τ sig) (W3 m c) : sProp 𝕄) := by
  rw [unscopedBufs_split1 c (W3 m c), unscopedRest1_exit m c]
  exact sep_mono (arrBufs_of_arrays1 (V2 m) c (V3 m c) (W3_main_v6 m c) (fun b hb => W3_of_ne m c b hb)) .rfl

/-! ## The regions as items of the run -/

set_option backward.isDefEq.respectTransparency.types false in
/-- The first region: entered from every unscoped buffer at the launch contents, left with the product array at what
    its write-back left. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0 m c) (V1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region: entered from every unscoped buffer at the contents the host operations left, left with the
    result array at what its write-backs left. The product array's full share is split between the two windows that
    read it at entry, and joined again at exit. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (V2 m) c).loose
  hwaits := Pipeline.hwaits_of_owed_zero _ _ _ _ L lv 1 fun c t => owed1 (V2 m) c t
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    iintro ⟨⟨Hub, Hp, HO⟩, -, -⟩
    ihave H := (entry1 m c) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin1 (V2 m) c); unfold Pipeline.ΦA
    iintro ⟨Hp, -, Hr⟩
    isplitl [Hr]; · iexact Hr
    iexact Hp
  hout c := by
    rw [Pipeline.ownSems0_none]
    refine (hout1 (V2 m) c).trans ?_; unfold Pipeline.ΦA
    iintro ⟨Hr, Hp⟩
    isplitl [Hp]; · iexact Hp
    isplitr; · iempintro
    iexact Hr
  hexit c := by
    iintro ⟨Ha, HO, HY, Hrest⟩
    imodintro
    isplitl [Ha Hrest HY]
    · isplitl [Ha Hrest]
      · iapply (exit1 m c)
        isplitl [Ha]; · iexact Ha
        iexact Hrest
      iexact HY
    unfold Pipeline.Dat.owesAt Pipeline.owesWithin
    icases HO with ⟨%W, -, HO⟩; iexists W; iexact HO

/-! ## The program as items, and the launch -/

/-- The program's three items in order. -/
abbrev segs : List (Pipeline.Seg (pcfgs (F := F)) adm (pdats m) () defs₀ 𝒱₀ L lv) :=
  [ .region (reg0 m),
    .host (hseg hostOps1 hostOps1_sub hostOps1_fresh (W1 m)),
    .region (reg1 m) ]
/-- The program is the run of its items. -/
theorem main_run (c : Dev nD) : main (F := F) c = Pipeline.Seg.run (segs m) := (main_chain c).trans (by chain_rfl)

set_option backward.isDefEq.respectTransparency.types false in
/-- Every weakly fair execution of the program from m with zero counters terminates, nothing faulting, and the final
    memory holds every unscoped buffer of every core at the last boundary's contents. -/
theorem run_all : θ_run defs (onTc (τ := τ) (main (F := F))) ⟨m, fun _ => 0, ρ⟩ (fun r => ∀ c : Dev nD,
      ∀ b ∈ Pipeline.ucRefs τ sig, r.2.mem ((c : Thread nD τ).1, b) = W3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c => h c)

end Cert.Kernel.Hand

end
-- ==== Proof.Region0.lean ====
/-
  The first kernel region: the product `x @ T` in one grid point.

  The region has one point. Its two input windows are the whole arrays `x` (1024 × 16) and `T` (16 × 256); its
  output window is the whole 1024 × 256 result. The body loads both inputs, multiplies them into a zero
  accumulator and stores the product over the whole output block, so after the body the output's staging buffer
  holds the product of the two input blocks, whatever it held before. Stated at an entry valuation `V` of the
  core's buffers and at any float instance.
-/
import proofs.«139806_j56934086476615_1_alg».proof.Proof.Gen.KernelIdeal.Launch
import proofs.«139806_j56934086476615_1_alg».proof.Proof.Gen.KernelIdeal.Skeleton
import proofs.«139806_j56934086476615_1_alg».proof.Proof.Gen.KernelIdeal.Points
import Idealize.ShloMosaic.Lib.Pipeline.FrameBody
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, for any proof data whose array is
    `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each through the whole block -/

abbrev rx0 : Rect S1024x16 := Rect.unit (s := S1024x16) ![0, 0] S1024x16.size inb_S1024x16_S1024x16_0_0
abbrev rT0 : Rect S16x256 := Rect.unit (s := S16x256) ![0, 0] S16x256.size inb_S16x256_S16x256_0_0
abbrev ro0 : Rect S1024x256 := Rect.unit (s := S1024x256) ![0, 0] S1024x256.size inb_S1024x256_S1024x256_0_0

theorem hz2 : (![0, 0] : Fin 2 → Nat) = fun _ => 0 := by
  funext a; match a with | ⟨0, _⟩ => rfl | ⟨1, _⟩ => rfl

/-- The one store covers the output block. -/
theorem cover0_2 (p0 : Vec F S1024x256 .f32) (y : S1024x256.Idx) :
    ∃ pc ∈ ([⟨ro0, p0⟩] : List (View.Piece (Elt F) S1024x256 .f32)), y ∈ pc.1.set :=
  View.cover_of_tiled [⟨ro0, p0⟩] S1024x256.size (by rfl) y

/-! ## The body's triple -/

set_option maxHeartbeats 1000000 in
/-- The body on whole staging memrefs, the inputs' at contents `x0`, `x1` and the output's at anything, runs to
    the continuation holding the inputs' as they were and the output's at the product `k0_pay1 x0 x1`. -/
theorem sound_kernel0 (c : Dev nD) (E : Set ℕ) (i : grid0.Coords)
    (arg1 : Memref sig .tc .vmem S1024x16 .f32) (harg1 : arg1.IsWhole) (arg2 : Memref sig .tc .vmem S16x256 .f32) (harg2 : arg2.IsWhole)
    (arg3 : Memref sig .tc .vmem S1024x256 .f32) (harg3 : arg3.IsWhole)
    (x0 : Vec F S1024x16 .f32) (x1 : Vec F S16x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (k0_pay1 x0 x1)) -∗ K ⟨⟩))
      ⊢ wp frame (wpE (defs₀ (F := F)) Variants.none c none) E (cc0__ms_kernel i arg1 harg1 arg2 harg2 arg3 harg3) K := by
  simp only [cc0__ms_kernel_eq_skeleton]; unfold cc0__ms_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  rw [View.read_writes_eq_canon _ _ _ (cover0_2 _), View.canon_unit_zero hz2]
  simp only [View.readAt_eq_ld, View.ld_unit_zero (S := S1024x16) hz2, View.ld_unit_zero (S := S16x256) hz2]

/-! ## The region's proof data -/

/-- The arrays as the region finds them; after the body each input's buffer at its block and the output's at the
    product of the two input blocks; the invariant the scoped buffers no window stages and the generator register,
    untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => k0_pay1 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = k0_pay1 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The region's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.Region1.lean ====
/-
  The second kernel region: the pairwise sums, accumulated over eight steps, and the projection.

  The grid is 16 × 8: point `t` is row block `t / 8` (64 rows) at step `t % 8` (128 rows of the second
  index). A scratch buffer of 64 × 256 is carried from point to point. At step 0 it is reset to zero; at every
  step the body adds to it, entry by entry, the sum over the step's 128 rows `j` of `exp (0 - |Ms[i,d] - Ms[j,d]|)`;
  at step 7 the body also projects: each row's sixteen features against the first weights, the row's 256
  accumulated sums against the other weights, plus the bias, through the logistic function, stored over the
  whole 64 × 1 output block. The output window is idle at the other steps and written back at step 7 only.
  Stated at an entry valuation `V` of the core's buffers and at any float instance.
-/
import proofs.«139806_j56934086476615_1_alg».proof.Proof.Gen.KernelIdeal.Launch
import proofs.«139806_j56934086476615_1_alg».proof.Proof.Gen.KernelIdeal.Skeleton
import proofs.«139806_j56934086476615_1_alg».proof.Proof.Gen.KernelIdeal.Points
import Idealize.ShloMosaic.Lib.Pipeline.FrameBody
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The carried scratch -/

/-- The scratch after point `n`: the step's sums added to zero at a step 0, to what the point before left otherwise. -/
def acc1 (c : Dev nD) : (n : ℕ) → n < cfg1.N → Vec F S64x256 .f32
  | 0, h => k1_pay2 (iblk1 V c 0 ⟨0, h⟩) (iblk1 V c 1 ⟨0, h⟩) k1_pay1
  | n + 1, h => k1_pay2 (iblk1 V c 0 ⟨n + 1, h⟩) (iblk1 V c 1 ⟨n + 1, h⟩)
      (if (n + 1) % 8 = 0 then k1_pay1 else acc1 c n (Nat.lt_of_succ_lt h))

theorem acc1_zero (c : Dev nD) (h : 0 < cfg1.N) :
    acc1 V c 0 h = k1_pay2 (iblk1 V c 0 ⟨0, h⟩) (iblk1 V c 1 ⟨0, h⟩) k1_pay1 := rfl
theorem acc1_succ (c : Dev nD) (n : ℕ) (h : n + 1 < cfg1.N) :
    acc1 V c (n + 1) h = k1_pay2 (iblk1 V c 0 ⟨n + 1, h⟩) (iblk1 V c 1 ⟨n + 1, h⟩)
      (if (n + 1) % 8 = 0 then k1_pay1 else acc1 V c n (Nat.lt_of_succ_lt h)) := rfl

/-- The carried scratch as a whole memref. -/
abbrev scM1 : Memref sig .tc .vmem S64x256 .f32 := Memref.whole cc1_scratch0

/-- The region's invariant before position `n`: before the first point the scoped buffers no window stages, each at
    anything, and the generator register; afterwards the same with the carried scratch at what the point before left. -/
def Phi1 (c : Dev nD) : (n : ℕ) → n ≤ cfg1.N → sProp 𝕄
  | 0, _ => Pipeline.ΦA spec1 c
  | n + 1, hn => iprop((∃ f : Buf (Elt F) ((c : Thread nD τ).loc cc0_stg0_0), ((c : Thread nD τ).loc cc0_stg0_0) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg2_0), ((c : Thread nD τ).loc cc0_stg2_0) ↦{fullShare} f)
      ∗ owns (c : Thread nD τ) scM1 fullShare (acc1 V c n hn)
      ∗ (∃ r, prngReg c r))

/-! ## The region's proof data -/

/-- The arrays as the region finds them; after the body each input's buffer at its block and the output's at the
    projection of the step's blocks and the scratch; the invariant `Phi1`; nothing owed; the two windows on the
    product array hold it at complementary halves of the full share, every other input at the full share. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => k1_pay3 (iblk1 V c 2 t) (iblk1 V c 3 t) (acc1 V c t.val t.isLt) (iblk1 V c 4 t) (iblk1 V c 5 t)
  Φ t := Phi1 V c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t
    = k1_pay3 (iblk1 V c 2 t) (iblk1 V c 3 t) (acc1 V c t.val t.isLt) (iblk1 V c 4 t) (iblk1 V c 5 t) := by dsimp only [dat1]

/-- The shares of the two windows on the product array are the two halves of the full share. -/
theorem share1_0 (c : Dev nD) : (dat1 V c).share 0 = fullShare.left := by
  unfold Dat.share
  rw [if_neg (by decide)]
  dsimp only [dat1]
theorem share1_1 (c : Dev nD) : (dat1 V c).share 1 = fullShare.right := by
  unfold Dat.share
  rw [if_neg (by decide)]
  dsimp only [dat1]
/-- Every other window holds its array at the full share. -/
theorem share1_rest (c : Dev nD) (w : Fin cfg1.W) (h0 : w ≠ 0) (h1 : w ≠ 1) : (dat1 V c).share w = fullShare := by
  match w, h0, h1 with
  | ⟨0, _⟩, h0, _ => exact absurd rfl h0
  | ⟨1, _⟩, _, h1 => exact absurd rfl h1
  | ⟨2, _⟩, _, _ => unfold Dat.share; rw [if_neg Bool.false_ne_true]; dsimp only [dat1]
  | ⟨3, _⟩, _, _ => unfold Dat.share; rw [if_neg Bool.false_ne_true]; dsimp only [dat1]
  | ⟨4, _⟩, _, _ => unfold Dat.share; rw [if_neg Bool.false_ne_true]; dsimp only [dat1]
  | ⟨5, _⟩, _, _ => unfold Dat.share; rw [if_neg Bool.false_ne_true]; dsimp only [dat1]
  | ⟨6, _⟩, _, _ => unfold Dat.share; rw [if_pos rfl]
  | ⟨n + 7, h⟩, _, _ => exact absurd h (Nat.not_lt.2 (Nat.le_add_left _ _))

/-- Nothing is owed at any position. -/
theorem owed1 (c : Dev nD) (t : Fin (cfg1.N + 1)) : (dat1 V c).owed t = 0 := rfl

/-! ## The invariant at the region's two ends -/

theorem Phi1_zero (c : Dev nD) (n : ℕ) (h : n ≤ cfg1.N) (hz : n = 0) : Phi1 V c n h = Pipeline.ΦA spec1 c := by
  subst hz; rfl

/-- After point n (before point n + 1): the carried scratch at that point's contents. -/
theorem Phi1_succ (c : Dev nD) (n : ℕ) (hn : n < cfg1.N) :
    Phi1 V c (n + 1) hn = iprop((∃ f : Buf (Elt F) ((c : Thread nD τ).loc cc0_stg0_0), ((c : Thread nD τ).loc cc0_stg0_0) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg2_0), ((c : Thread nD τ).loc cc0_stg2_0) ↦{fullShare} f)
      ∗ owns (c : Thread nD τ) scM1 fullShare (acc1 V c n hn)
      ∗ (∃ r, prngReg c r)) := rfl

/-- Before a point that is not the first: the carried scratch at what the point before left. -/
theorem Phi1_pos (c : Dev nD) (n : ℕ) (h : n ≤ cfg1.N) (hz : n ≠ 0) :
    Phi1 V c n h = iprop((∃ f : Buf (Elt F) ((c : Thread nD τ).loc cc0_stg0_0), ((c : Thread nD τ).loc cc0_stg0_0) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg2_0), ((c : Thread nD τ).loc cc0_stg2_0) ↦{fullShare} f)
      ∗ owns (c : Thread nD τ) scM1 fullShare (acc1 V c (n - 1) (by omega))
      ∗ (∃ r, prngReg c r)) := by
  cases n with
  | zero => exact absurd rfl hz
  | succ n => rfl

/-- What the region is handed, with the scratch as a memref owned at some contents. -/
theorem PhiA1_eq (c : Dev nD) :
    (Pipeline.ΦA spec1 c : sProp 𝕄)
      = iprop(((∃ f : Buf (Elt F) ((c : Thread nD τ).loc cc0_stg0_0), ((c : Thread nD τ).loc cc0_stg0_0) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg2_0), ((c : Thread nD τ).loc cc0_stg2_0) ↦{fullShare} f)
      ∗ (∃ d, owns (c : Thread nD τ) scM1 fullShare d)) ∗ (∃ r, prngReg c r)) := by
  unfold Pipeline.ΦA; rw [scopedRest1_eq]; simp only [scM1, owns_whole]; try rfl

/-- What the region is handed is the invariant before the first point. -/
theorem hin1 (c : Dev nD) : Pipeline.ΦA spec1 c ⊢ (dat1 V c).Φ 0 := by
  rw [show (dat1 V c).Φ 0 = Phi1 V c 0 (Nat.zero_le _) from rfl, Phi1_zero V c 0 _ rfl]
  try exact Idealize.SL.BI.Entails.refl _

/-- After any point but the first the invariant gives back what the region was handed: the scratch's named contents are forgotten. -/
theorem Phi1_out (c : Dev nD) (t : Fin (cfg1.N + 1)) (ht : t.val ≠ 0) : (dat1 V c).Φ t ⊢ Pipeline.ΦA spec1 c := by
  rw [show (dat1 V c).Φ t = Phi1 V c t.val (Nat.le_of_lt_succ t.isLt) from rfl, Phi1_pos V c _ _ ht, PhiA1_eq]
  iintro ⟨H0, H1, H2, HS, Hg⟩
  isplitr [Hg]
  · isplitl [H0]; · iexact H0
    isplitl [H1]; · iexact H1
    isplitl [H2]; · iexact H2
    iexists _; iexact HS
  iexact Hg

/-- After the last point the invariant gives it back: the scratch's named contents are forgotten. -/
theorem hout1 (c : Dev nD) : (dat1 V c).Φ (Fin.last cfg1.N) ⊢ Pipeline.ΦA spec1 c :=
  Phi1_out V c _ (by rw [Fin.val_last]; have : cfg1.N = 128 := N_1; omega)

/-! ## What the body finds in each input window's buffer: its block, fetched there or not -/

theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl) (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl) (fun t => by rw [after1_4]; unfold Dat.blockOf iblk1; rw [A_eq1]; try rfl) t d).trans
    (by unfold Dat.fetched Dat.blockOf iblk1; rw [A_eq1]; try rfl)
theorem before1_5 (c : Dev nD) (t : Fin cfg1.N) (d) : (dat1 V c).before 5 t d = iblk1 V c 5 t :=
  ((dat1 V c).before_in_eq_fetched 5 rfl (fun _ => rfl) (fun _ _ _ => rfl) (fun t => by rw [after1_5]; unfold Dat.blockOf iblk1; rw [A_eq1]; try rfl) t d).trans
    (by unfold Dat.fetched Dat.blockOf iblk1; rw [A_eq1]; try rfl)

/-! ## The grid: which step a point is at -/

/-- The condition of the body's first branch (the reset), from the grid coordinates. -/
abbrev cond1_0 (i : grid1.Coords) : Prop := (Scalar.cmpi .ne (Scalar.extui (Scalar.cmpi .eq (BitVec.ofNat 32 (i 1).val) 0#32)) 0#32) = 1#1
/-- It holds at step 0. -/
theorem hcond1_0 : ∀ t : Fin cfg1.N, cond1_0 (grid1.coords t) ↔ t.val % 8 = 0 :=
  (by decide +kernel : ∀ t : Fin grid1.N, cond1_0 (grid1.coords t) ↔ t.val % 8 = 0)
/-- The condition of the body's second branch (the projection). -/
abbrev cond1_1 (i : grid1.Coords) : Prop := k1_cond2 i = 1#1
/-- It holds at step 7. -/
theorem hcond1_1 : ∀ t : Fin cfg1.N, cond1_1 (grid1.coords t) ↔ t.val % 8 = 7 :=
  (by decide +kernel : ∀ t : Fin grid1.N, cond1_1 (grid1.coords t) ↔ t.val % 8 = 7)

/-- The inputs are never idle. -/
theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
theorem liveAt1_3 : ∀ t : Fin cfg1.N, cfg1.idle 3 (grid1.coords t) = false := fun _ => rfl
theorem liveAt1_4 : ∀ t : Fin cfg1.N, cfg1.idle 4 (grid1.coords t) = false := fun _ => rfl
theorem liveAt1_5 : ∀ t : Fin cfg1.N, cfg1.idle 5 (grid1.coords t) = false := fun _ => rfl
/-- The output window is idle away from step 7 and live at it. -/
theorem idleAt1_6 : ∀ t : Fin cfg1.N, ¬cond1_1 (grid1.coords t) → cfg1.idle 6 (grid1.coords t) = true := by decide +kernel
theorem liveAt1_6 : ∀ t : Fin cfg1.N, cond1_1 (grid1.coords t) → cfg1.idle 6 (grid1.coords t) = false := by decide +kernel
/-- Away from step 7 its block is not written back. -/
theorem noFlush1_6 : ∀ t : Fin cfg1.N, ¬cond1_1 (grid1.coords t) → (cfg1.win 6).flush t = false := by decide +kernel

/-! ## The body's triple, step by step

The body is run once per kind of step. At every step it loads the row block and the step's rows, loads the scratch,
and stores the scratch back with the step's sums added; at step 0 it first stores zero over the scratch, so that
the load reads zero back; at step 7 it then loads the scratch again, which reads what was just stored, and stores
the projection over the output block. Every access is through the whole buffer. -/

theorem hzero1 : (![0, 0] : Fin 2 → Nat) = fun _ => 0 := by
  funext a; match a with | ⟨0, _⟩ => rfl | ⟨1, _⟩ => rfl

set_option maxHeartbeats 1000000 in
/-- At a step 0: the scratch, whatever it held, ends at the step's sums added to zero. -/
theorem sound_kernel1_A (c : Dev nD) (E : Set ℕ) (i : grid1.Coords)
    (arg2 : Memref sig .tc .vmem S64x256 .f32) (harg2 : arg2.IsWhole) (arg3 : Memref sig .tc .vmem S128x256 .f32) (harg3 : arg3.IsWhole)
    (arg4 : Memref sig .tc .vmem S64x16 .f32) (harg4 : arg4.IsWhole) (arg5 : Memref sig .tc .vmem S1x16 .f32) (harg5 : arg5.IsWhole)
    (arg6 : Memref sig .tc .vmem S1x256 .f32) (harg6 : arg6.IsWhole) (arg7 : Memref sig .tc .vmem S1x1 .f32) (harg7 : arg7.IsWhole)
    (arg8 : Memref sig .tc .vmem S64x1 .f32) (harg8 : arg8.IsWhole) (arg9 : Memref sig .tc .vmem S64x256 .f32) (harg9 : arg9.IsWhole)
    (hc0 : cond1_0 i) (hc1 : ¬cond1_1 i)
    (x0 : Vec F S64x256 .f32) (x1 : Vec F S128x256 .f32) (K : PUnit → sProp 𝕄) :
    iprop(owns (c : Thread nD τ) arg2 fullShare x0 ∗ owns (c : Thread nD τ) arg3 fullShare x1 ∗ (∃ d, owns (c : Thread nD τ) arg9 fullShare d)
        ∗ (iprop(owns (c : Thread nD τ) arg2 fullShare x0 ∗ owns (c : Thread nD τ) arg3 fullShare x1
            ∗ owns (c : Thread nD τ) arg9 fullShare (k1_pay2 x0 x1 k1_pay1)) -∗ K ⟨⟩))
      ⊢ wp frame (wpE (defs₀ (F := F)) Variants.none c none) E (cc1__pairwise_kernel i arg2 harg2 arg3 harg3 arg4 harg4 arg5 harg5 arg6 harg6 arg7 harg7 arg8 harg8 arg9 harg9) K := by
  simp only [cc1__pairwise_kernel_eq_skeleton]; unfold cc1__pairwise_kernel_skel
  unfold owns
  iintro ⟨⟨%f0, %hf0, H0⟩, ⟨%f1, %hf1, H1⟩, ⟨%d9, %f9, -, H9⟩, Hk⟩
  subst hf0; subst hf1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  iexists _; isplitr
  swap; · iexact H9
  ipureintro
  sl_unfold_words
  rw [View.read_writes_eq_canon _ _ _ (fun y => ⟨_, List.mem_cons_self, View.mem_set_unit_zero hzero1 inb_S64x256_S64x256_0_0 y⟩), View.canon_cons_unit_zero hzero1]
  simp only [View.readAt_eq_ld, View.ld_unit_zero (S := S64x256) hzero1, View.ld_unit_zero (S := S128x256) hzero1, View.ld_unit_zero (S := S64x16) hzero1, View.ld_unit_zero (S := S1x16) hzero1, View.ld_unit_zero (S := S1x256) hzero1, View.ld_unit_zero (S := S1x1) hzero1, View.readCov_unit_zero (S := S64x256) _ hzero1]

set_option maxHeartbeats 1000000 in
/-- At a step that is neither 0 nor 7: the scratch ends at the step's sums added to what it held. -/
theorem sound_kernel1_B (c : Dev nD) (E : Set ℕ) (i : grid1.Coords)
    (arg2 : Memref sig .tc .vmem S64x256 .f32) (harg2 : arg2.IsWhole) (arg3 : Memref sig .tc .vmem S128x256 .f32) (harg3 : arg3.IsWhole)
    (arg4 : Memref sig .tc .vmem S64x16 .f32) (harg4 : arg4.IsWhole) (arg5 : Memref sig .tc .vmem S1x16 .f32) (harg5 : arg5.IsWhole)
    (arg6 : Memref sig .tc .vmem S1x256 .f32) (harg6 : arg6.IsWhole) (arg7 : Memref sig .tc .vmem S1x1 .f32) (harg7 : arg7.IsWhole)
    (arg8 : Memref sig .tc .vmem S64x1 .f32) (harg8 : arg8.IsWhole) (arg9 : Memref sig .tc .vmem S64x256 .f32) (harg9 : arg9.IsWhole)
    (hc0 : ¬cond1_0 i) (hc1 : ¬cond1_1 i)
    (x0 : Vec F S64x256 .f32) (x1 : Vec F S128x256 .f32) (sIn : Vec F S64x256 .f32) (K : PUnit → sProp 𝕄) :
    iprop(owns (c : Thread nD τ) arg2 fullShare x0 ∗ owns (c : Thread nD τ) arg3 fullShare x1 ∗ owns (c : Thread nD τ) arg9 fullShare sIn
        ∗ (iprop(owns (c : Thread nD τ) arg2 fullShare x0 ∗ owns (c : Thread nD τ) arg3 fullShare x1
            ∗ owns (c : Thread nD τ) arg9 fullShare (k1_pay2 x0 x1 sIn)) -∗ K ⟨⟩))
      ⊢ wp frame (wpE (defs₀ (F := F)) Variants.none c none) E (cc1__pairwise_kernel i arg2 harg2 arg3 harg3 arg4 harg4 arg5 harg5 arg6 harg6 arg7 harg7 arg8 harg8 arg9 harg9) K := by
  simp only [cc1__pairwise_kernel_eq_skeleton]; unfold cc1__pairwise_kernel_skel
  unfold owns
  iintro ⟨⟨%f0, %hf0, H0⟩, ⟨%f1, %hf1, H1⟩, ⟨%f9, %hf9, H9⟩, Hk⟩
  subst hf0; subst hf1; subst hf9
  sl_exec (disch := first | exact hc0 | exact hc1)
  sl_step
  iapply Hk
  isplitl [H0]
  · iexists f0; isplitr; · ipureintro; rfl
    iexact H0
  isplitl [H1]
  · iexists f1; isplitr; · ipureintro; rfl
    iexact H1
  iexists _; isplitr
  swap; · iexact H9
  ipureintro
  sl_unfold_words
  rw [View.read_writes_eq_canon _ _ _ (fun y => ⟨_, List.mem_cons_self, View.mem_set_unit_zero hzero1 inb_S64x256_S64x256_0_0 y⟩), View.canon_cons_unit_zero hzero1]
  simp only [View.readAt_eq_ld, View.ld_unit_zero (S := S64x256) hzero1, View.ld_unit_zero (S := S128x256) hzero1, View.ld_unit_zero (S := S64x16) hzero1, View.ld_unit_zero (S := S1x16) hzero1, View.ld_unit_zero (S := S1x256) hzero1, View.ld_unit_zero (S := S1x1) hzero1, View.readCov_unit_zero (S := S64x256) _ hzero1]

set_option maxHeartbeats 2000000 in
/-- At a step 7: the scratch ends at the step's sums added to what it held, and the output block, whatever it held,
    at the projection of the feature block, the weights, that new scratch and the bias. -/
theorem sound_kernel1_C (c : Dev nD) (E : Set ℕ) (i : grid1.Coords)
    (arg2 : Memref sig .tc .vmem S64x256 .f32) (harg2 : arg2.IsWhole) (arg3 : Memref sig .tc .vmem S128x256 .f32) (harg3 : arg3.IsWhole)
    (arg4 : Memref sig .tc .vmem S64x16 .f32) (harg4 : arg4.IsWhole) (arg5 : Memref sig .tc .vmem S1x16 .f32) (harg5 : arg5.IsWhole)
    (arg6 : Memref sig .tc .vmem S1x256 .f32) (harg6 : arg6.IsWhole) (arg7 : Memref sig .tc .vmem S1x1 .f32) (harg7 : arg7.IsWhole)
    (arg8 : Memref sig .tc .vmem S64x1 .f32) (harg8 : arg8.IsWhole) (arg9 : Memref sig .tc .vmem S64x256 .f32) (harg9 : arg9.IsWhole)
    (hc0 : ¬cond1_0 i) (hc1 : cond1_1 i)
    (x0 : Vec F S64x256 .f32) (x1 : Vec F S128x256 .f32) (x2 : Vec F S64x16 .f32) (x3 : Vec F S1x16 .f32)
    (x4 : Vec F S1x256 .f32) (x5 : Vec F S1x1 .f32) (sIn : Vec F S64x256 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ (∃ d, owns (c : Thread nD τ) arg8 fullShare d) ∗ owns (c : Thread nD τ) arg9 fullShare sIn
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ owns (c : Thread nD τ) arg8 fullShare (k1_pay3 x2 x3 (k1_pay2 x0 x1 sIn) x4 x5)
            ∗ owns (c : Thread nD τ) arg9 fullShare (k1_pay2 x0 x1 sIn)) -∗ K ⟨⟩))
      ⊢ wp frame (wpE (defs₀ (F := F)) Variants.none c none) E (cc1__pairwise_kernel i arg2 harg2 arg3 harg3 arg4 harg4 arg5 harg5 arg6 harg6 arg7 harg7 arg8 harg8 arg9 harg9) K := by
  simp only [cc1__pairwise_kernel_eq_skeleton]; unfold cc1__pairwise_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d8, %f8, -, H8⟩, ⟨%f9, %hf9, H9⟩, Hk⟩
  subst hf0; subst hf1; subst hf2; subst hf3; subst hf4; subst hf5; subst hf9
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H8]
  · iexists _; isplitr
    swap; · iexact H8
    ipureintro
    sl_unfold_words
    rw [View.read_writes_eq_canon _ _ _ (fun y => ⟨_, List.mem_cons_self, View.mem_set_unit_zero hzero1 inb_S64x1_S64x1_0_0 y⟩), View.canon_cons_unit_zero hzero1]
    simp only [View.readAt_eq_ld, View.ld_unit_zero (S := S64x256) hzero1, View.ld_unit_zero (S := S128x256) hzero1, View.ld_unit_zero (S := S64x16) hzero1, View.ld_unit_zero (S := S1x16) hzero1, View.ld_unit_zero (S := S1x256) hzero1, View.ld_unit_zero (S := S1x1) hzero1, View.readCov_unit_zero (S := S64x256) _ hzero1]
  iexists _; isplitr
  swap; · iexact H9
  ipureintro
  sl_unfold_words
  rw [View.read_writes_eq_canon _ _ _ (fun y => ⟨_, List.mem_cons_self, View.mem_set_unit_zero hzero1 inb_S64x256_S64x256_0_0 y⟩), View.canon_cons_unit_zero hzero1]
  simp only [View.readAt_eq_ld, View.ld_unit_zero (S := S64x256) hzero1, View.ld_unit_zero (S := S128x256) hzero1, View.ld_unit_zero (S := S64x16) hzero1, View.ld_unit_zero (S := S1x16) hzero1, View.ld_unit_zero (S := S1x256) hzero1, View.ld_unit_zero (S := S1x1) hzero1, View.readCov_unit_zero (S := S64x256) _ hzero1]

/-! ## The carried scratch at a point, by the kind of step -/

/-- At a step 0 the scratch ends at the step's sums added to zero. -/
theorem acc1_reset (c : Dev nD) (t : Fin cfg1.N) (h0 : t.val % 8 = 0) :
    acc1 V c t.val t.isLt = k1_pay2 (iblk1 V c 0 t) (iblk1 V c 1 t) k1_pay1 := by
  obtain ⟨n, hn⟩ := t
  cases n with
  | zero => rfl
  | succ n =>
    have h0' : (n + 1) % 8 = 0 := h0
    show acc1 V c (n + 1) hn = _
    rw [acc1_succ, if_pos h0']

/-- At any other step it ends at the step's sums added to what the point before left. -/
theorem acc1_step (c : Dev nD) (t : Fin cfg1.N) (h0 : ¬t.val % 8 = 0) :
    acc1 V c t.val t.isLt
      = k1_pay2 (iblk1 V c 0 t) (iblk1 V c 1 t) (acc1 V c (t.val - 1) (Nat.lt_of_le_of_lt (Nat.sub_le _ _) t.isLt)) := by
  obtain ⟨n, hn⟩ := t
  cases n with
  | zero => exact absurd (Nat.zero_mod _) h0
  | succ n =>
    have h0' : ¬(n + 1) % 8 = 0 := h0
    show acc1 V c (n + 1) hn = _
    rw [acc1_succ, if_neg h0']
    rfl

/-! ## The body obligation -/

/-- The invariant at a point's start, restated at the point's number. -/
theorem Phi1_castSucc (c : Dev nD) (t : Fin cfg1.N) :
    (dat1 V c).Φ t.castSucc = Phi1 V c t.val (Nat.le_of_lt t.isLt) := rfl

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t)

set_option maxHeartbeats 4000000 in
/-- The body at any point. Each input's buffer holds its block; the step's kind is read off the point's number; the
    invariant hands the body the scratch (at anything before the first point, else at what the point before left)
    and takes it back at this point's contents; away from step 7 the output's buffer goes back as it came. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).owesAt () t.succ = (dat1 V c).owesAt () t.castSucc from rfl]
  rw [show (dat1 V c).Φ t.succ = Phi1 V c (t.val + 1) t.isLt from rfl, Phi1_succ]
  rw [show (dat1 V c).leavesExact 0 t = owns (c : Thread nD τ) (st1_0 t) fullShare ((dat1 V c).after 0 t) from by
    unfold Dat.leavesExact; rw [liveAt1_0 t], after1_0]
  rw [show (dat1 V c).leavesExact 1 t = owns (c : Thread nD τ) (st1_1 t) fullShare ((dat1 V c).after 1 t) from by
    unfold Dat.leavesExact; rw [liveAt1_1 t], after1_1]
  rw [show (dat1 V c).leavesExact 2 t = owns (c : Thread nD τ) (st1_2 t) fullShare ((dat1 V c).after 2 t) from by
    unfold Dat.leavesExact; rw [liveAt1_2 t], after1_2]
  rw [show (dat1 V c).leavesExact 3 t = owns (c : Thread nD τ) (st1_3 t) fullShare ((dat1 V c).after 3 t) from by
    unfold Dat.leavesExact; rw [liveAt1_3 t], after1_3]
  rw [show (dat1 V c).leavesExact 4 t = owns (c : Thread nD τ) (st1_4 t) fullShare ((dat1 V c).after 4 t) from by
    unfold Dat.leavesExact; rw [liveAt1_4 t], after1_4]
  rw [show (dat1 V c).leavesExact 5 t = owns (c : Thread nD τ) (st1_5 t) fullShare ((dat1 V c).after 5 t) from by
    unfold Dat.leavesExact; rw [liveAt1_5 t], after1_5]
  have hN : t.val < 128 := lt_of_lt_of_eq t.isLt (show cfg1.N = 128 from N_1)
  by_cases h0 : t.val % 8 = 0
  · have h1 : ¬t.val % 8 = 7 := by omega
    rw [Dat.leavesExact_idle (dat1 V c) 6 t (idleAt1_6 t (fun h => h1 ((hcond1_1 t).mp h))) (noFlush1_6 t (fun h => h1 ((hcond1_1 t).mp h)))]
    rw [acc1_reset V c t h0]
    by_cases hz : t.val = 0
    · rw [Phi1_castSucc V c t, Phi1_zero V c _ _ hz, PhiA1_eq]
      iintro ⟨⟨⟨Hs0, Hs1, Hs2, HS⟩, Hg⟩, Ho, ⟨%d0, H0⟩, ⟨%d1, H1⟩, ⟨%d2, H2⟩, ⟨%d3, H3⟩, ⟨%d4, H4⟩, ⟨%d5, H5⟩, ⟨%d6, H6⟩⟩
      iapply (sound_kernel1_A c Set.univ (grid1.coords t) _ _ _ _ _ _ _ _ _ _ _ _ _ _ _ _ ((hcond1_0 t).mpr h0) (fun h => h1 ((hcond1_1 t).mp h)) (iblk1 V c 0 t) (iblk1 V c 1 t) _)
      isplitl [H0]; · iexact H0
      isplitl [H1]; · iexact H1
      isplitl [HS]; · iexact HS
      iintro ⟨H0, H1, HS⟩
      isplitl [Hs0 Hs1 Hs2 HS Hg]
      · isplitl [Hs0]; · iexact Hs0
        isplitl [Hs1]; · iexact Hs1
        isplitl [Hs2]; · iexact Hs2
        isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists d6; iexact H6
    · rw [Phi1_castSucc V c t, Phi1_pos V c _ _ hz]
      iintro ⟨⟨Hs0, Hs1, Hs2, HS, Hg⟩, Ho, ⟨%d0, H0⟩, ⟨%d1, H1⟩, ⟨%d2, H2⟩, ⟨%d3, H3⟩, ⟨%d4, H4⟩, ⟨%d5, H5⟩, ⟨%d6, H6⟩⟩
      iapply (sound_kernel1_A c Set.univ (grid1.coords t) _ _ _ _ _ _ _ _ _ _ _ _ _ _ _ _ ((hcond1_0 t).mpr h0) (fun h => h1 ((hcond1_1 t).mp h)) (iblk1 V c 0 t) (iblk1 V c 1 t) _)
      isplitl [H0]; · iexact H0
      isplitl [H1]; · iexact H1
      isplitl [HS]; · iexists _; iexact HS
      iintro ⟨H0, H1, HS⟩
      isplitl [Hs0 Hs1 Hs2 HS Hg]
      · isplitl [Hs0]; · iexact Hs0
        isplitl [Hs1]; · iexact Hs1
        isplitl [Hs2]; · iexact Hs2
        isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists d6; iexact H6
  · have hz : t.val ≠ 0 := fun e => h0 (by rw [e])
    rw [acc1_step V c t h0]
    rw [Phi1_castSucc V c t, Phi1_pos V c _ _ hz]
    by_cases h1 : t.val % 8 = 7
    · rw [show (dat1 V c).leavesExact 6 t = owns (c : Thread nD τ) (st1_6 t) fullShare ((dat1 V c).after 6 t) from by
        unfold Dat.leavesExact; rw [liveAt1_6 t ((hcond1_1 t).mpr h1)], after1_6, acc1_step V c t h0]
      iintro ⟨⟨Hs0, Hs1, Hs2, HS, Hg⟩, Ho, ⟨%d0, H0⟩, ⟨%d1, H1⟩, ⟨%d2, H2⟩, ⟨%d3, H3⟩, ⟨%d4, H4⟩, ⟨%d5, H5⟩, ⟨%d6, H6⟩⟩
      iapply (sound_kernel1_C c Set.univ (grid1.coords t) _ _ _ _ _ _ _ _ _ _ _ _ _ _ _ _ (fun h => h0 ((hcond1_0 t).mp h)) ((hcond1_1 t).mpr h1)
        (iblk1 V c 0 t) (iblk1 V c 1 t) (iblk1 V c 2 t) (iblk1 V c 3 t) (iblk1 V c 4 t) (iblk1 V c 5 t)
        (acc1 V c (t.val - 1) (Nat.lt_of_le_of_lt (Nat.sub_le _ _) t.isLt)) _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS]; · iexact HS
      iintro ⟨H0, H1, H2, H3, H4, H5, H6, HS⟩
      isplitl [Hs0 Hs1 Hs2 HS Hg]
      · isplitl [Hs0]; · iexact Hs0
        isplitl [Hs1]; · iexact Hs1
        isplitl [Hs2]; · iexact Hs2
        isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · rw [Dat.leavesExact_idle (dat1 V c) 6 t (idleAt1_6 t (fun h => h1 ((hcond1_1 t).mp h))) (noFlush1_6 t (fun h => h1 ((hcond1_1 t).mp h)))]
      iintro ⟨⟨Hs0, Hs1, Hs2, HS, Hg⟩, Ho, ⟨%d0, H0⟩, ⟨%d1, H1⟩, ⟨%d2, H2⟩, ⟨%d3, H3⟩, ⟨%d4, H4⟩, ⟨%d5, H5⟩, ⟨%d6, H6⟩⟩
      iapply (sound_kernel1_B c Set.univ (grid1.coords t) _ _ _ _ _ _ _ _ _ _ _ _ _ _ _ _ (fun h => h0 ((hcond1_0 t).mp h)) (fun h => h1 ((hcond1_1 t).mp h))
        (iblk1 V c 0 t) (iblk1 V c 1 t) (acc1 V c (t.val - 1) (Nat.lt_of_le_of_lt (Nat.sub_le _ _) t.isLt)) _)
      isplitl [H0]; · iexact H0
      isplitl [H1]; · iexact H1
      isplitl [HS]; · iexact HS
      iintro ⟨H0, H1, HS⟩
      isplitl [Hs0 Hs1 Hs2 HS Hg]
      · isplitl [Hs0]; · iexact Hs0
        isplitl [Hs1]; · iexact Hs1
        isplitl [Hs2]; · iexact Hs2
        isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists d6; iexact H6

/-- The region's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.RunDefs.lean ====
/-
  The core's buffer contents at each boundary of the program, from the launch memory `m`:
  at launch (`W0`); after the first region, which writes the product array (`W1`); after the host operations that
  slice and reshape the weights and the bias (`W2`); after the second region, which writes the result (`W3`).
  A region changes only its output array; the host operations write only their own results. So every argument
  array is at its launch contents throughout, and the result array ends at what the second region's write-backs
  leave in it.
-/
import proofs.«139806_j56934086476615_1_alg».proof.Proof.Region0
import proofs.«139806_j56934086476615_1_alg».proof.Proof.Region1
import proofs.«139806_j56934086476615_1_alg».proof.Proof.Gen.KernelIdeal.Regions
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Core `c`'s buffers at launch. -/
abbrev W0 (c : Dev nD) : Valuation τ sig (Elt F) := fun b => m (c, b)
/-- The same read at the core's references. -/
abbrev V0 : (c : Dev nD) → (b : Ref sig .tc) → Buf (Elt F) ((c : Thread nD τ).loc b) := fun c b => W0 m c b

/-- After the first region: the product array at what the region's write-back leaves, every other buffer as launched. -/
def W1 (c : Dev nD) : Valuation τ sig (Elt F) :=
  Function.update (W0 m c) main_v0 ((dat0 (V0 m) c).arrAt 2 cfg0.N)
abbrev V1 : (c : Dev nD) → (b : Ref sig .tc) → Buf (Elt F) ((c : Thread nD τ).loc b) := fun c b => W1 m c b

/-- After the host operations. -/
abbrev W2 (c : Dev nD) : Valuation τ sig (Elt F) := StableHlo.after hostOps1 (W1 m c)
abbrev V2 : (c : Dev nD) → (b : Ref sig .tc) → Buf (Elt F) ((c : Thread nD τ).loc b) := fun c b => W2 m c b

/-- After the second region: the result array at what the region's write-backs leave, every other buffer as entered. -/
def W3 (c : Dev nD) : Valuation τ sig (Elt F) :=
  Function.update (W2 m c) main_v6 ((dat1 (V2 m) c).arrAt 6 cfg1.N)
abbrev V3 : (c : Dev nD) → (b : Ref sig .tc) → Buf (Elt F) ((c : Thread nD τ).loc b) := fun c b => W3 m c b

/-! ## What each item leaves unchanged -/

theorem W1_main_v0 (c : Dev nD) : W1 m c main_v0 = (dat0 (V0 m) c).arrAt 2 cfg0.N := by
  unfold W1; exact Function.update_self ..

theorem W1_of_ne (c : Dev nD) (r : Ref sig .tc) (h : r ≠ main_v0) : W1 m c r = W0 m c r := by
  unfold W1
  exact Function.update_of_ne (StableHlo.devRef_ne_of_ne h : (Proc.devRef .tc r : DevRef τ sig) ≠ Proc.devRef .tc main_v0) ..

theorem W2_of (c : Dev nD) (r : Ref sig .tc) (h : r ∉ hostOps1_W) : W2 m c r = W1 m c r :=
  StableHlo.after_of_writes_sub hostOps1 _ hostOps1_writes h

theorem W3_main_v6 (c : Dev nD) : W3 m c main_v6 = (dat1 (V2 m) c).arrAt 6 cfg1.N := by
  unfold W3; exact Function.update_self ..

theorem W3_of_ne (c : Dev nD) (r : Ref sig .tc) (h : r ≠ main_v6) : W3 m c r = W2 m c r := by
  unfold W3
  exact Function.update_of_ne (StableHlo.devRef_ne_of_ne h : (Proc.devRef .tc r : DevRef τ sig) ≠ Proc.devRef .tc main_v6) ..

/-! ## The arguments are never written -/

theorem W2_main_arg0 (c : Dev nD) : W2 m c main_arg0 = m ((c : Thread nD τ).loc main_arg0) :=
  (W2_of m c main_arg0 (by decide)).trans ((W1_of_ne m c main_arg0 (by decide)).trans rfl)
theorem W2_main_arg1 (c : Dev nD) : W2 m c main_arg1 = m ((c : Thread nD τ).loc main_arg1) :=
  (W2_of m c main_arg1 (by decide)).trans ((W1_of_ne m c main_arg1 (by decide)).trans rfl)
theorem W2_main_arg2 (c : Dev nD) : W2 m c main_arg2 = m ((c : Thread nD τ).loc main_arg2) :=
  (W2_of m c main_arg2 (by decide)).trans ((W1_of_ne m c main_arg2 (by decide)).trans rfl)
theorem W2_main_arg3 (c : Dev nD) : W2 m c main_arg3 = m ((c : Thread nD τ).loc main_arg3) :=
  (W2_of m c main_arg3 (by decide)).trans ((W1_of_ne m c main_arg3 (by decide)).trans rfl)

theorem W3_main_arg0 (c : Dev nD) : W3 m c main_arg0 = m ((c : Thread nD τ).loc main_arg0) :=
  (W3_of_ne m c main_arg0 (by decide)).trans (W2_main_arg0 m c)
theorem W3_main_arg1 (c : Dev nD) : W3 m c main_arg1 = m ((c : Thread nD τ).loc main_arg1) :=
  (W3_of_ne m c main_arg1 (by decide)).trans (W2_main_arg1 m c)
theorem W3_main_arg2 (c : Dev nD) : W3 m c main_arg2 = m ((c : Thread nD τ).loc main_arg2) :=
  (W3_of_ne m c main_arg2 (by decide)).trans (W2_main_arg2 m c)
theorem W3_main_arg3 (c : Dev nD) : W3 m c main_arg3 = m ((c : Thread nD τ).loc main_arg3) :=
  (W3_of_ne m c main_arg3 (by decide)).trans (W2_main_arg3 m c)

/-- The product array reaches the second region as the first left it: no host operation writes it. -/
theorem W2_main_v0 (c : Dev nD) : W2 m c main_v0 = (dat0 (V0 m) c).arrAt 2 cfg0.N :=
  (W2_of m c main_v0 (by decide)).trans (W1_main_v0 m c)

/-- An unscoped reference of the core is among those the run tracks. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

end Cert.KernelIdeal.Hand

end
-- ==== Proof.Shared1.lean ====
/-
  The second region's arrays, taken out of the core's buffers and put back.

  The region's seven windows stand on six buffers: the two windows that read the product array share it. Held whole
  at the full share, the six buffers are the seven windows' arrays at the region's entry contents once the product
  array's share is split in its two halves, one per window on it. At the exit the two halves hold the same contents —
  neither window writes, so each still holds what the region found — and join again to the full share; the output
  array holds what the write-backs left, every other buffer what the region found.
-/
import proofs.«139806_j56934086476615_1_alg».proof.Proof.Region1
import Idealize.ShloMosaic.Lib.Pipeline.Launch
import Idealize.ShloMosaic.Lib.Pipeline.Kit

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The six buffers, and the seven windows' arrays one by one -/

/-- The buffers behind the seven windows' arrays are six: the two windows on the product array share theirs. -/
theorem arrImage1 : Finset.univ.image (Pipeline.arrRef spec1)
    = [main_v0, main_arg0, main_v2, main_v4, main_v5, main_v6].toFinset := by decide

/-- The six buffers whole at the full share at a valuation `G`, one by one. -/
theorem arrBufs1_chain (c : Dev nD) (G : (b : Ref sig .tc) → Buf (Elt F) ((c : Thread nD τ).loc b)) :
    (Pipeline.arrBufs (Ix := Unit) (Name := ℕ) (U := UR sig nD τ) (Lvl := ℕ) spec1 c G : sProp 𝕄)
      = iprop((((c : Thread nD τ).loc main_v0) ↦{fullShare} G main_v0)
          ∗ (((c : Thread nD τ).loc main_arg0) ↦{fullShare} G main_arg0)
          ∗ (((c : Thread nD τ).loc main_v2) ↦{fullShare} G main_v2)
          ∗ (((c : Thread nD τ).loc main_v4) ↦{fullShare} G main_v4)
          ∗ (((c : Thread nD τ).loc main_v5) ↦{fullShare} G main_v5)
          ∗ (((c : Thread nD τ).loc main_v6) ↦{fullShare} G main_v6)) := by
  unfold Pipeline.arrBufs
  exact bigSep_eq_bigSepL_of_eq [main_v0, main_arg0, main_v2, main_v4, main_v5, main_v6] arrImage1 (by decide) _

/-- The seven windows' arrays, at contents read off a valuation `G` of the buffers, one by one: each array is a whole
    buffer; the two windows on the product array hold it at the two halves of the full share, the others hold theirs
    at the full share. -/
theorem arrays1_chain (c : Dev nD) (G : (b : Ref sig .tc) → Buf (Elt F) ((c : Thread nD τ).loc b))
    (Fw : (w : Fin cfg1.W) → Buf (Elt F) ((cfg1.win w).arr.view.loc (c : Thread nD τ)))
    (hF : ∀ w, Fw w = G (Pipeline.arrRef spec1 w)) :
    ((dat1 V c).arrays Fw : sProp 𝕄)
      = iprop((((c : Thread nD τ).loc main_v0) ↦{fullShare.left} G main_v0)
          ∗ (((c : Thread nD τ).loc main_v0) ↦{fullShare.right} G main_v0)
          ∗ (((c : Thread nD τ).loc main_arg0) ↦{fullShare} G main_arg0)
          ∗ (((c : Thread nD τ).loc main_v2) ↦{fullShare} G main_v2)
          ∗ (((c : Thread nD τ).loc main_v4) ↦{fullShare} G main_v4)
          ∗ (((c : Thread nD τ).loc main_v5) ↦{fullShare} G main_v5)
          ∗ (((c : Thread nD τ).loc main_v6) ↦{fullShare} G main_v6)) := by
  unfold Dat.arrays
  rw [bigSep_W1, hF 0, hF 1, hF 2, hF 3, hF 4, hF 5, hF 6, share1_0, share1_1,
    share1_rest V c 2 (by decide) (by decide), share1_rest V c 3 (by decide) (by decide),
    share1_rest V c 4 (by decide) (by decide), share1_rest V c 5 (by decide) (by decide),
    share1_rest V c 6 (by decide) (by decide),
    (arr_whole1 0).set_eq_univ, (arr_whole1 2).set_eq_univ, (arr_whole1 3).set_eq_univ,
    (arr_whole1 4).set_eq_univ, (arr_whole1 5).set_eq_univ, (arr_whole1 6).set_eq_univ]

/-- The seven windows' arrays at contents read off `G` are the six buffers whole at the full share at `G`: the product
    array's two halves are its full share. -/
theorem arrays1_iff (c : Dev nD) (G : (b : Ref sig .tc) → Buf (Elt F) ((c : Thread nD τ).loc b))
    (Fw : (w : Fin cfg1.W) → Buf (Elt F) ((cfg1.win w).arr.view.loc (c : Thread nD τ)))
    (hF : ∀ w, Fw w = G (Pipeline.arrRef spec1 w)) :
    ((dat1 V c).arrays Fw : sProp 𝕄)
      ⊣⊢ (Pipeline.arrBufs (Ix := Unit) (Name := ℕ) (U := UR sig nD τ) (Lvl := ℕ) spec1 c G : sProp 𝕄) := by
  rw [arrays1_chain V c G Fw hF, arrBufs1_chain c G]
  exact ⟨sep_assoc.2.trans (sep_mono_left (pointsTo_share (PosShare.mem_left_op_right fullShare)).2),
    (sep_mono_left (pointsTo_share (PosShare.mem_left_op_right fullShare)).1).trans sep_assoc.1⟩

/-- ENTRY: the six buffers behind the windows' arrays, each whole at the full share at `V`, are the seven windows'
    arrays at the region's entry contents, the product array's share split between its two windows. -/
theorem arrays1_of_arrBufs (c : Dev nD) :
    (Pipeline.arrBufs (Ix := Unit) (Name := ℕ) (U := UR sig nD τ) (Lvl := ℕ) spec1 c (V c) : sProp 𝕄)
      ⊢ (dat1 V c).arrays ((dat1 V c).arrAt · 0) := by
  -- before any write-back a window's array is as the region finds it
  exact (arrays1_iff V c (V c) ((dat1 V c).arrAt · 0) (fun w => A_eq1 V c w)).2

/-- EXIT: the seven windows' arrays at their final contents are the six buffers whole at the full share at any
    valuation `V'` that has the result array at what the write-backs left and agrees with `V` elsewhere. -/
theorem arrBufs_of_arrays1 (c : Dev nD) (V' : (b : Ref sig .tc) → Buf (Elt F) ((c : Thread nD τ).loc b))
    (h6 : V' main_v6 = (dat1 V c).arrAt 6 cfg1.N) (hrest : ∀ b : Ref sig .tc, b ≠ main_v6 → V' b = V c b) :
    (dat1 V c).arrays ((dat1 V c).arrAt · cfg1.N)
      ⊢ (Pipeline.arrBufs (Ix := Unit) (Name := ℕ) (U := UR sig nD τ) (Lvl := ℕ) spec1 c V' : sProp 𝕄) := by
  -- an input's array is never written, and its buffer is not the result's: `V'` has there what the region found
  have hin : ∀ w : Fin cfg1.W, (cfg1.win w).isOut = false → Pipeline.arrRef spec1 w ≠ main_v6 →
      (dat1 V c).arrAt w cfg1.N = V' (Pipeline.arrRef spec1 w) := fun w hw hne => by
    rw [Pipeline.Dat.arrAt_in (dat1 V c) w hw, A_eq1, hrest _ hne]
  refine (arrays1_iff V c V' ((dat1 V c).arrAt · cfg1.N) fun w => ?_).1
  match w with
  | ⟨0, _⟩ => exact hin 0 rfl (by decide)
  | ⟨1, _⟩ => exact hin 1 rfl (by decide)
  | ⟨2, _⟩ => exact hin 2 rfl (by decide)
  | ⟨3, _⟩ => exact hin 3 rfl (by decide)
  | ⟨4, _⟩ => exact hin 4 rfl (by decide)
  | ⟨5, _⟩ => exact hin 5 rfl (by decide)
  | ⟨6, _⟩ => exact h6.symm

end Cert.KernelIdeal.Hand

end
-- ==== Proof.Run.lean ====
/-
  The program's run: the first region, the host operations, the second region, launched from memory `m`.

  Between two items the core holds every unscoped buffer at the boundary's contents (`W0` … `W3`), the generator
  register at some state, and owes nothing. A region takes its windows' arrays out of the unscoped buffers at
  entry and puts them back at exit with its output array at what its write-backs left. The second region reads
  the product array through two windows: the array's full share is split in two halves at entry, one per window,
  and joined again at exit, both halves holding the same contents since neither window writes.
  Every weakly fair execution terminates, and the final memory holds every unscoped buffer at `W3`.
-/
import proofs.«139806_j56934086476615_1_alg».proof.Proof.RunDefs
import proofs.«139806_j56934086476615_1_alg».proof.Proof.Shared1
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The first region's exit contents -/

/-- After the first region each of its arrays holds what the valuation after it says: the two inputs are as entered,
    the product array is what the write-back left. -/
theorem hF0 (c : Dev nD) : ∀ w : Fin cfg0.W, (dat0 (V0 m) c).arrAt w cfg0.N = V1 m c (Pipeline.arrRef spec0 w)
  | ⟨0, _⟩ => (((dat0 (V0 m) c).arrAt_in 0 rfl _).trans (A_eq0 (V0 m) c 0)).trans (W1_of_ne m c _ (by decide)).symm
  | ⟨1, _⟩ => (((dat0 (V0 m) c).arrAt_in 1 rfl _).trans (A_eq0 (V0 m) c 1)).trans (W1_of_ne m c _ (by decide)).symm
  | ⟨2, _⟩ => (W1_main_v0 m c).symm

/-- Every buffer that is none of the first region's arrays is as entered. -/
theorem hrest0 (c : Dev nD) : ∀ b, b ∉ Finset.univ.image (Pipeline.arrRef spec0) → V1 m c b = V0 m c b :=
  fun b hb => W1_of_ne m c b fun e => hb (Finset.mem_image.mpr ⟨2, Finset.mem_univ _, e.symm⟩)

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V0 m) c
  | ⟨1, _⟩ => fun c => dat1 (V2 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and that it owes
    nothing. -/
abbrev R (c : Dev nD) : sProp 𝕄 := iprop((∃ r, prngReg c r) ∗ ∃ W, owes (c : Thread nD τ) (0 : CellTallies nD τ sig Unit) W)
/-- A stretch of host operations as an item of the run, over the unscoped references from the contents W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- The last thread state without what is owed: every unscoped buffer at the last boundary's contents, the generator
    register at some state. -/
abbrev Tₙ (c : Dev nD) : sProp 𝕄 := iprop(StableHlo.held (c : Thread nD τ) (Pipeline.ucRefs τ sig) (W3 m c) ∗ ∃ r, prngReg c r)

/-! ## The second region's arrays among the core's unscoped buffers -/

/-- Every buffer that is none of the second region's arrays is as entered: the region's unscoped rest at the contents
    it found is the same at the contents after it. -/
theorem unscopedRest1_exit (c : Dev nD) :
    (Pipeline.unscopedRest (Ix := Unit) (Name := ℕ) (U := UR sig nD τ) (Lvl := ℕ) spec1 c (V2 m c) : sProp 𝕄)
      = Pipeline.unscopedRest spec1 c (V3 m c) := by
  unfold Pipeline.unscopedRest
  exact bigSep_congr fun b hb => by
    rw [show V3 m c b = V2 m c b from W3_of_ne m c b fun e =>
      (Finset.mem_sdiff.mp hb).2 (Finset.mem_image.mpr ⟨6, Finset.mem_univ _, e.symm⟩)]

/-- A core's unscoped buffers at a valuation are the buffers behind the second region's windows and the rest. -/
theorem unscopedBufs_split1 (c : Dev nD) (W : Valuation τ sig (Elt F)) :
    (StableHlo.held (c : Thread nD τ) (Pipeline.ucRefs τ sig) W : sProp 𝕄)
      = iprop(Pipeline.arrBufs spec1 c (fun b => W b) ∗ Pipeline.unscopedRest spec1 c (fun b => W b)) := by
  rw [← Pipeline.unscopedBufs_held (Ix := Unit) (Name := ℕ) (U := UR sig nD τ) (Lvl := ℕ) c W]
  exact Pipeline.unscopedBufs_split₀ cfgs 1 winFacts₀1.arr_unscoped c (fun b => W b)

/-- ENTRY of the second region, the arrays' part: a core's unscoped buffers at the contents the host operations left
    are the region's arrays at its entry contents and the unscoped rest. -/
theorem entry1 (c : Dev nD) :
    (StableHlo.held (c : Thread nD τ) (Pipeline.ucRefs τ sig) (W2 m c) : sProp 𝕄)
      ⊢ iprop((dat1 (V2 m) c).arrays ((dat1 (V2 m) c).arrAt · 0) ∗ Pipeline.unscopedRest spec1 c (V2 m c)) := by
  rw [unscopedBufs_split1 c (W2 m c)]
  exact sep_mono (arrays1_of_arrBufs (V2 m) c) .rfl

/-- EXIT of the second region, the arrays' part: the region's arrays at their final contents and the unscoped rest as
    entered are the core's unscoped buffers at the contents after the region. -/
theorem exit1 (c : Dev nD) :
    iprop((dat1 (V2 m) c).arrays ((dat1 (V2 m) c).arrAt · cfg1.N) ∗ Pipeline.unscopedRest spec1 c (V2 m c))
      ⊢ (StableHlo.held (c : Thread nD τ) (Pipeline.ucRefs τ sig) (W3 m c) : sProp 𝕄) := by
  rw [unscopedBufs_split1 c (W3 m c), unscopedRest1_exit m c]
  exact sep_mono (arrBufs_of_arrays1 (V2 m) c (V3 m c) (W3_main_v6 m c) (fun b hb => W3_of_ne m c b hb)) .rfl

/-! ## The regions as items of the run -/

set_option backward.isDefEq.respectTransparency.types false in
/-- The first region: entered from every unscoped buffer at the launch contents, left with the product array at what
    its write-back left. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0 m c) (V1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region: entered from every unscoped buffer at the contents the host operations left, left with the
    result array at what its write-backs left. The product array's full share is split between the two windows that
    read it at entry, and joined again at exit. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (V2 m) c).loose
  hwaits := Pipeline.hwaits_of_owed_zero _ _ _ _ L lv 1 fun c t => owed1 (V2 m) c t
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    iintro ⟨⟨Hub, Hp, HO⟩, -, -⟩
    ihave H := (entry1 m c) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin1 (V2 m) c); unfold Pipeline.ΦA
    iintro ⟨Hp, -, Hr⟩
    isplitl [Hr]; · iexact Hr
    iexact Hp
  hout c := by
    rw [Pipeline.ownSems0_none]
    refine (hout1 (V2 m) c).trans ?_; unfold Pipeline.ΦA
    iintro ⟨Hr, Hp⟩
    isplitl [Hp]; · iexact Hp
    isplitr; · iempintro
    iexact Hr
  hexit c := by
    iintro ⟨Ha, HO, HY, Hrest⟩
    imodintro
    isplitl [Ha Hrest HY]
    · isplitl [Ha Hrest]
      · iapply (exit1 m c)
        isplitl [Ha]; · iexact Ha
        iexact Hrest
      iexact HY
    unfold Pipeline.Dat.owesAt Pipeline.owesWithin
    icases HO with ⟨%W, -, HO⟩; iexists W; iexact HO

/-! ## The program as items, and the launch -/

/-- The program's three items in order. -/
abbrev segs : List (Pipeline.Seg (pcfgs (F := F)) adm (pdats m) () defs₀ 𝒱₀ L lv) :=
  [ .region (reg0 m),
    .host (hseg hostOps1 hostOps1_sub hostOps1_fresh (W1 m)),
    .region (reg1 m) ]
/-- The program is the run of its items. -/
theorem main_run (c : Dev nD) : main (F := F) c = Pipeline.Seg.run (segs m) := (main_chain c).trans (by chain_rfl)

set_option backward.isDefEq.respectTransparency.types false in
/-- Every weakly fair execution of the program from m with zero counters terminates, nothing faulting, and the final
    memory holds every unscoped buffer of every core at the last boundary's contents. -/
theorem run_all : θ_run defs (onTc (τ := τ) (main (F := F))) ⟨m, fun _ => 0, ρ⟩ (fun r => ∀ c : Dev nD,
      ∀ b ∈ Pipeline.ucRefs τ sig, r.2.mem ((c : Thread nD τ).1, b) = W3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c => h c)

end Cert.KernelIdeal.Hand

end
-- ==== Proof.Spec.lean ====
/-
  The function both programs compute, index by index on the extended reals.

  With `Ms i d = ∑ k, x[i,k] · T[k,d]` (the product `x @ T`), the pairwise term
  `pair i j d = exp (-|Ms i d - Ms j d|)` and its sum over the second row index `outT i d = ∑ j, pair i j d`,
  the result at row `i` is the logistic function of
  `(∑ k < 16, x[i,k] · w[k,0]) + (∑ d < 256, outT i d · w[16 + d, 0]) + b[0]`:
  the first sixteen rows of `w` weigh the features, the other 256 weigh the pairwise sums.
  Only sums and products of extended reals appear, in a fixed grouping; the two programs reach this
  grouping from their own by commutativity and associativity of `+`, which hold on every extended real.
-/
import Idealize.ShloMosaic.PureOps.Ideal
import Idealize.ShloMosaic.Lib.ValueIdx

noncomputable section

namespace Cert.Spec

open Idealize.ShloMosaic ValueIdx

abbrev Sx : Shape := ⟨2, ![1024, 16]⟩
abbrev ST : Shape := ⟨2, ![16, 256]⟩
abbrev Sw : Shape := ⟨2, ![272, 1]⟩
abbrev Sb : Shape := ⟨1, ![1]⟩
abbrev So : Shape := ⟨2, ![1024, 1]⟩

/-- Row `16 + d` of the weight column. -/
abbrev wRow (d : Fin 256) : Fin 272 := ⟨16 + d.val, by have := d.isLt; omega⟩
/-- Row `k` of the weight column, for a feature `k < 16`. -/
abbrev wFeat (k : Fin 16) : Fin 272 := ⟨k.val, by have := k.isLt; omega⟩

/-- `(x @ T)[i, d]`. -/
def Ms (x : Sx.Idx → EReal) (T : ST.Idx → EReal) (i : Fin 1024) (d : Fin 256) : EReal :=
  ∑ k : Fin 16, x (ix2 i k) * T (ix2 k d)

/-- `exp (-|Ms[i,d] - Ms[j,d]|)`, the absolute value as `max z (-z)`. -/
def pair (x : Sx.Idx → EReal) (T : ST.Idx → EReal) (i j : Fin 1024) (d : Fin 256) : EReal :=
  Ideal.exp (-(max (Ms x T i d - Ms x T j d) (-(Ms x T i d - Ms x T j d))))

/-- The pairwise sums: `∑ j, exp (-|Ms[i,d] - Ms[j,d]|)`. -/
def outT (x : Sx.Idx → EReal) (T : ST.Idx → EReal) (i : Fin 1024) (d : Fin 256) : EReal :=
  ∑ j : Fin 1024, pair x T i j d

/-- The linear projection of row `i`'s features and pairwise sums, plus the bias. -/
def lin (x : Sx.Idx → EReal) (T : ST.Idx → EReal) (w : Sw.Idx → EReal) (b : Sb.Idx → EReal) (i : Fin 1024) : EReal :=
  (∑ k : Fin 16, x (ix2 i k) * w (ix2 (wFeat k) (0 : Fin 1)))
    + (∑ d : Fin 256, outT x T i d * w (ix2 (wRow d) (0 : Fin 1)))
    + b (ix1 (0 : Fin 1))

/-- The result array: the logistic function of the projection, row by row. -/
def G (x : Sx.Idx → EReal) (T : ST.Idx → EReal) (w : Sw.Idx → EReal) (b : Sb.Idx → EReal) : So.Idx → EReal :=
  fun o => Ideal.logistic (lin x T w b (o 0))

/-! ## The second kernel region's result, from the arrays it reads

The region reads the product array `MS` (1024 × 256), the features `X`, and the weights and the bias as three row
vectors `WX` (1 × 16), `WO` (1 × 256), `BB` (1 × 1). It visits the second row index in eight steps of 128 rows:
row `j = 128 · jb + jj`. -/

abbrev SMs : Shape := ⟨2, ![1024, 256]⟩
abbrev Swx : Shape := ⟨2, ![1, 16]⟩
abbrev Swo : Shape := ⟨2, ![1, 256]⟩
abbrev Sbb : Shape := ⟨2, ![1, 1]⟩

/-- Row `128 · jb + jj`: the `jj`-th row of step `jb`. -/
abbrev rowJ (jb : Fin 8) (jj : Fin 128) : Fin 1024 := ⟨128 * jb.val + jj.val, by have := jb.isLt; have := jj.isLt; omega⟩

/-- `exp (-|MS[i,d] - MS[j,d]|)` over a given product array. -/
def pair1 (MS : SMs.Idx → EReal) (i j : Fin 1024) (d : Fin 256) : EReal :=
  Ideal.exp (-(max (MS (ix2 i d) - MS (ix2 j d)) (-(MS (ix2 i d) - MS (ix2 j d)))))

/-- The region's result: per row the logistic function of the features against `WX`, plus the pairwise sums —
    grouped by step — against `WO`, plus the bias. -/
def G1 (MS : SMs.Idx → EReal) (X : Sx.Idx → EReal) (WX : Swx.Idx → EReal) (WO : Swo.Idx → EReal) (BB : Sbb.Idx → EReal) :
    So.Idx → EReal :=
  fun o => Ideal.logistic
    ((∑ k : Fin 16, X (ix2 (o 0) k) * WX (ix2 (0 : Fin 1) k))
      + (∑ d : Fin 256, (∑ jb : Fin 8, ∑ jj : Fin 128, pair1 MS (o 0) (rowJ jb jj) d) * WO (ix2 (0 : Fin 1) d))
      + BB (ix2 (0 : Fin 1) (0 : Fin 1)))

end Cert.Spec

end
-- ==== Proof.Pay.lean ====
/-
  The kernels' arithmetic read at one index, on the extended reals.

  Each payload is a pure function of the blocks the body loads. Read at an index: the matrix product is the sum
  over the contracted index; the reset payload is zero; the accumulate step adds to the carried entry the sum over
  the step's 128 rows of `exp (-|a - b|)` (the body writes the exponent as `0 - |a - b|`, which is `-|a - b|` on
  every extended real); the projection is the logistic function of the features' sum against the first weights,
  the accumulated sums against the others, and the bias.
-/
import proofs.«139806_j56934086476615_1_alg».proof.Proof.Gen.KernelIdeal.Skeleton
import proofs.«139806_j56934086476615_1_alg».proof.Proof.Spec
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Pay

open Cert.KernelIdeal Cert.KernelIdeal.Gen
open Idealize.ShloMosaic ValueIdx

/-! ## The matrix product -/

/-- The operand indices of the product at output index `i` and contraction index `q`: the left operand is read at
    `(i 0, q)`, the right at `(q, i 1)`; one coordinate per lemma. -/
theorem lhs_k0_0 (i : S1024x256.Idx) (q : dot_S1024x16_S16x256_S1024x256_1_0_0_1_n_n.contr.Idx) :
    (dot_S1024x16_S16x256_S1024x256_1_0_0_1_n_n.lhsIdx i q 0).val = (i 0).val := by
  unfold DotDims.lhsIdx
  rw [dif_neg (show ¬(0 : Fin S1024x16.rank) ∈ dot_S1024x16_S16x256_S1024x256_1_0_0_1_n_n.lhsBatch by decide), dif_pos (show (0 : Fin S1024x16.rank) ∈ dot_S1024x16_S16x256_S1024x256_1_0_0_1_n_n.lhsNonContracting by decide)]
  rfl
theorem lhs_k0_1 (i : S1024x256.Idx) (q : dot_S1024x16_S16x256_S1024x256_1_0_0_1_n_n.contr.Idx) :
    (dot_S1024x16_S16x256_S1024x256_1_0_0_1_n_n.lhsIdx i q 1).val = (q ⟨0, by decide⟩).val :=
  dot_S1024x16_S16x256_S1024x256_1_0_0_1_n_n.lhsIdx_val_of_single rfl i q
theorem rhs_k0_0 (i : S1024x256.Idx) (q : dot_S1024x16_S16x256_S1024x256_1_0_0_1_n_n.contr.Idx) :
    (dot_S1024x16_S16x256_S1024x256_1_0_0_1_n_n.rhsIdx i q 0).val = (q ⟨0, by decide⟩).val :=
  dot_S1024x16_S16x256_S1024x256_1_0_0_1_n_n.rhsIdx_val_of_single rfl i q
theorem rhs_k0_1 (i : S1024x256.Idx) (q : dot_S1024x16_S16x256_S1024x256_1_0_0_1_n_n.contr.Idx) :
    (dot_S1024x16_S16x256_S1024x256_1_0_0_1_n_n.rhsIdx i q 1).val = (i 1).val := by
  unfold DotDims.rhsIdx
  rw [dif_neg (show ¬(1 : Fin S16x256.rank) ∈ dot_S1024x16_S16x256_S1024x256_1_0_0_1_n_n.rhsBatch by decide), dif_pos (show (1 : Fin S16x256.rank) ∈ dot_S1024x16_S16x256_S1024x256_1_0_0_1_n_n.rhsNonContracting by decide)]
  rfl

/-- The product at an entry: the sum over the contracted index. -/
theorem pay0_apply (x : Vec Ideal S1024x16 .f32) (T : Vec Ideal S16x256 .f32) (i : Fin 1024) (d : Fin 256) :
    k0_pay1 (F := Ideal) x T (ix2 i d) = ∑ k : Fin 16, x (ix2 i k) * T (ix2 k d) := by
  unfold k0_pay1
  simp only [matmul]
  refine (Ideal.matmul_constant_zero_apply dot_S1024x16_S16x256_S1024x256_1_0_0_1_n_n none _ _ (ix2 i d)).trans ?_
  rw [← Equiv.sum_comp (contrEquiv1 dot_S1024x16_S16x256_S1024x256_1_0_0_1_n_n 16 rfl rfl).symm]
  refine Finset.sum_congr rfl fun k _ => ?_
  have hk := contrEquiv1_symm_val dot_S1024x16_S16x256_S1024x256_1_0_0_1_n_n 16 rfl rfl k
  have el : dot_S1024x16_S16x256_S1024x256_1_0_0_1_n_n.lhsIdx (ix2 i d) ((contrEquiv1 dot_S1024x16_S16x256_S1024x256_1_0_0_1_n_n 16 rfl rfl).symm k) = ix2 i k := funext fun a => Fin.ext (by
    match a with
    | ⟨0, _⟩ => exact lhs_k0_0 _ _
    | ⟨1, _⟩ => exact (lhs_k0_1 _ _).trans hk)
  have er : dot_S1024x16_S16x256_S1024x256_1_0_0_1_n_n.rhsIdx (ix2 i d) ((contrEquiv1 dot_S1024x16_S16x256_S1024x256_1_0_0_1_n_n 16 rfl rfl).symm k) = ix2 k d := funext fun a => Fin.ext (by
    match a with
    | ⟨0, _⟩ => exact (rhs_k0_0 _ _).trans hk
    | ⟨1, _⟩ => exact rhs_k0_1 _ _)
  rw [el, er]
  rfl

/-! ## The reset payload -/

/-- The reset payload is zero everywhere. -/
theorem pay1_apply (j : S64x256.Idx) : k1_pay1 (F := Ideal) j = 0 := by
  unfold k1_pay1
  rw [shapeCast_self]
  exact Ideal.ofBits_zero_f32

/-! ## The accumulate step -/

section Layout
variable {α : Type}

/-- A `[64, 256]` array cast to `[64, 1, 256]` reads, at `(r, u, d)`, the operand at `(r, d)`. -/
theorem shapeCast_64x256_64x1x256_apply (v : S64x256.Idx → α) (h : S64x256.ShapeCasts S64x1x256)
    (r : Fin 64) (u : Fin 1) (d : Fin 256) : shapeCast S64x1x256 v h (ix3 r u d) = v (ix2 r d) :=
  shapeCast_apply v h _ _ (by
    have hu : u.val = 0 := by omega
    rw [Shape.rowMajor_val_three, Shape.rowMajor_val_two]
    show r.val * 256 + d.val = (r.val * 1 + u.val) * 256 + d.val
    rw [hu, Nat.mul_one, Nat.add_zero])

/-- A `[64, 1, 256]` array broadcast to `[64, 128, 256]` reads, at `(r, k, d)`, the operand at `(r, 0, d)`. -/
theorem broadcastTo_64x1x256_apply (v : S64x1x256.Idx → α) (h : S64x1x256.Broadcasts S64x128x256)
    (r : Fin 64) (k : Fin 128) (d : Fin 256) : broadcastTo S64x128x256 v h (ix3 r k d) = v (ix3 r (0 : Fin 1) d) := by
  refine broadcastTo_apply v h (ix3 r k d) (ix3 r (0 : Fin 1) d) fun ax => ?_
  match ax with
  | ⟨0, _⟩ => rfl
  | ⟨1, _⟩ => rfl
  | ⟨2, _⟩ => rfl

/-- A `[1, 128, 256]` array broadcast to `[64, 128, 256]` reads, at `(r, k, d)`, the operand at `(0, k, d)`. -/
theorem broadcastTo_1x128x256_apply (v : S1x128x256.Idx → α) (h : S1x128x256.Broadcasts S64x128x256)
    (r : Fin 64) (k : Fin 128) (d : Fin 256) : broadcastTo S64x128x256 v h (ix3 r k d) = v (ix3 (0 : Fin 1) k d) := by
  refine broadcastTo_apply v h (ix3 r k d) (ix3 (0 : Fin 1) k d) fun ax => ?_
  match ax with
  | ⟨0, _⟩ => rfl
  | ⟨1, _⟩ => rfl
  | ⟨2, _⟩ => rfl

/-- The left operand of the step's difference, a block's row spread over the step's rows: at `(r, k, d)` the block at `(r, d)`. -/
theorem left_apply (v : S64x256.Idx → α) (r : Fin 64) (k : Fin 128) (d : Fin 256) :
    broadcastTo S64x128x256
      (shapeCast S64x1x256 (shapeCast S64x256 v shapeCasts_S64x256_S64x256) shapeCasts_S64x256_S64x1x256)
      broadcasts_S64x1x256_S64x128x256 (ix3 r k d) = v (ix2 r d) := by
  rw [broadcastTo_64x1x256_apply, shapeCast_64x256_64x1x256_apply, shapeCast_self]

/-- The right operand, the step's rows spread over the block's rows: at `(r, k, d)` the step's block at `(k, d)`. -/
theorem right_apply (v : S128x256.Idx → α) (r : Fin 64) (k : Fin 128) (d : Fin 256) :
    broadcastTo S64x128x256
      (shapeCast S1x128x256 (shapeCast S128x256 v shapeCasts_S128x256_S128x256) shapeCasts_S128x256_S1x128x256)
      broadcasts_S1x128x256_S64x128x256 (ix3 r k d) = v (ix2 k d) := by
  rw [broadcastTo_1x128x256_apply, shapeCast_ab_1ab_apply, shapeCast_self]

end Layout

/-- The sum over the middle axis of a `[64, 128, 256]` vector, at `(r, d)`: the sum over `k` of the vector at `(r, k, d)`. -/
theorem sum_mid_apply (src : FVec Ideal S64x128x256 .f32) (r : Fin 64) (d : Fin 256) :
    multiReduction (F := Ideal) .add [1] S64x256 src 0x00000000#32 reduces_S64x128x256_S64x256 (.inl rfl) rfl (ix2 r d)
      = ∑ k : Fin 128, src (ix3 r k d) := by
  refine (Ideal.multiReduction_add_single src 0x00000000#32 reduces_S64x128x256_S64x256 (.inl rfl) rfl (ix2 r d)).trans ?_
  refine Finset.sum_congr rfl fun k _ => congrArg src ?_
  funext c
  match c with
  | ⟨0, _⟩ => rfl
  | ⟨1, _⟩ => rfl
  | ⟨2, _⟩ => rfl

/-- One accumulate step at an entry: the carried entry plus the step's sum of `exp (-|a - b|)`. -/
theorem pay2_apply (x0 : Vec Ideal S64x256 .f32) (x1 : Vec Ideal S128x256 .f32) (s : Vec Ideal S64x256 .f32) (r : Fin 64) (d : Fin 256) :
    k1_pay2 (F := Ideal) x0 x1 s (ix2 r d)
      = s (ix2 r d) + ∑ jj : Fin 128, Ideal.exp (-(max (x0 (ix2 r d) - x1 (ix2 jj d)) (-(x0 (ix2 r d) - x1 (ix2 jj d))))) := by
  unfold k1_pay2
  rw [shapeCast_self]
  refine congrArg (s (ix2 r d) + ·) ?_
  refine (sum_mid_apply _ r d).trans ?_
  refine Finset.sum_congr rfl fun k _ => ?_
  have hl := left_apply x0 r k d
  have hr := right_apply x1 r k d
  show Ideal.exp (Ideal.ofBits .f32 0x00000000#32 - max (_ - _) (-(_ - _))) = _
  rw [hl, hr, Ideal.ofBits_zero_f32, zero_sub]

/-! ## The projection -/

/-- An `[a]` array cast to the column `[a, 1]` reads, at `(i, u)`, the operand at `i`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The sum over the last axis of an `[a, b]` vector, at `r`: the sum over `k` of the vector at `(r, k)`. -/
theorem sum_last_apply {a b : ℕ} (src : FVec Ideal ⟨2, ![a, b]⟩ .f32) (h : (⟨2, ![a, b]⟩ : Shape).Reduces [1] ⟨1, ![a]⟩) (r : Fin a) :
    multiReduction (F := Ideal) .add [1] ⟨1, ![a]⟩ src 0x00000000#32 h (.inl rfl) rfl (ix1 r) = ∑ k : Fin b, src (ix2 r k) := by
  refine (Ideal.multiReduction_add_single src 0x00000000#32 h (.inl rfl) rfl (ix1 r)).trans ?_
  refine Finset.sum_congr rfl fun k _ => congrArg src ?_
  funext c
  match c with
  | ⟨0, _⟩ => rfl
  | ⟨1, _⟩ => rfl

/-- A block's rows against one row of weights, kept as a column: at `(r, u)` the sum over `k` of the block at `(r, k)` times the
    weight at `(0, k)`. -/
theorem row_dot_apply {a b : ℕ} (x : FVec Ideal ⟨2, ![a, b]⟩ .f32) (w : FVec Ideal ⟨2, ![1, b]⟩ .f32)
    (hc : (⟨2, ![1, b]⟩ : Shape).ShapeCasts ⟨2, ![1, b]⟩) (hb : (⟨2, ![1, b]⟩ : Shape).Broadcasts ⟨2, ![a, b]⟩)
    (hr : (⟨2, ![a, b]⟩ : Shape).Reduces [1] ⟨1, ![a]⟩) (hs : (⟨1, ![a]⟩ : Shape).ShapeCasts ⟨2, ![a, 1]⟩) (r : Fin a) (u : Fin 1) :
    shapeCast ⟨2, ![a, 1]⟩
        (multiReduction (F := Ideal) .add [1] ⟨1, ![a]⟩ (mulf x (broadcastTo ⟨2, ![a, b]⟩ (shapeCast ⟨2, ![1, b]⟩ w hc) hb))
          0x00000000#32 hr (.inl rfl) rfl) hs (ix2 r u)
      = ∑ k : Fin b, x (ix2 r k) * w (ix2 (0 : Fin 1) k) := by
  refine (shapeCast_a_a1_apply _ hs r u).trans ?_
  refine (sum_last_apply _ hr r).trans ?_
  refine Finset.sum_congr rfl fun k _ => ?_
  show x (ix2 r k) * _ = _
  rw [broadcastTo_1b_ab_apply, shapeCast_self]

/-- The projection at a row. -/
theorem pay3_apply (x2 : Vec Ideal S64x16 .f32) (x3 : Vec Ideal S1x16 .f32) (s : Vec Ideal S64x256 .f32)
    (x4 : Vec Ideal S1x256 .f32) (x5 : Vec Ideal S1x1 .f32) (r : Fin 64) :
    k1_pay3 (F := Ideal) x2 x3 s x4 x5 (ix2 r (0 : Fin 1))
      = Ideal.logistic ((∑ k : Fin 16, x2 (ix2 r k) * x3 (ix2 (0 : Fin 1) k))
          + (∑ d : Fin 256, s (ix2 r d) * x4 (ix2 (0 : Fin 1) d))
          + x5 (ix2 (0 : Fin 1) (0 : Fin 1))) := by
  unfold k1_pay3
  refine congrArg Ideal.logistic ?_
  refine congrArg₂ (· + ·) (congrArg₂ (· + ·) ?_ ?_) ?_
  · exact row_dot_apply x2 x3 _ _ _ _ r 0
  · exact row_dot_apply s x4 _ _ _ _ r 0
  · rw [broadcastTo_1b_ab_apply, shapeCast_self]

end Cert.KernelIdeal.Pay

end
-- ==== Proof.Value1.lean ====
/-
  What the second region leaves in the result array, on the extended reals, from the arrays it reads.

  Row block `ib` (64 rows) is written back once, at its step 7, with the projection of the block's features and
  of the scratch after eight accumulate steps from zero: entry `(r, d)` of that scratch is the sum over the
  eight steps `jb` and the step's 128 rows `jj` of `exp (-|MS[64·ib + r, d] - MS[128·jb + jj, d]|)`. The sixteen
  row blocks tile the array, so the whole array is `G1` of the five arrays read.
-/
import proofs.«139806_j56934086476615_1_alg».proof.Proof.Region1
import proofs.«139806_j56934086476615_1_alg».proof.Proof.Pay
import proofs.«139806_j56934086476615_1_alg».proof.Proof.Spec
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe ValueIdx
open Idealize.ShloMosaic.Pipeline (Dat)

namespace Value1

/-! ## The index maps over the grid

Point `t` is row block `t / 8` at step `t % 8`. The two windows on the product array and the window on the features
move as the header says; the three row vectors are whole; the result's block is row block `t / 8`. -/

section

/-- The block indices of the seven windows at a point, decided over the 128 points. -/
theorem idx1 : ∀ t : Fin cfg1.N,
    win1_0.index t (0 : Fin 2) = t.val / 8 ∧ win1_0.index t (1 : Fin 2) = 0
    ∧ win1_1.index t (0 : Fin 2) = t.val % 8 ∧ win1_1.index t (1 : Fin 2) = 0
    ∧ win1_2.index t (0 : Fin 2) = t.val / 8 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val / 8 ∧ win1_6.index t (1 : Fin 2) = 0 :=
  (by decide +kernel : ∀ t : Fin grid1.N, _)

/-- The grid has 16 × 8 = 128 points. -/
theorem N1 : cfg1.N = 128 := by decide +kernel

theorem lt128 (t : Fin cfg1.N) : t.val < 128 := lt_of_lt_of_eq t.isLt N1

variable (V : (c : Dev nD) → (b : Ref sig .tc) → Buf (Elt Ideal) ((c : Thread nD τ).loc b)) (c : Dev nD)

/-- Row `r` of row block `t / 8` is a row of the array. -/
theorem rowI_lt (t : Fin cfg1.N) (r : Fin 64) : 64 * (t.val / 8) + r.val < 1024 := by
  have := lt128 t; have := r.isLt; omega

/-- Row `jj` of step `t % 8` is a row of the array. -/
theorem rowJ_lt (t : Fin cfg1.N) (jj : Fin 128) : 128 * (t.val % 8) + jj.val < 1024 := by
  have := jj.isLt; omega

/-! ## The windows' blocks, read at an index

A block's coordinate in its array is the block index times the block's size plus the coordinate inside the block. -/

/-- The first window on the product array: rows `64 · (t / 8) + r`. -/
theorem iblk1_0_apply (t : Fin cfg1.N) (r : Fin 64) (d : Fin 256) :
    iblk1 V c 0 t (ix2 r d) = V c main_v0 (ix2 ⟨64 * (t.val / 8) + r.val, rowI_lt t r⟩ d) := by
  unfold iblk1
  rw [View.read_apply]
  show V c main_v0 (((cfg1.win 0).blk t).view.emb (ix2 r d)) = _
  congr 1
  funext a
  apply Fin.ext
  obtain ⟨e00, e01, -⟩ := idx1 t
  match a with
  | ⟨0, _⟩ => show win1_0.index t (0 : Fin 2) * 64 + 1 * r.val = 64 * (t.val / 8) + r.val; rw [e00]; omega
  | ⟨1, _⟩ => show win1_0.index t (1 : Fin 2) * 256 + 1 * d.val = d.val; rw [e01]; omega

/-- The second window on the product array: rows `128 · (t % 8) + jj`. -/
theorem iblk1_1_apply (t : Fin cfg1.N) (jj : Fin 128) (d : Fin 256) :
    iblk1 V c 1 t (ix2 jj d) = V c main_v0 (ix2 ⟨128 * (t.val % 8) + jj.val, rowJ_lt t jj⟩ d) := by
  unfold iblk1
  rw [View.read_apply]
  show V c main_v0 (((cfg1.win 1).blk t).view.emb (ix2 jj d)) = _
  congr 1
  funext a
  apply Fin.ext
  obtain ⟨-, -, e10, e11, -⟩ := idx1 t
  match a with
  | ⟨0, _⟩ => show win1_1.index t (0 : Fin 2) * 128 + 1 * jj.val = 128 * (t.val % 8) + jj.val; rw [e10]; omega
  | ⟨1, _⟩ => show win1_1.index t (1 : Fin 2) * 256 + 1 * d.val = d.val; rw [e11]; omega

/-- The window on the features: rows `64 · (t / 8) + r`. -/
theorem iblk1_2_apply (t : Fin cfg1.N) (r : Fin 64) (k : Fin 16) :
    iblk1 V c 2 t (ix2 r k) = V c main_arg0 (ix2 ⟨64 * (t.val / 8) + r.val, rowI_lt t r⟩ k) := by
  unfold iblk1
  rw [View.read_apply]
  show V c main_arg0 (((cfg1.win 2).blk t).view.emb (ix2 r k)) = _
  congr 1
  funext a
  apply Fin.ext
  obtain ⟨-, -, -, -, e20, e21, -⟩ := idx1 t
  match a with
  | ⟨0, _⟩ => show win1_2.index t (0 : Fin 2) * 64 + 1 * r.val = 64 * (t.val / 8) + r.val; rw [e20]; omega
  | ⟨1, _⟩ => show win1_2.index t (1 : Fin 2) * 16 + 1 * k.val = k.val; rw [e21]; omega

/-- The feature weights, whole. -/
theorem iblk1_3_apply (t : Fin cfg1.N) (k : Fin 16) :
    iblk1 V c 3 t (ix2 (0 : Fin 1) k) = V c main_v2 (ix2 (0 : Fin 1) k) := by
  unfold iblk1
  rw [View.read_apply]
  show V c main_v2 (((cfg1.win 3).blk t).view.emb (ix2 (0 : Fin 1) k)) = _
  congr 1
  funext a
  apply Fin.ext
  obtain ⟨-, -, -, -, -, -, e30, e31, -⟩ := idx1 t
  match a with
  | ⟨0, _⟩ => show win1_3.index t (0 : Fin 2) * 1 + 1 * 0 = 0; rw [e30]
  | ⟨1, _⟩ => show win1_3.index t (1 : Fin 2) * 16 + 1 * k.val = k.val; rw [e31]; omega

/-- The weights of the pairwise sums, whole. -/
theorem iblk1_4_apply (t : Fin cfg1.N) (d : Fin 256) :
    iblk1 V c 4 t (ix2 (0 : Fin 1) d) = V c main_v4 (ix2 (0 : Fin 1) d) := by
  unfold iblk1
  rw [View.read_apply]
  show V c main_v4 (((cfg1.win 4).blk t).view.emb (ix2 (0 : Fin 1) d)) = _
  congr 1
  funext a
  apply Fin.ext
  obtain ⟨-, -, -, -, -, -, -, -, e40, e41, -⟩ := idx1 t
  match a with
  | ⟨0, _⟩ => show win1_4.index t (0 : Fin 2) * 1 + 1 * 0 = 0; rw [e40]
  | ⟨1, _⟩ => show win1_4.index t (1 : Fin 2) * 256 + 1 * d.val = d.val; rw [e41]; omega

/-- The bias, whole. -/
theorem iblk1_5_apply (t : Fin cfg1.N) :
    iblk1 V c 5 t (ix2 (0 : Fin 1) (0 : Fin 1)) = V c main_v5 (ix2 (0 : Fin 1) (0 : Fin 1)) := by
  unfold iblk1
  rw [View.read_apply]
  show V c main_v5 (((cfg1.win 5).blk t).view.emb (ix2 (0 : Fin 1) (0 : Fin 1))) = _
  congr 1
  funext a
  apply Fin.ext
  obtain ⟨-, -, -, -, -, -, -, -, -, -, e50, e51, -⟩ := idx1 t
  match a with
  | ⟨0, _⟩ => show win1_5.index t (0 : Fin 2) * 1 + 1 * 0 = 0; rw [e50]
  | ⟨1, _⟩ => show win1_5.index t (1 : Fin 2) * 1 + 1 * 0 = 0; rw [e51]

/-! ## The scratch in closed form -/

/-- The sum a step adds at an entry: over the step's 128 rows; zero past the eight steps. -/
def stepSum (MS : Cert.Spec.SMs.Idx → EReal) (i : Fin 1024) (d : Fin 256) (s : ℕ) : EReal :=
  if h : s < 8 then ∑ jj : Fin 128, Cert.Spec.pair1 MS i (Cert.Spec.rowJ ⟨s, h⟩ jj) d else 0

/-- The scratch after a point does not depend on how the point is written. -/
theorem acc1_irrel : ∀ (n n' : ℕ) (h : n < cfg1.N) (h' : n' < cfg1.N), n = n' → acc1 V c n h = acc1 V c n' h' := by
  intro n n' h h' e; subst e; rfl

/-- At a step 0 the scratch is one step from zero. -/
theorem acc1_reset (n : ℕ) (h : n < cfg1.N) (hn : n % 8 = 0) :
    acc1 V c n h = k1_pay2 (iblk1 V c 0 ⟨n, h⟩) (iblk1 V c 1 ⟨n, h⟩) (k1_pay1 (F := Ideal)) := by
  cases n with
  | zero => rfl
  | succ n => rw [acc1_succ, if_pos hn]

/-- At every other step the scratch is one step from what the point before left. -/
theorem acc1_step (n : ℕ) (h : n + 1 < cfg1.N) (hn : ¬(n + 1) % 8 = 0) :
    acc1 V c (n + 1) h = k1_pay2 (iblk1 V c 0 ⟨n + 1, h⟩) (iblk1 V c 1 ⟨n + 1, h⟩) (acc1 V c n (Nat.lt_of_succ_lt h)) := by
  rw [acc1_succ, if_neg hn]

/-- One accumulate step at a point, read at an entry: the carried entry plus the step's sum over the product array. -/
theorem step_apply (t : Fin cfg1.N) (s : Vec Ideal S64x256 .f32) (r : Fin 64) (d : Fin 256)
    (i : Fin 1024) (hi : i.val = 64 * (t.val / 8) + r.val) (j : ℕ) (hj : j = t.val % 8) :
    k1_pay2 (F := Ideal) (iblk1 V c 0 t) (iblk1 V c 1 t) s (ix2 r d)
      = s (ix2 r d) + stepSum (V c main_v0) i d j := by
  refine (Pay.pay2_apply _ _ s r d).trans ?_
  congr 1
  subst hj
  have hi' : i = ⟨64 * (t.val / 8) + r.val, rowI_lt t r⟩ := Fin.ext hi
  subst hi'
  rw [stepSum, dif_pos (Nat.mod_lt _ (by decide))]
  refine Finset.sum_congr rfl fun jj _ => ?_
  rw [iblk1_0_apply, iblk1_1_apply]
  rfl

/-- The scratch after step `j` of row block `q`: the sums of the steps up to `j`, from zero. -/
theorem acc1_closed (q : ℕ) (hq : q < 16) : ∀ (j : ℕ) (hj : j < 8) (h : 8 * q + j < cfg1.N) (r : Fin 64) (d : Fin 256),
    acc1 V c (8 * q + j) h (ix2 r d)
      = ∑ s ∈ Finset.range (j + 1), stepSum (V c main_v0) ⟨64 * q + r.val, by have := r.isLt; omega⟩ d s
  | 0, hj, h, r, d => by
    have h0 : (8 * q) % 8 = 0 := Nat.mul_mod_right 8 q
    have e := congrFun (acc1_reset V c (8 * q) h h0) (ix2 r d)
    refine e.trans ?_
    rw [step_apply V c ⟨8 * q, h⟩ (k1_pay1 (F := Ideal)) r d ⟨64 * q + r.val, by have := r.isLt; omega⟩
      (by show 64 * q + r.val = 64 * ((8 * q) / 8) + r.val; omega) 0 (by show 0 = (8 * q) % 8; omega),
      Pay.pay1_apply, zero_add, Finset.sum_range_one]
  | j + 1, hj, h, r, d => by
    have hne : ¬(8 * q + j + 1) % 8 = 0 := by omega
    have e := congrFun (acc1_step V c (8 * q + j) h hne) (ix2 r d)
    refine e.trans ?_
    rw [step_apply V c ⟨8 * q + j + 1, h⟩ (acc1 V c (8 * q + j) (Nat.lt_of_succ_lt h)) r d ⟨64 * q + r.val, by have := r.isLt; omega⟩
      (by show 64 * q + r.val = 64 * ((8 * q + j + 1) / 8) + r.val; omega) (j + 1) (by show j + 1 = (8 * q + j + 1) % 8; omega),
      acc1_closed q hq j (Nat.lt_of_succ_lt hj) (Nat.lt_of_succ_lt h) r d, Finset.sum_range_succ _ (j + 1)]

/-- After the eighth step the scratch holds, at an entry, the pairwise terms summed step by step. -/
theorem acc1_last (t : Fin cfg1.N) (h7 : t.val % 8 = 7) (r : Fin 64) (d : Fin 256) :
    acc1 V c t.val t.isLt (ix2 r d)
      = ∑ jb : Fin 8, ∑ jj : Fin 128, Cert.Spec.pair1 (V c main_v0) ⟨64 * (t.val / 8) + r.val, rowI_lt t r⟩ (Cert.Spec.rowJ jb jj) d := by
  have ht := lt128 t
  have e : t.val = 8 * (t.val / 8) + 7 := by omega
  have h' : 8 * (t.val / 8) + 7 < cfg1.N := by rw [← e]; exact t.isLt
  rw [acc1_irrel V c t.val (8 * (t.val / 8) + 7) t.isLt h' e,
    acc1_closed V c (t.val / 8) (by omega) 7 (by decide) h' r d, Finset.sum_range]
  refine Finset.sum_congr rfl fun jb _ => ?_
  rw [stepSum, dif_pos jb.isLt]

/-! ## What a row block's last step writes back -/

/-- The result function at a row. -/
theorem G1_apply (MS : Cert.Spec.SMs.Idx → EReal) (X : Cert.Spec.Sx.Idx → EReal) (WX : Cert.Spec.Swx.Idx → EReal)
    (WO : Cert.Spec.Swo.Idx → EReal) (BB : Cert.Spec.Sbb.Idx → EReal) (i : Fin 1024) :
    Cert.Spec.G1 MS X WX WO BB (ix2 i (0 : Fin 1)) = Ideal.logistic
      ((∑ k : Fin 16, X (ix2 i k) * WX (ix2 (0 : Fin 1) k))
        + (∑ d : Fin 256, (∑ jb : Fin 8, ∑ jj : Fin 128, Cert.Spec.pair1 MS i (Cert.Spec.rowJ jb jj) d) * WO (ix2 (0 : Fin 1) d))
        + BB (ix2 (0 : Fin 1) (0 : Fin 1))) := rfl

/-- The projection at the last step of a row block, read at a row: the result function at that row of the array. -/
theorem out_apply (t : Fin cfg1.N) (h7 : t.val % 8 = 7) (r : Fin 64) :
    k1_pay3 (F := Ideal) (iblk1 V c 2 t) (iblk1 V c 3 t) (acc1 V c t.val t.isLt) (iblk1 V c 4 t) (iblk1 V c 5 t) (ix2 r (0 : Fin 1))
      = Cert.Spec.G1 (V c main_v0) (V c main_arg0) (V c main_v2) (V c main_v4) (V c main_v5)
          (ix2 ⟨64 * (t.val / 8) + r.val, rowI_lt t r⟩ (0 : Fin 1)) := by
  refine (Pay.pay3_apply _ _ _ _ _ r).trans ?_
  refine Eq.trans ?_ (G1_apply (V c main_v0) (V c main_arg0) (V c main_v2) (V c main_v4) (V c main_v5) ⟨64 * (t.val / 8) + r.val, rowI_lt t r⟩).symm
  rw [iblk1_5_apply]
  congr 3
  · refine Finset.sum_congr rfl fun k _ => ?_
    rw [iblk1_2_apply, iblk1_3_apply]
  · refine Finset.sum_congr rfl fun d _ => ?_
    rw [acc1_last V c t h7 r d, iblk1_4_apply]

/-- What the last step of a row block writes back is that block of the result function. -/
theorem flushed_eq (t : Fin cfg1.N) (hf : (cfg1.win 6).flush t = true) :
    (dat1 V c).flushed 6 t = ((cfg1.win 6).blk t).view.read (Elt Ideal)
      (Cert.Spec.G1 (V c main_v0) (V c main_arg0) (V c main_v2) (V c main_v4) (V c main_v5)) := by
  have h7 : t.val % 8 = 7 := (flush1_6 t).mp hf
  show (cfg1.win 6).cut (cfg1.grid.coords t) ((dat1 V c).after 6 t) = _
  rw [after1_6]
  have key : ∀ (r : Fin 64) (z : Fin 1),
      k1_pay3 (F := Ideal) (iblk1 V c 2 t) (iblk1 V c 3 t) (acc1 V c t.val t.isLt) (iblk1 V c 4 t) (iblk1 V c 5 t) (ix2 r z)
        = Cert.Spec.G1 (V c main_v0) (V c main_arg0) (V c main_v2) (V c main_v4) (V c main_v5)
            (((cfg1.win 6).blk t).view.emb (ix2 r z)) := by
    intro r z
    obtain rfl : z = 0 := Subsingleton.elim _ _
    rw [out_apply V c t h7 r]
    congr 1
    funext a
    apply Fin.ext
    obtain ⟨-, -, -, -, -, -, -, -, -, -, -, -, e60, e61⟩ := idx1 t
    match a with
    | ⟨0, _⟩ => show 64 * (t.val / 8) + r.val = win1_6.index t (0 : Fin 2) * 64 + 1 * r.val; rw [e60]; omega
    | ⟨1, _⟩ => show 0 = win1_6.index t (1 : Fin 2) * 1 + 1 * 0; rw [e61]
  have key' : ∀ y : S64x1.Idx,
      k1_pay3 (F := Ideal) (iblk1 V c 2 t) (iblk1 V c 3 t) (acc1 V c t.val t.isLt) (iblk1 V c 4 t) (iblk1 V c 5 t) y
        = Cert.Spec.G1 (V c main_v0) (V c main_arg0) (V c main_v2) (V c main_v4) (V c main_v5)
            (((cfg1.win 6).blk t).view.emb y) := by
    intro y
    rw [eq_ix2 y]
    exact key _ _
  funext y
  rw [View.read_apply]
  exact key' y

/-! ## The sixteen row blocks tile the array -/

/-- Row `i` lies in the block written back at point `8 · (i / 64) + 7`. -/
theorem cover (i : Cert.Spec.So.Idx) :
    ∃ t : Fin cfg1.N, (cfg1.win 6).flush t = true ∧ i ∈ ((cfg1.win 6).blk t).view.set := by
  have hi0 : (i 0).val < 1024 := (i 0).isLt
  have hi1 : (i 1).val < 1 := (i 1).isLt
  have hN := N1
  let t : Fin cfg1.N := ⟨8 * ((i 0).val / 64) + 7, by rw [N1]; omega⟩
  have htv : t.val = 8 * ((i 0).val / 64) + 7 := rfl
  refine ⟨t, (flush1_6 t).mpr (by rw [htv]; omega), ?_⟩
  show i ∈ ((View.whole main_v6).slice (win1_6.rect t)).set
  rw [View.set_slice_whole, Rect.mem_set_unit]
  obtain ⟨-, -, -, -, -, -, -, -, -, -, -, -, e60, e61⟩ := idx1 t
  intro a
  match a with
  | ⟨0, _⟩ =>
    show win1_6.index t (0 : Fin 2) * 64 ≤ (i 0).val ∧ (i 0).val < win1_6.index t (0 : Fin 2) * 64 + 64
    rw [e60, htv]; omega
  | ⟨1, _⟩ =>
    show win1_6.index t (1 : Fin 2) * 1 ≤ (i 1).val ∧ (i 1).val < win1_6.index t (1 : Fin 2) * 1 + 1
    rw [e61]; omega

end

end Value1

/-- The result array after the second region is `G1` of the arrays the region reads, as it finds them. -/
theorem region1_value (V : (c : Dev nD) → (b : Ref sig .tc) → Buf (Elt Ideal) ((c : Thread nD τ).loc b)) (c : Dev nD) :
    (dat1 (F := Ideal) V c).arrAt 6 cfg1.N
      = Cert.Spec.G1 (V c main_v0) (V c main_arg0) (V c main_v2) (V c main_v4) (V c main_v5) :=
  (dat1 V c).arrAt_eq_of_cover 6 _ (fun t ht => Value1.flushed_eq V c t ht) Value1.cover

end Cert.KernelIdeal.Hand

end
-- ==== Proof.Regroup.lean ====
/-
  Regrouping the second region's result into the specification.

  The region sums the pairwise terms over eight steps of 128 rows; every row `j < 1024` is `128 · jb + jj` for
  exactly one step `jb < 8` and one `jj < 128`, so the double sum is the sum over all rows. Addition of extended
  reals is commutative and associative, which is all the regrouping uses. With the product array read as `Ms`,
  and the weights and the bias read as the row vectors the host operations make of them, `G1` is `G`.
-/
import proofs.«139806_j56934086476615_1_alg».proof.Proof.Spec
import Mathlib.Logic.Equiv.Fin.Basic
import Mathlib.Data.Fintype.BigOperators
import Mathlib.Algebra.BigOperators.Group.Finset.Defs

noncomputable section

namespace Cert.Spec

open Idealize.ShloMosaic ValueIdx

/-- The sum over eight steps of 128 rows is the sum over the 1024 rows. -/
theorem sum_rowJ (f : Fin 1024 → EReal) : ∑ jb : Fin 8, ∑ jj : Fin 128, f (rowJ jb jj) = ∑ j : Fin 1024, f j := by
  -- the double sum is the sum over the pairs `(jb, jj)`, and `(jb, jj) ↦ jj + 128 · jb` is a bijection onto the rows
  refine (Fintype.sum_prod_type' (fun (jb : Fin 8) (jj : Fin 128) => f (rowJ jb jj))).symm.trans ?_
  refine Fintype.sum_equiv (finProdFinEquiv (m := 8) (n := 128)) _ f fun p => ?_
  exact congrArg f (Fin.ext (Nat.add_comm _ _))

/-- `G1` over the product array, the features, and the weights and the bias as row vectors, is `G`. -/
theorem G1_eq_G (x : Sx.Idx → EReal) (T : ST.Idx → EReal) (w : Sw.Idx → EReal) (b : Sb.Idx → EReal)
    (MS : SMs.Idx → EReal) (hMS : ∀ (i : Fin 1024) (d : Fin 256), MS (ix2 i d) = Ms x T i d)
    (WX : Swx.Idx → EReal) (hWX : ∀ k : Fin 16, WX (ix2 (0 : Fin 1) k) = w (ix2 (wFeat k) (0 : Fin 1)))
    (WO : Swo.Idx → EReal) (hWO : ∀ d : Fin 256, WO (ix2 (0 : Fin 1) d) = w (ix2 (wRow d) (0 : Fin 1)))
    (BB : Sbb.Idx → EReal) (hBB : BB (ix2 (0 : Fin 1) (0 : Fin 1)) = b (ix1 (0 : Fin 1))) :
    G1 MS x WX WO BB = G x T w b := by
  -- the pairwise term over the product array is the specification's
  have hp : ∀ (i j : Fin 1024) (d : Fin 256), pair1 MS i j d = pair x T i j d := by
    intro i j d
    unfold pair1 pair
    rw [hMS, hMS]
  funext o
  obtain ⟨r, c, rfl⟩ : ∃ (r : Fin 1024) (c : Fin 1), o = ix2 r c := ⟨o 0, o 1, eq_ix2 o⟩
  show Ideal.logistic ((∑ k : Fin 16, x (ix2 r k) * WX (ix2 (0 : Fin 1) k))
      + (∑ d : Fin 256, (∑ jb : Fin 8, ∑ jj : Fin 128, pair1 MS r (rowJ jb jj) d) * WO (ix2 (0 : Fin 1) d))
      + BB (ix2 (0 : Fin 1) (0 : Fin 1)))
    = Ideal.logistic ((∑ k : Fin 16, x (ix2 r k) * w (ix2 (wFeat k) (0 : Fin 1)))
      + (∑ d : Fin 256, (∑ j : Fin 1024, pair x T r j d) * w (ix2 (wRow d) (0 : Fin 1)))
      + b (ix1 (0 : Fin 1)))
  refine congrArg Ideal.logistic (congrArg₂ (· + ·) (congrArg₂ (· + ·) ?_ ?_) hBB)
  · exact Finset.sum_congr rfl fun k _ => by rw [hWX]
  · refine Finset.sum_congr rfl fun d _ => ?_
    rw [hWO]
    refine congrArg (· * w (ix2 (wRow d) (0 : Fin 1))) ?_
    refine Eq.trans ?_ (sum_rowJ fun j => pair x T r j d)
    exact Finset.sum_congr rfl fun jb _ => Finset.sum_congr rfl fun jj _ => hp r (rowJ jb jj) d

end Cert.Spec

end
-- ==== Proof.KernelValue.lean ====
/-
  The kernel program's result on the extended reals is the specification `G` of its arguments.

  The first region leaves the product `x @ T` in the product array (one block, the whole array). The host operations
  hand the second region the first sixteen weights, the other 256 weights and the bias as row vectors. The second
  region's result is `G1` of those; regrouping its sum over eight steps of 128 rows as one sum over the 1024 rows
  gives `G`.
-/
import proofs.«139806_j56934086476615_1_alg».proof.Proof.RunDefs
import proofs.«139806_j56934086476615_1_alg».proof.Proof.Value1
import proofs.«139806_j56934086476615_1_alg».proof.Proof.Pay
import proofs.«139806_j56934086476615_1_alg».proof.Proof.Spec
import proofs.«139806_j56934086476615_1_alg».proof.Proof.Regroup
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe ValueIdx
open Idealize.ShloMosaic.Pipeline (Dat)

variable {F : FTy → Type} [FloatOps F]

/-! ## The first region: one point, whole-array blocks

Each window's block at the one grid point starts at block index `0` on both axes and has the array's own sizes, so
an index of the block sits in the array at `0 · size + 1 · coordinate`: at itself. -/

/-- An index of the first input's block is the same index of the array. -/
theorem emb0_0 (t : Fin cfg0.N) (j : S1024x16.Idx) : ((cfg0.win 0).blk t).view.emb j = j := by
  funext a; apply Fin.ext
  match a with
  | ⟨0, _⟩ => show 0 * 1024 + 1 * (j 0).val = (j 0).val; omega
  | ⟨1, _⟩ => show 0 * 16 + 1 * (j 1).val = (j 1).val; omega

/-- An index of the second input's block is the same index of the array. -/
theorem emb0_1 (t : Fin cfg0.N) (j : S16x256.Idx) : ((cfg0.win 1).blk t).view.emb j = j := by
  funext a; apply Fin.ext
  match a with
  | ⟨0, _⟩ => show 0 * 16 + 1 * (j 0).val = (j 0).val; omega
  | ⟨1, _⟩ => show 0 * 256 + 1 * (j 1).val = (j 1).val; omega

/-- An index of the output's block is the same index of the array. -/
theorem emb0_2 (t : Fin cfg0.N) (j : S1024x256.Idx) : ((cfg0.win 2).blk t).view.emb j = j := by
  funext a; apply Fin.ext
  match a with
  | ⟨0, _⟩ => show 0 * 1024 + 1 * (j 0).val = (j 0).val; omega
  | ⟨1, _⟩ => show 0 * 256 + 1 * (j 1).val = (j 1).val; omega

section Region0

variable (V : (c : Dev nD) → (b : Ref sig .tc) → Buf (Elt F) ((c : Thread nD τ).loc b))

/-- The first input's block is the whole first argument array. -/
theorem iblk0_0 (c : Dev nD) (t : Fin cfg0.N) : iblk0 V c 0 t = V c main_arg0 := by
  funext j
  unfold iblk0
  rw [View.read_apply]
  show V c main_arg0 (((cfg0.win 0).blk t).view.emb j) = V c main_arg0 j
  exact congrArg (V c main_arg0) (emb0_0 t j)

/-- The second input's block is the whole second argument array. -/
theorem iblk0_1 (c : Dev nD) (t : Fin cfg0.N) : iblk0 V c 1 t = V c main_arg1 := by
  funext j
  unfold iblk0
  rw [View.read_apply]
  show V c main_arg1 (((cfg0.win 1).blk t).view.emb j) = V c main_arg1 j
  exact congrArg (V c main_arg1) (emb0_1 t j)

end Region0

/-- The product array after the first region: the product of the two argument arrays as the region finds them. -/
theorem region0_value (V : (c : Dev nD) → (b : Ref sig .tc) → Buf (Elt F) ((c : Thread nD τ).loc b)) (c : Dev nD) :
    (dat0 (F := F) V c).arrAt 2 cfg0.N = k0_pay1 (V c main_arg0) (V c main_arg1) := by
  refine (dat0 V c).arrAt_eq_of_cover 2 _ (fun t _ => ?_) (fun i => ?_)
  · -- what the one point writes back is the product of the two whole arrays, and its block is the whole array
    show (cfg0.win 2).cut (grid0.coords t) ((dat0 V c).after 2 t) = _
    rw [after0_2, iblk0_0, iblk0_1]
    funext j
    rw [View.read_apply]
    show k0_pay1 (V c main_arg0) (V c main_arg1) j = k0_pay1 (V c main_arg0) (V c main_arg1) (((cfg0.win 2).blk t).view.emb j)
    exact (congrArg (k0_pay1 (V c main_arg0) (V c main_arg1)) (emb0_2 t j)).symm
  · -- every index of the array is in the one point's block
    refine ⟨⟨0, by decide⟩, flush0_2 _, ?_⟩
    have h := ((cfg0.win 2).blk ⟨0, by decide⟩).view.emb_mem_set i
    rw [emb0_2] at h
    exact h

/-! ## The host operations' results, from the launch memory -/

/-- The first row vector: the slice of the first sixteen weights, reshaped to a row. -/
theorem v2_eq (m : (ℓ : Loc nD τ sig) → Buf (Elt Ideal) ℓ) (c : Dev nD) :
    (V2 (F := Ideal) m c main_v2 : S1x16.Idx → EReal)
      = shapeCast S1x16 (extractStridedSlice S16x1 ![0, 0] (m ((c : Thread nD τ).loc main_arg2)) slices_S272x1_S16x1_0_0) shapeCasts_S16x1_S1x16 := by
  dsimp only [V2, W2, hostOps1]
  after_results
  rw [W1_of_ne m c main_arg2 (by decide)]
  rfl

/-- The second row vector: the slice of the other 256 weights, reshaped to a row. -/
theorem v4_eq (m : (ℓ : Loc nD τ sig) → Buf (Elt Ideal) ℓ) (c : Dev nD) :
    (V2 (F := Ideal) m c main_v4 : S1x256.Idx → EReal)
      = shapeCast S1x256 (extractStridedSlice S256x1 ![16, 0] (m ((c : Thread nD τ).loc main_arg2)) slices_S272x1_S256x1_16_0) shapeCasts_S256x1_S1x256 := by
  dsimp only [V2, W2, hostOps1]
  after_results
  rw [W1_of_ne m c main_arg2 (by decide)]
  rfl

/-- The bias as a 1 × 1 array. -/
theorem v5_eq (m : (ℓ : Loc nD τ sig) → Buf (Elt Ideal) ℓ) (c : Dev nD) :
    (V2 (F := Ideal) m c main_v5 : S1x1.Idx → EReal)
      = shapeCast S1x1 (m ((c : Thread nD τ).loc main_arg3)) shapeCasts_S1_S1x1 := by
  dsimp only [V2, W2, hostOps1]
  after_results
  rw [W1_of_ne m c main_arg3 (by decide)]
  rfl

/-! ## The row vectors read at an index

A reshape keeps the row-major position: entry `(0, k)` of a `1 × n` row is entry `(k, 0)` of the `n × 1` column. A
slice at row offset `r` reads row `r + k`. -/

/-- Entry `k` of the first row vector is weight `k`. -/
theorem read_wx (w : S272x1.Idx → EReal) (k : Fin 16) :
    shapeCast S1x16 (extractStridedSlice S16x1 ![0, 0] w slices_S272x1_S16x1_0_0) shapeCasts_S16x1_S1x16 (ix2 (0 : Fin 1) k)
      = w (ix2 (Cert.Spec.wFeat k) (0 : Fin 1)) := by
  refine (shapeCast_apply _ _ (ix2 (0 : Fin 1) k) (ix2 k (0 : Fin 1)) ?_).trans ?_
  · rw [Shape.rowMajor_val_two, Shape.rowMajor_val_two]; show k.val * 1 + 0 = 0 * 16 + k.val; omega
  · refine extractStridedSlice_apply _ _ _ _ _ fun a => ?_
    match a with
    | ⟨0, _⟩ => show k.val = 0 + k.val; omega
    | ⟨1, _⟩ => show 0 = 0 + 0; rfl

/-- Entry `d` of the second row vector is weight `16 + d`. -/
theorem read_wo (w : S272x1.Idx → EReal) (d : Fin 256) :
    shapeCast S1x256 (extractStridedSlice S256x1 ![16, 0] w slices_S272x1_S256x1_16_0) shapeCasts_S256x1_S1x256 (ix2 (0 : Fin 1) d)
      = w (ix2 (Cert.Spec.wRow d) (0 : Fin 1)) := by
  refine (shapeCast_apply _ _ (ix2 (0 : Fin 1) d) (ix2 d (0 : Fin 1)) ?_).trans ?_
  · rw [Shape.rowMajor_val_two, Shape.rowMajor_val_two]; show d.val * 1 + 0 = 0 * 256 + d.val; omega
  · refine extractStridedSlice_apply _ _ _ _ _ fun a => ?_
    match a with
    | ⟨0, _⟩ => show 16 + d.val = 16 + d.val; rfl
    | ⟨1, _⟩ => show 0 = 0 + 0; rfl

/-- The one entry of the reshaped bias is the bias. -/
theorem read_bb (b : S1.Idx → EReal) :
    shapeCast S1x1 b shapeCasts_S1_S1x1 (ix2 (0 : Fin 1) (0 : Fin 1)) = b (ix1 (0 : Fin 1)) := by
  refine shapeCast_apply _ _ (ix2 (0 : Fin 1) (0 : Fin 1)) (ix1 (0 : Fin 1)) ?_
  rw [Shape.rowMajor_val_two, Shape.rowMajor_val_one]; rfl

/-! ## The whole program -/

/-- The result array after the whole program, on the extended reals. -/
theorem kernel_value (m : (ℓ : Loc nD τ sig) → Buf (Elt Ideal) ℓ) (c : Dev nD) :
    W3 (F := Ideal) m c main_v6
      = Cert.Spec.G (m ((c : Thread nD τ).loc main_arg0)) (m ((c : Thread nD τ).loc main_arg1))
          (m ((c : Thread nD τ).loc main_arg2)) (m ((c : Thread nD τ).loc main_arg3)) := by
  rw [W3_main_v6, region1_value (V2 m) c]
  -- the features reach the second region as launched; the product array as the first region left it
  have e0 : V2 (F := Ideal) m c main_arg0 = m ((c : Thread nD τ).loc main_arg0) := W2_main_arg0 m c
  have eMs : V2 (F := Ideal) m c main_v0
      = k0_pay1 (m ((c : Thread nD τ).loc main_arg0)) (m ((c : Thread nD τ).loc main_arg1)) :=
    (W2_main_v0 m c).trans (region0_value (V0 m) c)
  rw [e0]
  refine Cert.Spec.G1_eq_G _ _ _ _ _ (fun i d => ?_) _ (fun k => ?_) _ (fun d => ?_) _ ?_
  · rw [eMs]; exact Pay.pay0_apply _ _ i d
  · rw [v2_eq]; exact read_wx _ k
  · rw [v4_eq]; exact read_wo _ d
  · rw [v5_eq]; exact read_bb _

end Cert.KernelIdeal.Hand

end
-- ==== Proof.RefValue.lean ====
/-
  The reference's result, read one operation at a time, is the specification `Cert.Spec.G` of its arguments.

  Reading order: the product `x @ T` at an index is `Ms`; the two broadcasts, the difference, the absolute value,
  the negation and the exponential at an index `(i, j, d)` are `pair i j d`; the sum over the middle axis from a zero
  initial value is `outT`; the concatenation along the columns reads `x` at a column below 16 and `outT` at a column
  `16 + d`; the second product's sum over 272 columns splits into the first 16 and the last 256; and
  `1 / (1 + exp (-z))` is the logistic function of `z`.
-/
import proofs.«139806_j56934086476615_1_alg».proof.Proof.Gen.ReferenceIdeal.Run
import proofs.«139806_j56934086476615_1_alg».proof.Proof.Gen.ReferenceIdeal.Read
import proofs.«139806_j56934086476615_1_alg».proof.Proof.Spec
import Idealize.ShloMosaic.Lib.IdealHost

noncomputable section

namespace Cert.ReferenceIdeal.RefValue

open Idealize.ShloMosaic ValueIdx Cert.ReferenceIdeal Cert.ReferenceIdeal.Read Cert.Spec

/-! ## The composed index functions, on indices given by coordinates -/

theorem lidx0_ix (i : Fin 1024) (d : Fin 256) (k : Fin 16) : lidx_main_v0 (ix2 i d) k = ix2 i k := by
  funext a; match a with | ⟨0, _⟩ => rfl | ⟨1, _⟩ => rfl

theorem ridx0_ix (i : Fin 1024) (d : Fin 256) (k : Fin 16) : ridx_main_v0 (ix2 i d) k = ix2 k d := by
  funext a; match a with | ⟨0, _⟩ => rfl | ⟨1, _⟩ => rfl

theorem idx13_ix (i j : Fin 1024) (d : Fin 256) : idx_main_v1 (idx_main_v3 (ix3 i j d)) = ix2 i d := by
  funext a; match a with | ⟨0, _⟩ => rfl | ⟨1, _⟩ => rfl

theorem idx24_ix (i j : Fin 1024) (d : Fin 256) : idx_main_v2 (idx_main_v4 (ix3 i j d)) = ix2 j d := by
  funext a; match a with | ⟨0, _⟩ => rfl | ⟨1, _⟩ => rfl

theorem idx9_ix (i j : Fin 1024) (d : Fin 256) : idx_main_v9 (ix2 i d) j = ix3 i j d := by
  funext a; match a with | ⟨0, _⟩ => rfl | ⟨1, _⟩ => rfl | ⟨2, _⟩ => rfl

theorem lidx11_ix (r : Fin 1024) (c : Fin 1) (k : Fin 272) : lidx_main_v11 (ix2 r c) k = ix2 r k := by
  funext a; match a with | ⟨0, _⟩ => rfl | ⟨1, _⟩ => rfl

theorem ridx11_ix (r : Fin 1024) (c : Fin 1) (k : Fin 272) : ridx_main_v11 (ix2 r c) k = ix2 k c := by
  funext a; match a with | ⟨0, _⟩ => rfl | ⟨1, _⟩ => rfl

theorem idx1213_ix (r : Fin 1024) (c : Fin 1) : idx_main_v12 (idx_main_v13 (ix2 r c)) = ix1 (0 : Fin 1) := by
  funext a; match a with | ⟨0, _⟩ => rfl

/-! ## The operations, one at a time -/

section
variable (x0 : (⟨S1024x16, .f32⟩ : BufTy).Contents (Elt Ideal)) (x1 : (⟨S16x256, .f32⟩ : BufTy).Contents (Elt Ideal))

/-- The first product at `(i, d)` is `∑ k, x[i,k] · T[k,d]`. -/
theorem v0_at (i : Fin 1024) (d : Fin 256) :
    val_main_v0 (F := Ideal) x0 x1 (ix2 i d) = Ms x0 x1 i d := by
  rw [val_main_v0_apply]
  unfold Ms
  refine Finset.sum_congr rfl fun k _ => ?_
  rw [lidx0_ix, ridx0_ix]

/-- The exponential of minus the absolute difference of the two broadcasts at `(i, j, d)`. -/
theorem v8_at (i j : Fin 1024) (d : Fin 256) :
    val_main_v8 (F := Ideal) x0 x1 (ix3 i j d) = pair x0 x1 i j d := by
  rw [val_main_v8_apply, val_main_v7_apply, val_main_v6_apply, val_main_v5_apply, val_main_v3_apply,
    val_main_v4_apply, val_main_v1_apply, val_main_v2_apply, idx13_ix, idx24_ix, v0_at, v0_at]
  rfl

/-- The sum over the middle axis, from the zero initial value. -/
theorem v9_at (i : Fin 1024) (d : Fin 256) :
    val_main_v9 (F := Ideal) x0 x1 (ix2 i d) = outT x0 x1 i d := by
  rw [val_main_v9_apply, val_main_cst_apply, Ideal.ofBits_def, Ideal.ofBits_zero_f32, zero_add]
  unfold outT
  refine Finset.sum_congr rfl fun j _ => ?_
  rw [idx9_ix, v8_at]

/-- The concatenation at a column below 16 reads `x`. -/
theorem v10_left (i : Fin 1024) (k : Fin 16) :
    val_main_v10 (F := Ideal) x0 x1 (ix2 i (wFeat k)) = x0 (ix2 i k) := by
  unfold val_main_v10
  generalize val_main_v9 (F := Ideal) x0 x1 = y
  exact concatenate_pair_apply_left 1 x0 y _ (ix2 i (wFeat k)) rfl (ix2 i k) (fun b => by
    match b with
    | ⟨0, _⟩ => rfl
    | ⟨1, _⟩ => rfl)

/-- The concatenation at column `16 + d` reads the pairwise sums at column `d`. -/
theorem v10_right (i : Fin 1024) (d : Fin 256) :
    val_main_v10 (F := Ideal) x0 x1 (ix2 i (wRow d)) = outT x0 x1 i d := by
  rw [← v9_at]
  unfold val_main_v10
  generalize val_main_v9 (F := Ideal) x0 x1 = y
  exact concatenate_pair_apply_right 1 x0 y _ (ix2 i (wRow d)) rfl rfl (ix2 i d)
    (fun b hb => by
      match b with
      | ⟨0, _⟩ => rfl
      | ⟨1, _⟩ => exact absurd rfl hb)
    (Nat.add_comm _ _)

end

/-- A sum over 272 columns is the sum over the first 16 plus the sum over the last 256. -/
theorem sum_split (f : Fin 272 → EReal) :
    ∑ k : Fin 272, f k = (∑ k : Fin 16, f (wFeat k)) + ∑ d : Fin 256, f (wRow d) :=
  Fin.sum_univ_add (M := EReal) (a := 16) (b := 256) f

section
variable (x0 : (⟨S1024x16, .f32⟩ : BufTy).Contents (Elt Ideal)) (x1 : (⟨S16x256, .f32⟩ : BufTy).Contents (Elt Ideal))
  (x2 : (⟨S272x1, .f32⟩ : BufTy).Contents (Elt Ideal)) (x3 : (⟨S1, .f32⟩ : BufTy).Contents (Elt Ideal))

/-- The second product at row `r`: the features against the first 16 weights plus the pairwise sums against the rest. -/
theorem v11_at (r : Fin 1024) (c : Fin 1) :
    val_main_v11 (F := Ideal) x0 x1 x2 (ix2 r c)
      = (∑ k : Fin 16, x0 (ix2 r k) * x2 (ix2 (wFeat k) c))
        + ∑ d : Fin 256, outT x0 x1 r d * x2 (ix2 (wRow d) c) := by
  rw [val_main_v11_apply]
  refine (sum_split _).trans ?_
  congr 1
  · refine Finset.sum_congr rfl fun k _ => ?_
    rw [lidx11_ix, ridx11_ix, v10_left]
  · refine Finset.sum_congr rfl fun d _ => ?_
    rw [lidx11_ix, ridx11_ix, v10_right]

/-- The reference's result is the specification. -/
theorem ref_eq_G :
    Cert.ReferenceIdeal.Read.val_main_v20 (F := Ideal) x0 x1 x2 x3 = Cert.Spec.G x0 x1 x2 x3 := by
  funext o
  obtain ⟨r, c, rfl⟩ : ∃ (r : Fin 1024) (c : Fin 1), o = ix2 r c := ⟨o 0, o 1, eq_ix2 o⟩
  obtain rfl : c = 0 := Subsingleton.elim _ _
  rw [val_main_v20_apply, val_main_v19_apply, val_main_cst_1_apply, val_main_v18_apply, val_main_v17_apply,
    val_main_cst_0_apply, val_main_v16_apply, val_main_v15_apply, val_main_v14_apply, val_main_v13_apply,
    val_main_v12_apply, idx1213_ix, v11_at, Ideal.ofBits_def, Ideal.ofBits_one_f32]
  rfl

end

end Cert.ReferenceIdeal.RefValue

end
-- ==== Proof.lean ====
/-
  The certificate: the kernel program computes, on the extended reals, what the reference computes.

  Both programs compute, per row `i` of `x`, the logistic function of
  `(∑ k, x[i,k] · w[k]) + (∑ d, (∑ j, exp (-|Ms[i,d] - Ms[j,d]|)) · w[16 + d]) + b`, with `Ms = x @ T`
  (`Cert.Spec.G`). The kernel program does it in two pipelined regions — the product in one grid point, then
  the pairwise sums accumulated in a scratch buffer over eight steps of 128 rows and projected at the last
  step — around host operations that slice and reshape the weights; the reference does it as one chain of
  array operations over the concatenation of `x` and the pairwise sums. The two groupings of the sums agree by
  commutativity and associativity of addition, which hold on every extended real, so the precondition is
  never opened. The kernel's logistic operation is, on the extended reals, the quotient `1 / (1 + exp (-z))` the
  reference spells out, and its exponent `0 - |z|` is the reference's `-|z|`.

  The frames: each kernel program's run ends with every unscoped buffer at the last boundary's contents, where
  the four arguments are as launched; the reference's frame is its run with the result dropped. The ideal pass
  rewrote nothing, so the idealization conjunct is trivial.
-/
import proofs.«139806_j56934086476615_1_alg».proof.Defs
import proofs.«139806_j56934086476615_1_alg».proof.Proof.Gen.Kernel
import proofs.«139806_j56934086476615_1_alg».proof.Proof.Gen.KernelIdeal
import proofs.«139806_j56934086476615_1_alg».proof.Proof.Gen.ReferenceIdeal
import proofs.«139806_j56934086476615_1_alg».proof.Proof.Gen.Pre_finite_inputs
import proofs.«139806_j56934086476615_1_alg».proof.Proof.Gen.ReferenceIdeal.Run
import proofs.«139806_j56934086476615_1_alg».proof.Proof.Gen.ReferenceIdeal.Read
import proofs.«139806_j56934086476615_1_alg».proof.Proof.Bits.Run
import proofs.«139806_j56934086476615_1_alg».proof.Proof.Run
import proofs.«139806_j56934086476615_1_alg».proof.Proof.KernelValue
import proofs.«139806_j56934086476615_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel program runs and leaves its arguments as launched. -/
theorem frame_k : Cert.frame_Kernel (hKernel := Cert.Kernel.Gen.facts) (hPre_finite_inputs := Cert.Pre_finite_inputs.Gen.facts) :=
  fun m ρ _ => (θ_run Cert.Kernel.defs _ _).mono
    (fun r h c =>
      ⟨(h c _ (Cert.Kernel.Hand.mem_uc Cert.Kernel.main_arg0 (by decide))).trans (Cert.Kernel.Hand.W3_main_arg0 m c),
       (h c _ (Cert.Kernel.Hand.mem_uc Cert.Kernel.main_arg1 (by decide))).trans (Cert.Kernel.Hand.W3_main_arg1 m c),
       (h c _ (Cert.Kernel.Hand.mem_uc Cert.Kernel.main_arg2 (by decide))).trans (Cert.Kernel.Hand.W3_main_arg2 m c),
       (h c _ (Cert.Kernel.Hand.mem_uc Cert.Kernel.main_arg3 (by decide))).trans (Cert.Kernel.Hand.W3_main_arg3 m c)⟩)
    (Cert.Kernel.Hand.run_all (F := Bits) m ρ)

/-- The idealized kernel program runs and leaves its arguments as launched. -/
theorem frame_ki : Cert.frame_KernelIdeal (hKernelIdeal := Cert.KernelIdeal.Gen.facts) (hPre_finite_inputs := Cert.Pre_finite_inputs.Gen.facts) :=
  fun m ρ _ => (θ_run Cert.KernelIdeal.defs _ _).mono
    (fun r h c =>
      ⟨(h c _ (Cert.KernelIdeal.Hand.mem_uc Cert.KernelIdeal.main_arg0 (by decide))).trans (Cert.KernelIdeal.Hand.W3_main_arg0 m c),
       (h c _ (Cert.KernelIdeal.Hand.mem_uc Cert.KernelIdeal.main_arg1 (by decide))).trans (Cert.KernelIdeal.Hand.W3_main_arg1 m c),
       (h c _ (Cert.KernelIdeal.Hand.mem_uc Cert.KernelIdeal.main_arg2 (by decide))).trans (Cert.KernelIdeal.Hand.W3_main_arg2 m c),
       (h c _ (Cert.KernelIdeal.Hand.mem_uc Cert.KernelIdeal.main_arg3 (by decide))).trans (Cert.KernelIdeal.Hand.W3_main_arg3 m c)⟩)
    (Cert.KernelIdeal.Hand.run_all (F := Ideal) m ρ)

/-- The reference runs and leaves its arguments as launched: its run, the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- From memories agreeing on the arguments both programs end with the result array at `G` of the arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.Spec.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · exact (θ_run Cert.KernelIdeal.defs _ _).mono
      (fun r h c =>
        ⟨(h c _ (Cert.KernelIdeal.Hand.mem_uc Cert.KernelIdeal.main_v6 (by decide))).trans (Cert.KernelIdeal.Hand.kernel_value m c),
         (h c _ (Cert.KernelIdeal.Hand.mem_uc Cert.KernelIdeal.main_arg0 (by decide))).trans (Cert.KernelIdeal.Hand.W3_main_arg0 m c),
         (h c _ (Cert.KernelIdeal.Hand.mem_uc Cert.KernelIdeal.main_arg1 (by decide))).trans (Cert.KernelIdeal.Hand.W3_main_arg1 m c),
         (h c _ (Cert.KernelIdeal.Hand.mem_uc Cert.KernelIdeal.main_arg2 (by decide))).trans (Cert.KernelIdeal.Hand.W3_main_arg2 m c),
         (h c _ (Cert.KernelIdeal.Hand.mem_uc Cert.KernelIdeal.main_arg3 (by decide))).trans (Cert.KernelIdeal.Hand.W3_main_arg3 m c)⟩)
      (Cert.KernelIdeal.Hand.run_all (F := Ideal) m ρ)
  · refine (θ_run Cert.ReferenceIdeal.defs _ _).mono (fun _ h c => ⟨(h c).1.trans ?_, (h c).2⟩)
      (Cert.ReferenceIdeal.Value.run (F := Ideal) m' ρ')
    rw [(hagree c).1, (hagree c).2.1, (hagree c).2.2.1, (hagree c).2.2.2]
    exact (Cert.ReferenceIdeal.Read.val_main_v20_eq (F := Ideal) _ _ _ _).trans (Cert.ReferenceIdeal.RefValue.ref_eq_G _ _ _ _)

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
